-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S32 : Shape := ⟨1, ![32]⟩
abbrev S2546x512 : Shape := ⟨2, ![2546, 512]⟩
abbrev S_ : Shape := ⟨0, ![]⟩

class Facts : Prop where
  bcast_S_S2546x512 : S_.BroadcastsInDim S2546x512 (![] : Fin 0 → Fin S2546x512.rank)
  reducesTo_S2546x512_S_d0_1 : S2546x512.ReducesTo [0, 1] S_
  h_S_ : 0 < S_.numel
  bcast_S_S32x1024 : S_.BroadcastsInDim S32x1024 (![] : Fin 0 → Fin S32x1024.rank)
  reducesTo_S32x1024_S_d0_1 : S32x1024.ReducesTo [0, 1] S_

variable [Facts]

def fn {F : FTy → Type} [FloatOps F] (main_arg0 : IVec S32x1024 32) (main_arg1 : IVec S32 32) (main_arg2 : FVec F S2546x512 .f32) : IVec S_ 1 :=
  let main_v0 : FVec F S2546x512 .f32 := Host.absf main_arg2
  let main_cst : FVec F S_ .f32 := constant S_ .f32 0x7F800000#32
  let main_v1 : FVec F S2546x512 .f32 := broadcastInDim S2546x512 ![] bcast_S_S2546x512 main_cst
  let main_v2 : IVec S2546x512 1 := cmpf .olt main_v0 main_v1
  let main_c : IVec S_ 1 := constantI S_ 1 1#1
  let main_v3 : IVec S_ 1 := (fun x v => Host.reduce IntOp.andi x v reducesTo_S2546x512_S_d0_1 h_S_) main_v2 main_c
  let main_c_0 : IVec S_ 32 := constantI S_ 32 4294967295#32
  let main_v4 : IVec S32x1024 32 := broadcastInDim S32x1024 ![] bcast_S_S32x1024 main_c_0
  let main_v5 : IVec S32x1024 1 := cmpi .sge main_arg0 main_v4
  let main_c_1 : IVec S_ 32 := constantI S_ 32 2544#32
  let main_v6 : IVec S32x1024 32 := broadcastInDim S32x1024 ![] bcast_S_S32x1024 main_c_1
  let main_v7 : IVec S32x1024 1 := cmpi .sle main_arg0 main_v6
  let main_v8 : IVec S32x1024 1 := andi main_v5 main_v7
  let main_c_2 : IVec S_ 1 := constantI S_ 1 1#1
  let main_v9 : IVec S_ 1 := (fun x v => Host.reduce IntOp.andi x v reducesTo_S32x1024_S_d0_1 h_S_) main_v8 main_c_2
  let main_v10 : IVec S_ 1 := andi main_v3 main_v9
  main_v10
-- ==== Kernel.lean ====
abbrev S32x1024 : Shape := ⟨2, ![32, 1024]⟩
abbrev S32 : Shape := ⟨1, ![32]⟩
abbrev S2546x512 : Shape := ⟨2, ![2546, 512]⟩
abbrev S_ : Shape := ⟨0, ![]⟩
abbrev S1024 : Shape := ⟨1, ![1024]⟩
abbrev S1x1024 : Shape := ⟨2, ![1, 1024]⟩
abbrev S32x1 : Shape := ⟨2, ![32, 1]⟩
abbrev S4096 : Shape := ⟨1, ![4096]⟩
abbrev S1x4096 : Shape := ⟨2, ![1, 4096]⟩
abbrev S32x4096 : Shape := ⟨2, ![32, 4096]⟩
abbrev S32x1024x1 : Shape := ⟨3, ![32, 1024, 1]⟩
abbrev S32x4096x1 : Shape := ⟨3, ![32, 4096, 1]⟩
abbrev S2560x512 : Shape := ⟨2, ![2560, 512]⟩
abbrev S32x4096x512 : Shape := ⟨3, ![32, 4096, 512]⟩
abbrev S1x1024x1 : Shape := ⟨3, ![1, 1024, 1]⟩
abbrev S1x1024x512 : Shape := ⟨3, ![1, 1024, 512]⟩
abbrev S1024x512 : Shape := ⟨2, ![1024, 512]⟩
abbrev S1024x1 : Shape := ⟨2, ![1024, 1]⟩
abbrev S512x512 : Shape := ⟨2, ![512, 512]⟩
abbrev S1024x1024 : Shape := ⟨2, ![1024, 1024]⟩

abbrev nBuf : Space → Nat
  | .hbm => 150
  | .vmem => 8
  | .smem => 0
  | _ => 0

abbrev hbmTy0_0 (i : Nat) : BufTy := match i % 128 with
  | 0 => ⟨S32x1024, .i32⟩
  | 1 => ⟨S32, .i32⟩
  | 2 => ⟨S2546x512, .f32⟩
  | 3 => ⟨S_, .i32⟩
  | 4 => ⟨S32x1024, .i32⟩
  | 5 => ⟨S32x1024, .i32⟩
  | 6 => ⟨S1024, .i32⟩
  | 7 => ⟨S1x1024, .i32⟩
  | 8 => ⟨S_, .i32⟩
  | 9 => ⟨S32x1024, .i32⟩
  | 10 => ⟨S32x1024, .i1⟩
  | 11 => ⟨S32x1, .i32⟩
  | 12 => ⟨S32x1024, .i32⟩
  | 13 => ⟨S32x1024, .i32⟩
  | 14 => ⟨S32x1024, .i1⟩
  | 15 => ⟨S32x1024, .i1⟩
  | 16 => ⟨S32x1024, .i32⟩
  | 17 => ⟨S_, .i32⟩
  | 18 => ⟨S32, .i32⟩
  | 19 => ⟨S4096, .i32⟩
  | 20 => ⟨S1x4096, .i32⟩
  | 21 => ⟨S_, .i32⟩
  | 22 => ⟨S32, .i32⟩
  | 23 => ⟨S32, .i32⟩
  | 24 => ⟨S32x1, .i32⟩
  | 25 => ⟨S32x1, .i32⟩
  | 26 => ⟨S32x1, .i32⟩
  | 27 => ⟨S32x1, .i32⟩
  | 28 => ⟨S32x1, .i32⟩
  | 29 => ⟨S32x1, .i1⟩
  | 30 => ⟨S32x1, .i32⟩
  | 31 => ⟨S_, .i32⟩
  | 32 => ⟨S32x1, .i32⟩
  | 33 => ⟨S32x1, .i1⟩
  | 34 => ⟨S32x1, .i1⟩
  | 35 => ⟨S_, .i32⟩
  | 36 => ⟨S32x1, .i32⟩
  | 37 => ⟨S32x1, .i32⟩
  | 38 => ⟨S32x1, .i32⟩
  | 39 => ⟨S32x1, .i32⟩
  | 40 => ⟨S_, .i32⟩
  | 41 => ⟨S32x1, .i32⟩
  | 42 => ⟨S32x1, .i1⟩
  | 43 => ⟨S_, .i32⟩
  | 44 => ⟨S32x1, .i32⟩
  | 45 => ⟨S32x1, .i32⟩
  | 46 => ⟨S32x1, .i32⟩
  | 47 => ⟨S_, .i32⟩
  | 48 => ⟨S32x1, .i32⟩
  | 49 => ⟨S32x1, .i1⟩
  | 50 => ⟨S_, .i32⟩
  | 51 => ⟨S32x1, .i32⟩
  | 52 => ⟨S32x1, .i1⟩
  | 53 => ⟨S_, .i32⟩
  | 54 => ⟨S32x1, .i32⟩
  | 55 => ⟨S32x1, .i1⟩
  | 56 => ⟨S32x1, .i1⟩
  | 57 => ⟨S32x1, .i1⟩
  | 58 => ⟨S32x1, .i32⟩
  | 59 => ⟨S32x1, .i32⟩
  | 60 => ⟨S32x1, .i32⟩
  | 61 => ⟨S32x1, .i32⟩
  | 62 => ⟨S32x1, .i32⟩
  | 63 => ⟨S_, .i32⟩
  | 64 => ⟨S32x1, .i32⟩
  | 65 => ⟨S32x1, .i32⟩
  | 66 => ⟨S32x4096, .i32⟩
  | 67 => ⟨S32x4096, .i32⟩
  | 68 => ⟨S32x4096, .i1⟩
  | 69 => ⟨S32x4096, .i32⟩
  | 70 => ⟨S32x4096, .i32⟩
  | 71 => ⟨S32x4096, .i32⟩
  | 72 => ⟨S1x4096, .i32⟩
  | 73 => ⟨S32x1, .i32⟩
  | 74 => ⟨S32x4096, .i32⟩
  | 75 => ⟨S32x4096, .i32⟩
  | 76 => ⟨S32x4096, .i1⟩
  | 77 => ⟨S32x4096, .i32⟩
  | 78 => ⟨S32x4096, .i32⟩
  | 79 => ⟨S32x4096, .i32⟩
  | 80 => ⟨S_, .i32⟩
  | 81 => ⟨S32x4096, .i32⟩
  | 82 => ⟨S32x4096, .i1⟩
  | 83 => ⟨S32x4096, .i1⟩
  | 84 => ⟨S_, .i32⟩
  | 85 => ⟨S32x4096, .i32⟩
  | 86 => ⟨S32x4096, .i32⟩
  | 87 => ⟨S32x4096, .i32⟩
  | 88 => ⟨S32x1, .i32⟩
  | 89 => ⟨S32x1, .i32⟩
  | 90 => ⟨S32x4096, .i32⟩
  | 91 => ⟨S32x4096, .i32⟩
  | 92 => ⟨S32x4096, .i32⟩
  | 93 => ⟨S_, .i32⟩
  | 94 => ⟨S32x1, .i32⟩
  | 95 => ⟨S32x1, .i32⟩
  | 96 => ⟨S32x4096, .i32⟩
  | 97 => ⟨S32x4096, .i32⟩
  | 98 => ⟨S32x4096, .i32⟩
  | 99 => ⟨S32x1, .i32⟩
  | 100 => ⟨S32x4096, .i32⟩
  | 101 => ⟨S32x4096, .i1⟩
  | 102 => ⟨S32x4096, .i32⟩
  | 103 => ⟨S32x4096, .i32⟩
  | 104 => ⟨S_, .i32⟩
  | 105 => ⟨S32x4096, .i32⟩
  | 106 => ⟨S32x4096, .i1⟩
  | 107 => ⟨S32x4096, .i1⟩
  | 108 => ⟨S_, .i32⟩
  | 109 => ⟨S32x4096, .i32⟩
  | 110 => ⟨S32x4096, .i32⟩
  | 111 => ⟨S32x4096, .i32⟩
  | 112 => ⟨S32x4096, .i32⟩
  | 113 => ⟨S32x4096, .i32⟩
  | 114 => ⟨S32x4096, .i32⟩
  | 115 => ⟨S_, .i32⟩
  | 116 => ⟨S_, .i32⟩
  | 117 => ⟨S_, .i32⟩
  | 118 => ⟨S32x4096, .i32⟩
  | 119 => ⟨S32x4096, .i32⟩
  | 120 => ⟨S_, .i32⟩
  | 121 => ⟨S32x4096, .i32⟩
  | 122 => ⟨S32x4096, .i32⟩
  | 123 => ⟨S32x1, .i32⟩
  | 124 => ⟨S32x4096, .i32⟩
  | 125 => ⟨S32x4096, .i32⟩
  | 126 => ⟨S32x4096, .i1⟩
  | 127 => ⟨S32x1, .i32⟩
  | _ => ⟨S32x1024, .i32⟩

abbrev hbmTy0_1 (i : Nat) : BufTy := match i % 128 with
  | 0 => ⟨S_, .i32⟩
  | 1 => ⟨S32x1, .i32⟩
  | 2 => ⟨S32x1, .i1⟩
  | 3 => ⟨S32x4096, .i1⟩
  | 4 => ⟨S32x4096, .i1⟩
  | 5 => ⟨S32x1, .i32⟩
  | 6 => ⟨S_, .i32⟩
  | 7 => ⟨S32x1, .i32⟩
  | 8 => ⟨S32x1, .i1⟩
  | 9 => ⟨S32x4096, .i1⟩
  | 10 => ⟨S32x4096, .i1⟩
  | 11 => ⟨S_, .i32⟩
  | 12 => ⟨S_, .i32⟩
  | 13 => ⟨S32x4096, .i32⟩
  | 14 => ⟨S32x4096, .i32⟩
  | 15 => ⟨S32x1024x1, .i32⟩
  | 16 => ⟨S32x4096x1, .i32⟩
  | 17 => ⟨S_, .i32⟩
  | 18 => ⟨S_, .f32⟩
  | 19 => ⟨S2560x512, .f32⟩
  | 20 => ⟨S2560x512, .bf16⟩
  | 21 => ⟨S32x4096x512, .f32⟩
  | _ => ⟨S32x1024, .i32⟩

abbrev hbmTy (i : Nat) : BufTy := match i / 128 with
  | 0 => hbmTy0_0 i
  | 1 => hbmTy0_1 i
  | _ => ⟨S32x1024, .i32⟩

abbrev bufTy : (tb : Table) → Fin (tcTables nBuf tb) → BufTy
  | .hbm, ⟨i, _⟩ => hbmTy i
  | .local _ .vmem, ⟨0, _⟩ => ⟨S1x1024x1, .i32⟩
  | .local _ .vmem, ⟨1, _⟩ => ⟨S1x1024x1, .i32⟩
  | .local _ .vmem, ⟨2, _⟩ => ⟨S1x1024x1, .i32⟩
  | .local _ .vmem, ⟨3, _⟩ => ⟨S1x1024x1, .i32⟩
  | .local _ .vmem, ⟨4, _⟩ => ⟨S2560x512, .bf16⟩
  | .local _ .vmem, ⟨5, _⟩ => ⟨S1x1024x512, .f32⟩
  | .local _ .vmem, ⟨6, _⟩ => ⟨S1x1024x512, .f32⟩
  | .local _ .vmem, ⟨7, _⟩ => ⟨S1024x512, .bf16⟩
  | _, _ => ⟨S32x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_c_0 : Ref sig .tc := ⟨.hbm, 35, rfl⟩
abbrev main_call0_v8 : Ref sig .tc := ⟨.hbm, 36, rfl⟩
abbrev main_call0_v9 : Ref sig .tc := ⟨.hbm, 37, rfl⟩
abbrev main_v19 : Ref sig .tc := ⟨.hbm, 38, rfl⟩
abbrev main_v20 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_1 : Ref sig .tc := ⟨.hbm, 47, rfl⟩
abbrev main_call1_v5 : Ref sig .tc := ⟨.hbm, 48, rfl⟩
abbrev main_call1_v6 : Ref sig .tc := ⟨.hbm, 49, rfl⟩
abbrev main_call1_c_2 : Ref sig .tc := ⟨.hbm, 50, rfl⟩
abbrev main_call1_v7 : Ref sig .tc := ⟨.hbm, 51, rfl⟩
abbrev main_call1_v8 : Ref sig .tc := ⟨.hbm, 52, rfl⟩
abbrev main_call1_c_3 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_c_3 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_c : Ref sig .tc := ⟨.hbm, 80, rfl⟩
abbrev main_call2_v11 : Ref sig .tc := ⟨.hbm, 81, rfl⟩
abbrev main_call2_v12 : Ref sig .tc := ⟨.hbm, 82, rfl⟩
abbrev main_call2_v13 : Ref sig .tc := ⟨.hbm, 83, rfl⟩
abbrev main_call2_c_0 : Ref sig .tc := ⟨.hbm, 84, rfl⟩
abbrev main_call2_v14 : Ref sig .tc := ⟨.hbm, 85, rfl⟩
abbrev main_call2_v15 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_c_4 : Ref sig .tc := ⟨.hbm, 93, rfl⟩
abbrev main_v36 : Ref sig .tc := ⟨.hbm, 94, rfl⟩
abbrev main_v37 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_v6 : Ref sig .tc := ⟨.hbm, 102, rfl⟩
abbrev main_call3_v7 : Ref sig .tc := ⟨.hbm, 103, rfl⟩
abbrev main_call3_c : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_c_0 : Ref sig .tc := ⟨.hbm, 108, rfl⟩
abbrev main_call3_v11 : Ref sig .tc := ⟨.hbm, 109, rfl⟩
abbrev main_call3_v12 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_c_5 : Ref sig .tc := ⟨.hbm, 115, rfl⟩
abbrev main_c_6 : Ref sig .tc := ⟨.hbm, 116, rfl⟩
abbrev main_call5_v0 : Ref sig .tc := ⟨.hbm, 117, rfl⟩
abbrev main_call5_v1 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_c_7 : Ref sig .tc := ⟨.hbm, 128, rfl⟩
abbrev main_v48 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_c_8 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_c_9 : Ref sig .tc := ⟨.hbm, 139, rfl⟩
abbrev main_call6_v0 : Ref sig .tc := ⟨.hbm, 140, rfl⟩
abbrev main_call6_v1 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_c_10 : Ref sig .tc := ⟨.hbm, 145, rfl⟩
abbrev main_call7_v0 : Ref sig .tc := ⟨.hbm, 146, rfl⟩
abbrev main_v60 : Ref sig .tc := ⟨.hbm, 147, rfl⟩
abbrev main_v61 : Ref sig .tc := ⟨.hbm, 148, rfl⟩
abbrev main_v62 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2560x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S32x1024 : S_.BroadcastsInDim S32x1024 (![] : Fin 0 → Fin S32x1024.rank)
  bcast_S1024_S1x1024_1 : S1024.BroadcastsInDim S1x1024 (![1] : Fin 1 → Fin S1x1024.rank)
  bcast_S32_S32x1_0 : S32.BroadcastsInDim S32x1 (![0] : Fin 1 → Fin S32x1.rank)
  bcast_S1x1024_S32x1024_0_1 : S1x1024.BroadcastsInDim S32x1024 (![0, 1] : Fin 2 → Fin S32x1024.rank)
  bcast_S32x1_S32x1024_0_1 : S32x1.BroadcastsInDim S32x1024 (![0, 1] : Fin 2 → Fin S32x1024.rank)
  natLt_1_32 : 1 < 32
  reducesTo_S32x1024_S32_d1 : S32x1024.ReducesTo [1] S32
  h_S_ : 0 < S_.numel
  bcast_S4096_S1x4096_1 : S4096.BroadcastsInDim S1x4096 (![1] : Fin 1 → Fin S1x4096.rank)
  bcast_S_S32 : S_.BroadcastsInDim S32 (![] : Fin 0 → Fin S32.rank)
  bcast_S_S32x1 : S_.BroadcastsInDim S32x1 (![] : Fin 0 → Fin S32x1.rank)
  bcast_S1x4096_S32x4096_0_1 : S1x4096.BroadcastsInDim S32x4096 (![0, 1] : Fin 2 → Fin S32x4096.rank)
  bcast_S32x1_S32x4096_0_1 : S32x1.BroadcastsInDim S32x4096 (![0, 1] : Fin 2 → Fin S32x4096.rank)
  bcast_S_S32x4096 : S_.BroadcastsInDim S32x4096 (![] : Fin 0 → Fin S32x4096.rank)
  shapeCasts_S32x1024_S32x1024x1 : S32x1024.ShapeCasts S32x1024x1
  shapeCasts_S32x4096_S32x4096x1 : S32x4096.ShapeCasts S32x4096x1
  pads_S2546x512_S2560x512_0140_000 : S2546x512.Pads (![0, 0] : Fin 2 → Nat) ![14, 0] ![0, 0] S2560x512
  bitsLt_bf16_f32 : FTy.bits .bf16 < FTy.bits .f32
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  iota_S1024x512_d1_w32 : S1024x512.Iotas .tc 32 [1]
  broadcasts_S1024x1_S1024x512 : S1024x1.Broadcasts S1024x512
  inb_S2560x512_S512x512_0_0 : ∀ a, (![0, 0] : Fin 2 → Nat) a + S512x512.size a ≤ S2560x512.size a
  h_S512x512 : 0 < S512x512.numel
  shapeCasts_S512x512_S512x512 : S512x512.ShapeCasts S512x512
  inb_S2560x512_S512x512_512_0 : ∀ a, (![512, 0] : Fin 2 → Nat) a + S512x512.size a ≤ S2560x512.size a
  inb_S2560x512_S512x512_1024_0 : ∀ a, (![1024, 0] : Fin 2 → Nat) a + S512x512.size a ≤ S2560x512.size a
  inb_S2560x512_S512x512_1536_0 : ∀ a, (![1536, 0] : Fin 2 → Nat) a + S512x512.size a ≤ S2560x512.size a
  inb_S2560x512_S512x512_2048_0 : ∀ a, (![2048, 0] : Fin 2 → Nat) a + S512x512.size a ≤ S2560x512.size a
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  iota_S1024x1024_d1_w32 : S1024x1024.Iotas .tc 32 [1]
  broadcasts_S1024x1_S1024x1024 : S1024x1.Broadcasts S1024x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  dot_S1024x512_S512x512_S1024x512_1_0_0_1_n_n_wf : DotDims.WF S1024x512 S512x512 S1024x512 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1.size a ≤ S32x1024x1.size a
  hwx0_0 : ∀ i : grid0.Coords, EltTy.bits .i32 = 32 ∨ (Rect.block (s := S32x1024x1) S1x1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S32x4096x1.size a
  hwx0_1 : ∀ i : grid0.Coords, EltTy.bits .i32 = 32 ∨ (Rect.block (s := S32x4096x1) S1x1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2560x512.size a ≤ S2560x512.size a
  hwx0_2 : ∀ i : grid0.Coords, EltTy.bits .bf16 = 32 ∨ (Rect.block (s := S2560x512) S2560x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S32x4096x512.size a
  hwx0_3 : ∀ i : grid0.Coords, EltTy.bits .f32 = 32 ∨ (Rect.block (s := S32x4096x512) S1x1024x512.size (cc0_transform_3 i) (hinb0_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v58) S1x1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v59) S1x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v61) S2560x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v62) S1x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1024 : Shape := ⟨2, ![32, 1024]⟩
abbrev S32 : Shape := ⟨1, ![32]⟩
abbrev S2546x512 : Shape := ⟨2, ![2546, 512]⟩
abbrev S_ : Shape := ⟨0, ![]⟩
abbrev S32x4096 : Shape := ⟨2, ![32, 4096]⟩
abbrev S4096 : Shape := ⟨1, ![4096]⟩
abbrev S1x4096 : Shape := ⟨2, ![1, 4096]⟩
abbrev S32x1 : Shape := ⟨2, ![32, 1]⟩
abbrev S32x4096x1 : Shape := ⟨3, ![32, 4096, 1]⟩
abbrev S32x4096x512 : Shape := ⟨3, ![32, 4096, 512]⟩
abbrev S32x1x1 : Shape := ⟨3, ![32, 1, 1]⟩
abbrev S4096x512 : Shape := ⟨2, ![4096, 512]⟩

abbrev nBuf : Space → Nat
  | .hbm => 186
  | .vmem => 0
  | .smem => 0
  | _ => 0

abbrev hbmTy0_0 (i : Nat) : BufTy := match i % 128 with
  | 0 => ⟨S32x1024, .i32⟩
  | 1 => ⟨S32, .i32⟩
  | 2 => ⟨S2546x512, .f32⟩
  | 3 => ⟨S_, .i32⟩
  | 4 => ⟨S32x1024, .i32⟩
  | 5 => ⟨S32x1024, .i32⟩
  | 6 => ⟨S_, .i32⟩
  | 7 => ⟨S_, .i32⟩
  | 8 => ⟨S32x4096, .i32⟩
  | 9 => ⟨S4096, .i32⟩
  | 10 => ⟨S1x4096, .i32⟩
  | 11 => ⟨S32x1, .i32⟩
  | 12 => ⟨S32x4096, .i32⟩
  | 13 => ⟨S32x4096, .i32⟩
  | 14 => ⟨S32x4096, .i1⟩
  | 15 => ⟨S_, .i32⟩
  | 16 => ⟨S_, .i32⟩
  | 17 => ⟨S32x4096, .i32⟩
  | 18 => ⟨S32x4096, .i32⟩
  | 19 => ⟨S_, .i32⟩
  | 20 => ⟨S32x4096, .i32⟩
  | 21 => ⟨S32x4096, .i1⟩
  | 22 => ⟨S_, .i32⟩
  | 23 => ⟨S32x4096, .i32⟩
  | 24 => ⟨S32x4096, .i1⟩
  | 25 => ⟨S_, .i32⟩
  | 26 => ⟨S32x4096, .i32⟩
  | 27 => ⟨S32x4096, .i32⟩
  | 28 => ⟨S32x4096, .i32⟩
  | 29 => ⟨S32x4096x1, .i32⟩
  | 30 => ⟨S32x4096x512, .f32⟩
  | 31 => ⟨S32x4096x1, .i1⟩
  | 32 => ⟨S_, .f32⟩
  | 33 => ⟨S_, .f32⟩
  | 34 => ⟨S32x4096x512, .i1⟩
  | 35 => ⟨S32x4096x512, .f32⟩
  | 36 => ⟨S32x4096x512, .f32⟩
  | 37 => ⟨S32x4096, .i1⟩
  | 38 => ⟨S32x4096, .i32⟩
  | 39 => ⟨S_, .i32⟩
  | 40 => ⟨S32, .i32⟩
  | 41 => ⟨S4096, .i32⟩
  | 42 => ⟨S_, .i32⟩
  | 43 => ⟨S32, .i32⟩
  | 44 => ⟨S32, .i32⟩
  | 45 => ⟨S32, .i32⟩
  | 46 => ⟨S32, .i32⟩
  | 47 => ⟨S32, .i32⟩
  | 48 => ⟨S32, .i1⟩
  | 49 => ⟨S32, .i32⟩
  | 50 => ⟨S_, .i32⟩
  | 51 => ⟨S32, .i32⟩
  | 52 => ⟨S32, .i1⟩
  | 53 => ⟨S32, .i1⟩
  | 54 => ⟨S_, .i32⟩
  | 55 => ⟨S32, .i32⟩
  | 56 => ⟨S32, .i32⟩
  | 57 => ⟨S32, .i32⟩
  | 58 => ⟨S_, .i32⟩
  | 59 => ⟨S32, .i32⟩
  | 60 => ⟨S32, .i1⟩
  | 61 => ⟨S_, .i32⟩
  | 62 => ⟨S32, .i32⟩
  | 63 => ⟨S32, .i32⟩
  | 64 => ⟨S32, .i32⟩
  | 65 => ⟨S_, .i32⟩
  | 66 => ⟨S32, .i32⟩
  | 67 => ⟨S32, .i1⟩
  | 68 => ⟨S_, .i32⟩
  | 69 => ⟨S32, .i32⟩
  | 70 => ⟨S32, .i1⟩
  | 71 => ⟨S_, .i32⟩
  | 72 => ⟨S32, .i32⟩
  | 73 => ⟨S32, .i1⟩
  | 74 => ⟨S32, .i1⟩
  | 75 => ⟨S32, .i1⟩
  | 76 => ⟨S32, .i32⟩
  | 77 => ⟨S32, .i32⟩
  | 78 => ⟨S32, .i32⟩
  | 79 => ⟨S32, .i32⟩
  | 80 => ⟨S1x4096, .i32⟩
  | 81 => ⟨S32x1, .i32⟩
  | 82 => ⟨S32x4096, .i32⟩
  | 83 => ⟨S32x4096, .i32⟩
  | 84 => ⟨S32x4096, .i1⟩
  | 85 => ⟨S_, .i32⟩
  | 86 => ⟨S32, .i32⟩
  | 87 => ⟨S32, .i32⟩
  | 88 => ⟨S1x4096, .i32⟩
  | 89 => ⟨S32x1, .i32⟩
  | 90 => ⟨S32x4096, .i32⟩
  | 91 => ⟨S32x4096, .i32⟩
  | 92 => ⟨S32x4096, .i32⟩
  | 93 => ⟨S4096, .i32⟩
  | 94 => ⟨S32, .i32⟩
  | 95 => ⟨S1x4096, .i32⟩
  | 96 => ⟨S32x1, .i32⟩
  | 97 => ⟨S32x4096, .i32⟩
  | 98 => ⟨S32x4096, .i32⟩
  | 99 => ⟨S32x4096, .i1⟩
  | 100 => ⟨S1x4096, .i32⟩
  | 101 => ⟨S32x1, .i32⟩
  | 102 => ⟨S32x4096, .i32⟩
  | 103 => ⟨S32x4096, .i32⟩
  | 104 => ⟨S32x4096, .i32⟩
  | 105 => ⟨S_, .i32⟩
  | 106 => ⟨S32x4096, .i32⟩
  | 107 => ⟨S32x4096, .i1⟩
  | 108 => ⟨S32x4096, .i1⟩
  | 109 => ⟨S_, .i32⟩
  | 110 => ⟨S32x4096, .i32⟩
  | 111 => ⟨S32x4096, .i32⟩
  | 112 => ⟨S32x4096, .i32⟩
  | 113 => ⟨S32, .i32⟩
  | 114 => ⟨S1x4096, .i32⟩
  | 115 => ⟨S32x1, .i32⟩
  | 116 => ⟨S32x4096, .i32⟩
  | 117 => ⟨S32x4096, .i32⟩
  | 118 => ⟨S32x4096, .i32⟩
  | 119 => ⟨S_, .i32⟩
  | 120 => ⟨S32, .i32⟩
  | 121 => ⟨S32, .i32⟩
  | 122 => ⟨S32x1, .i32⟩
  | 123 => ⟨S32x4096, .i32⟩
  | 124 => ⟨S32x4096, .i32⟩
  | 125 => ⟨S32x4096, .i32⟩
  | 126 => ⟨S32, .i32⟩
  | 127 => ⟨S32x1, .i32⟩
  | _ => ⟨S32x1024, .i32⟩

abbrev hbmTy0_1 (i : Nat) : BufTy := match i % 128 with
  | 0 => ⟨S32x4096, .i32⟩
  | 1 => ⟨S32x4096, .i1⟩
  | 2 => ⟨S32x1, .i32⟩
  | 3 => ⟨S32x4096, .i32⟩
  | 4 => ⟨S32x4096, .i32⟩
  | 5 => ⟨S_, .i32⟩
  | 6 => ⟨S32x4096, .i32⟩
  | 7 => ⟨S32x4096, .i1⟩
  | 8 => ⟨S32x4096, .i1⟩
  | 9 => ⟨S_, .i32⟩
  | 10 => ⟨S32x4096, .i32⟩
  | 11 => ⟨S32x4096, .i32⟩
  | 12 => ⟨S32x4096, .i32⟩
  | 13 => ⟨S32x1, .i32⟩
  | 14 => ⟨S32x4096, .i32⟩
  | 15 => ⟨S32x4096, .i32⟩
  | 16 => ⟨S32x4096, .i32⟩
  | 17 => ⟨S_, .i32⟩
  | 18 => ⟨S_, .i32⟩
  | 19 => ⟨S_, .i32⟩
  | 20 => ⟨S32x4096, .i32⟩
  | 21 => ⟨S32x4096, .i32⟩
  | 22 => ⟨S_, .i32⟩
  | 23 => ⟨S32x4096, .i32⟩
  | 24 => ⟨S32x4096, .i32⟩
  | 25 => ⟨S_, .i32⟩
  | 26 => ⟨S32x4096, .i32⟩
  | 27 => ⟨S32x4096, .i1⟩
  | 28 => ⟨S_, .i32⟩
  | 29 => ⟨S32x4096, .i32⟩
  | 30 => ⟨S32x4096, .i32⟩
  | 31 => ⟨S32x4096, .i32⟩
  | 32 => ⟨S32x4096x1, .i32⟩
  | 33 => ⟨S32x4096x512, .f32⟩
  | 34 => ⟨S1x4096, .i32⟩
  | 35 => ⟨S32x1, .i32⟩
  | 36 => ⟨S32x4096, .i32⟩
  | 37 => ⟨S32x4096, .i32⟩
  | 38 => ⟨S32x4096, .i1⟩
  | 39 => ⟨S32x4096x1, .i1⟩
  | 40 => ⟨S_, .i32⟩
  | 41 => ⟨S32, .i32⟩
  | 42 => ⟨S32, .i1⟩
  | 43 => ⟨S32x1x1, .i1⟩
  | 44 => ⟨S32x4096x1, .i1⟩
  | 45 => ⟨S32x4096x1, .i1⟩
  | 46 => ⟨S_, .i32⟩
  | 47 => ⟨S32, .i32⟩
  | 48 => ⟨S32, .i1⟩
  | 49 => ⟨S32x1x1, .i1⟩
  | 50 => ⟨S32x4096x1, .i1⟩
  | 51 => ⟨S32x4096x1, .i1⟩
  | 52 => ⟨S_, .f32⟩
  | 53 => ⟨S_, .f32⟩
  | 54 => ⟨S32x4096x512, .i1⟩
  | 55 => ⟨S4096x512, .f32⟩
  | 56 => ⟨S32x4096x512, .f32⟩
  | 57 => ⟨S32x4096x512, .f32⟩
  | _ => ⟨S32x1024, .i32⟩

abbrev hbmTy (i : Nat) : BufTy := match i / 128 with
  | 0 => hbmTy0_0 i
  | 1 => hbmTy0_1 i
  | _ => ⟨S32x1024, .i32⟩

abbrev bufTy : (tb : Table) → Fin (tcTables nBuf tb) → BufTy
  | .hbm, ⟨i, _⟩ => hbmTy i
  | _, _ => ⟨S32x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_call1_v0 : Ref sig .tc := ⟨.hbm, 16, rfl⟩
abbrev main_call1_v1 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_call3_c : Ref sig .tc := ⟨.hbm, 50, rfl⟩
abbrev main_call3_v5 : Ref sig .tc := ⟨.hbm, 51, rfl⟩
abbrev main_call3_v6 : Ref sig .tc := ⟨.hbm, 52, rfl⟩
abbrev main_call3_v7 : Ref sig .tc := ⟨.hbm, 53, rfl⟩
abbrev main_call3_c_0 : Ref sig .tc := ⟨.hbm, 54, rfl⟩
abbrev main_call3_v8 : Ref sig .tc := ⟨.hbm, 55, rfl⟩
abbrev main_call3_v9 : Ref sig .tc := ⟨.hbm, 56, rfl⟩
abbrev main_v27 : Ref sig .tc := ⟨.hbm, 57, rfl⟩
abbrev main_call4_c : Ref sig .tc := ⟨.hbm, 58, rfl⟩
abbrev main_call4_v0 : Ref sig .tc := ⟨.hbm, 59, rfl⟩
abbrev main_call4_v1 : Ref sig .tc := ⟨.hbm, 60, rfl⟩
abbrev main_call4_c_0 : Ref sig .tc := ⟨.hbm, 61, rfl⟩
abbrev main_call4_call0_v0 : Ref sig .tc := ⟨.hbm, 62, rfl⟩
abbrev main_call4_v2 : Ref sig .tc := ⟨.hbm, 63, rfl⟩
abbrev main_call4_v3 : Ref sig .tc := ⟨.hbm, 64, rfl⟩
abbrev main_call4_c_1 : Ref sig .tc := ⟨.hbm, 65, rfl⟩
abbrev main_call4_v4 : Ref sig .tc := ⟨.hbm, 66, rfl⟩
abbrev main_call4_v5 : Ref sig .tc := ⟨.hbm, 67, rfl⟩
abbrev main_call4_c_2 : Ref sig .tc := ⟨.hbm, 68, rfl⟩
abbrev main_call4_v6 : Ref sig .tc := ⟨.hbm, 69, rfl⟩
abbrev main_call4_v7 : Ref sig .tc := ⟨.hbm, 70, rfl⟩
abbrev main_call4_c_3 : Ref sig .tc := ⟨.hbm, 71, rfl⟩
abbrev main_call4_v8 : Ref sig .tc := ⟨.hbm, 72, rfl⟩
abbrev main_call4_v9 : Ref sig .tc := ⟨.hbm, 73, rfl⟩
abbrev main_call4_v10 : Ref sig .tc := ⟨.hbm, 74, rfl⟩
abbrev main_call4_v11 : Ref sig .tc := ⟨.hbm, 75, rfl⟩
abbrev main_call4_v12 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_c_7 : Ref sig .tc := ⟨.hbm, 85, rfl⟩
abbrev main_v36 : Ref sig .tc := ⟨.hbm, 86, rfl⟩
abbrev main_v37 : Ref sig .tc := ⟨.hbm, 87, rfl⟩
abbrev main_call5_v0 : Ref sig .tc := ⟨.hbm, 88, rfl⟩
abbrev main_call5_v1 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_call5_v5 : Ref sig .tc := ⟨.hbm, 93, rfl⟩
abbrev main_call5_v6 : Ref sig .tc := ⟨.hbm, 94, rfl⟩
abbrev main_call5_v7 : Ref sig .tc := ⟨.hbm, 95, rfl⟩
abbrev main_call5_v8 : Ref sig .tc := ⟨.hbm, 96, rfl⟩
abbrev main_call5_v9 : Ref sig .tc := ⟨.hbm, 97, rfl⟩
abbrev main_call5_v10 : Ref sig .tc := ⟨.hbm, 98, rfl⟩
abbrev main_call5_v11 : Ref sig .tc := ⟨.hbm, 99, rfl⟩
abbrev main_call5_v12 : Ref sig .tc := ⟨.hbm, 100, rfl⟩
abbrev main_call5_v13 : Ref sig .tc := ⟨.hbm, 101, rfl⟩
abbrev main_call5_v14 : Ref sig .tc := ⟨.hbm, 102, rfl⟩
abbrev main_call5_v15 : Ref sig .tc := ⟨.hbm, 103, rfl⟩
abbrev main_call5_v16 : Ref sig .tc := ⟨.hbm, 104, rfl⟩
abbrev main_call5_c : Ref sig .tc := ⟨.hbm, 105, rfl⟩
abbrev main_call5_v17 : Ref sig .tc := ⟨.hbm, 106, rfl⟩
abbrev main_call5_v18 : Ref sig .tc := ⟨.hbm, 107, rfl⟩
abbrev main_call5_v19 : Ref sig .tc := ⟨.hbm, 108, rfl⟩
abbrev main_call5_c_0 : Ref sig .tc := ⟨.hbm, 109, rfl⟩
abbrev main_call5_v20 : Ref sig .tc := ⟨.hbm, 110, rfl⟩
abbrev main_call5_v21 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_c_8 : Ref sig .tc := ⟨.hbm, 119, rfl⟩
abbrev main_v45 : Ref sig .tc := ⟨.hbm, 120, rfl⟩
abbrev main_v46 : Ref sig .tc := ⟨.hbm, 121, rfl⟩
abbrev main_call6_v0 : Ref sig .tc := ⟨.hbm, 122, rfl⟩
abbrev main_call6_v1 : Ref sig .tc := ⟨.hbm, 123, rfl⟩
abbrev main_call6_v2 : Ref sig .tc := ⟨.hbm, 124, rfl⟩
abbrev main_call6_v3 : Ref sig .tc := ⟨.hbm, 125, rfl⟩
abbrev main_call6_v4 : Ref sig .tc := ⟨.hbm, 126, rfl⟩
abbrev main_call6_v5 : Ref sig .tc := ⟨.hbm, 127, rfl⟩
abbrev main_call6_v6 : Ref sig .tc := ⟨.hbm, 128, rfl⟩
abbrev main_call6_v7 : Ref sig .tc := ⟨.hbm, 129, rfl⟩
abbrev main_call6_v8 : Ref sig .tc := ⟨.hbm, 130, rfl⟩
abbrev main_call6_v9 : Ref sig .tc := ⟨.hbm, 131, rfl⟩
abbrev main_call6_v10 : Ref sig .tc := ⟨.hbm, 132, rfl⟩
abbrev main_call6_c : Ref sig .tc := ⟨.hbm, 133, rfl⟩
abbrev main_call6_v11 : Ref sig .tc := ⟨.hbm, 134, rfl⟩
abbrev main_call6_v12 : Ref sig .tc := ⟨.hbm, 135, rfl⟩
abbrev main_call6_v13 : Ref sig .tc := ⟨.hbm, 136, rfl⟩
abbrev main_call6_c_0 : Ref sig .tc := ⟨.hbm, 137, rfl⟩
abbrev main_call6_v14 : Ref sig .tc := ⟨.hbm, 138, rfl⟩
abbrev main_call6_v15 : Ref sig .tc := ⟨.hbm, 139, rfl⟩
abbrev main_v47 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_c_9 : Ref sig .tc := ⟨.hbm, 145, rfl⟩
abbrev main_c_10 : Ref sig .tc := ⟨.hbm, 146, rfl⟩
abbrev main_call8_v0 : Ref sig .tc := ⟨.hbm, 147, rfl⟩
abbrev main_call8_v1 : Ref sig .tc := ⟨.hbm, 148, rfl⟩
abbrev main_call8_v2 : Ref sig .tc := ⟨.hbm, 149, rfl⟩
abbrev main_call8_v3 : Ref sig .tc := ⟨.hbm, 150, rfl⟩
abbrev main_call8_v4 : Ref sig .tc := ⟨.hbm, 151, rfl⟩
abbrev main_v52 : Ref sig .tc := ⟨.hbm, 152, rfl⟩
abbrev main_c_11 : Ref sig .tc := ⟨.hbm, 153, rfl⟩
abbrev main_v53 : Ref sig .tc := ⟨.hbm, 154, rfl⟩
abbrev main_v54 : Ref sig .tc := ⟨.hbm, 155, rfl⟩
abbrev main_c_12 : Ref sig .tc := ⟨.hbm, 156, rfl⟩
abbrev main_v55 : Ref sig .tc := ⟨.hbm, 157, rfl⟩
abbrev main_v56 : Ref sig .tc := ⟨.hbm, 158, rfl⟩
abbrev main_v57 : Ref sig .tc := ⟨.hbm, 159, rfl⟩
abbrev main_v58 : Ref sig .tc := ⟨.hbm, 160, rfl⟩
abbrev main_v59 : Ref sig .tc := ⟨.hbm, 161, rfl⟩
abbrev main_v60 : Ref sig .tc := ⟨.hbm, 162, rfl⟩
abbrev main_v61 : Ref sig .tc := ⟨.hbm, 163, rfl⟩
abbrev main_v62 : Ref sig .tc := ⟨.hbm, 164, rfl⟩
abbrev main_v63 : Ref sig .tc := ⟨.hbm, 165, rfl⟩
abbrev main_v64 : Ref sig .tc := ⟨.hbm, 166, rfl⟩
abbrev main_v65 : Ref sig .tc := ⟨.hbm, 167, rfl⟩
abbrev main_c_13 : Ref sig .tc := ⟨.hbm, 168, rfl⟩
abbrev main_v66 : Ref sig .tc := ⟨.hbm, 169, rfl⟩
abbrev main_v67 : Ref sig .tc := ⟨.hbm, 170, rfl⟩
abbrev main_v68 : Ref sig .tc := ⟨.hbm, 171, rfl⟩
abbrev main_v69 : Ref sig .tc := ⟨.hbm, 172, rfl⟩
abbrev main_v70 : Ref sig .tc := ⟨.hbm, 173, rfl⟩
abbrev main_c_14 : Ref sig .tc := ⟨.hbm, 174, rfl⟩
abbrev main_v71 : Ref sig .tc := ⟨.hbm, 175, rfl⟩
abbrev main_v72 : Ref sig .tc := ⟨.hbm, 176, rfl⟩
abbrev main_v73 : Ref sig .tc := ⟨.hbm, 177, rfl⟩
abbrev main_v74 : Ref sig .tc := ⟨.hbm, 178, rfl⟩
abbrev main_v75 : Ref sig .tc := ⟨.hbm, 179, rfl⟩
abbrev main_cst_15 : Ref sig .tc := ⟨.hbm, 180, rfl⟩
abbrev main_call9_v0 : Ref sig .tc := ⟨.hbm, 181, rfl⟩
abbrev main_call9_v1 : Ref sig .tc := ⟨.hbm, 182, rfl⟩
abbrev main_call9_v2 : Ref sig .tc := ⟨.hbm, 183, rfl⟩
abbrev main_call9_v3 : Ref sig .tc := ⟨.hbm, 184, rfl⟩
abbrev main_v76 : Ref sig .tc := ⟨.hbm, 185, rfl⟩

abbrev nD : Nat := 1
abbrev τ : Topo := Topo.v7x

variable {F : FTy → Type} [FloatOps F]

class Facts₀ : Prop where
  bcast_S_S32x1024 : S_.BroadcastsInDim S32x1024 (![] : Fin 0 → Fin S32x1024.rank)
  pads_S32x1024_S32x4096_000_030720 : S32x1024.Pads (![0, 0] : Fin 2 → Nat) ![0, 3072] ![0, 0] S32x4096
  h_S_ : 0 < S_.numel
  bcast_S4096_S1x4096_1 : S4096.BroadcastsInDim S1x4096 (![1] : Fin 1 → Fin S1x4096.rank)
  bcast_S32_S32x1_0 : S32.BroadcastsInDim S32x1 (![0] : Fin 1 → Fin S32x1.rank)
  bcast_S1x4096_S32x4096_0_1 : S1x4096.BroadcastsInDim S32x4096 (![0, 1] : Fin 2 → Fin S32x4096.rank)
  bcast_S32x1_S32x4096_0_1 : S32x1.BroadcastsInDim S32x4096 (![0, 1] : Fin 2 → Fin S32x4096.rank)
  bcast_S_S32x4096 : S_.BroadcastsInDim S32x4096 (![] : Fin 0 → Fin S32x4096.rank)
  bcast_S32x4096_S32x4096x1_0_1 : S32x4096.BroadcastsInDim S32x4096x1 (![0, 1] : Fin 2 → Fin S32x4096x1.rank)
  bcast_S32x4096x1_S32x4096x512_0_1_2 : S32x4096x1.BroadcastsInDim S32x4096x512 (![0, 1, 2] : Fin 3 → Fin S32x4096x512.rank)
  bcast_S_S32x4096x512 : S_.BroadcastsInDim S32x4096x512 (![] : Fin 0 → Fin S32x4096x512.rank)
  natLt_1_32 : 1 < 32
  reducesTo_S32x4096_S32_d1 : S32x4096.ReducesTo [1] S32
  bcast_S_S32 : S_.BroadcastsInDim S32 (![] : Fin 0 → Fin S32.rank)
  bcast_S32_S32x1x1_0 : S32.BroadcastsInDim S32x1x1 (![0] : Fin 1 → Fin S32x1x1.rank)
  bcast_S32x1x1_S32x4096x1_0_1_2 : S32x1x1.BroadcastsInDim S32x4096x1 (![0, 1, 2] : Fin 3 → Fin S32x4096x1.rank)
  bcast_S_S4096x512 : S_.BroadcastsInDim S4096x512 (![] : Fin 0 → Fin S4096x512.rank)
  bcast_S4096x512_S32x4096x512_1_2 : S4096x512.BroadcastsInDim S32x4096x512 (![1, 2] : Fin 2 → Fin S32x4096x512.rank)
  gather_S2546x512_S32x4096x1_S32x4096x512_2_0_n_n_0_2_1512_wf : GatherDims.WF S2546x512 S32x4096x1 S32x4096x512 [2] [0] [] [0] [] 2 ![1, 512]
  gather_S32x4096x512_S32x4096x1_S32x4096x512_2_1_0_0_1_2_11512_wf : GatherDims.WF S32x4096x512 S32x4096x1 S32x4096x512 [2] [1] [0] [1] [0] 2 ![1, 1, 512]

variable [Facts₀]

def gather_S2546x512_S32x4096x1_S32x4096x512_2_0_n_n_0_2_1512 : GatherDims S2546x512 S32x4096x1 S32x4096x512 where
  offsetDims := [2]
  collapsedSliceDims := [0]
  operandBatchingDims := []
  startIndicesBatchingDims := []
  startIndexMap := [0]
  indexVectorDim := 2
  sliceSizes := ![1, 512]
  wf := gather_S2546x512_S32x4096x1_S32x4096x512_2_0_n_n_0_2_1512_wf
def gather_S32x4096x512_S32x4096x1_S32x4096x512_2_1_0_0_1_2_11512 : GatherDims S32x4096x512 S32x4096x1 S32x4096x512 where
  offsetDims := [2]
  collapsedSliceDims := [1]
  operandBatchingDims := [0]
  startIndicesBatchingDims := [0]
  startIndexMap := [1]
  indexVectorDim := 2
  sliceSizes := ![1, 1, 512]
  wf := gather_S32x4096x512_S32x4096x1_S32x4096x512_2_1_0_0_1_2_11512_wf

class Facts : Prop extends Facts₀ where

variable [Facts]
-- ==== Proof.Spec.lean ====
/-
  The specification: what both programs compute, one element at a time.

  Sample b has tokens text[b, 0 .. 1023] (a token is real when its word is ≥ 0, the pad is -1) and a target length
  A = seq_len[b]. With L the number of real tokens at positions below A, output row t of sample b is embedding row
  text[b, j] + 1 of the table, where j = j(L, A, t) is the length regulator's token index — the first L - r tokens are
  each repeated ⌊A / L⌋ times and the last r = A mod L tokens once more —, when t < A, L > 0 and A > 0; every other
  row is zero. The words below spell the regulator exactly as the integer operations compute it on 32-bit words
  (floor division and the sign-following remainder through truncating division, their corner cases included), so that
  each program's index arithmetic, read at one element, is literally one of these terms.
-/
import Idealize.ShloMosaic.PureOps.Ideal
import Idealize.ShloMosaic.Lib.ValueIdx

noncomputable section

namespace Cert.Spec

open Idealize.ShloMosaic Idealize.ShloMosaic.ValueIdx

abbrev S32x1024 : Shape := ⟨2, ![32, 1024]⟩
abbrev S32 : Shape := ⟨1, ![32]⟩
abbrev S2546x512 : Shape := ⟨2, ![2546, 512]⟩
abbrev S32x4096x512 : Shape := ⟨3, ![32, 4096, 512]⟩

/-- The sign of a word as a word: 0, -1 or 1. -/
def sgn (x : BitVec 32) : BitVec 32 := if x = 0 then 0 else if x.msb then -1 else 1

/-- Floor division of words: the truncating quotient, less one when the signs differ and the division is inexact. -/
def fdiv (x y : BitVec 32) : BitVec 32 :=
  Scalar.select (IntOp.andi (IntOp.cmpi .ne (sgn x) (sgn y)) (IntOp.cmpi .ne (IntOp.remsi .host x y) 0#32))
    (IntOp.subi (IntOp.divsi .host x y) 1#32) (IntOp.divsi .host x y)

/-- The remainder that follows the divisor's sign (a zero divisor read as one): the truncating remainder, plus the
    divisor when it is nonzero and its sign differs from the divisor's. -/
def frem (x y : BitVec 32) : BitVec 32 :=
  let y' : BitVec 32 := Scalar.select (IntOp.cmpi .eq y 0#32) 1#32 y
  let r : BitVec 32 := IntOp.remsi .host x y'
  Scalar.select (IntOp.andi (IntOp.cmpi .ne (IntOp.cmpi .slt r 0#32) (IntOp.cmpi .slt y' 0#32)) (IntOp.cmpi .ne r 0#32))
    (IntOp.addi r y') r

/-- The length regulator's token index for output position t, from the token count L and the target length A, before
    any clipping: with base = ⌊A / max(L, 1)⌋, r = A mod max(L, 1) and split = (L - r) · base, position t < split
    reads token ⌊t / max(base, 1)⌋ and a later one token (L - r) + ⌊(t - split) / (base + 1)⌋. -/
def jraw (L A t : BitVec 32) : BitVec 32 :=
  let Ls : BitVec 32 := IntOp.maxsi L 1#32
  let base : BitVec 32 := fdiv A Ls
  let r : BitVec 32 := frem A Ls
  let split : BitVec 32 := IntOp.muli (IntOp.subi L r) base
  Scalar.select (IntOp.cmpi .slt t split) (fdiv t (IntOp.maxsi base 1#32))
    (IntOp.addi (IntOp.subi L r) (fdiv (IntOp.subi t split) (IntOp.addi base 1#32)))

/-- Position t of a sample is a valid output row: t < A, L > 0 and A > 0 (signed). -/
def okw (L A t : BitVec 32) : BitVec 1 :=
  IntOp.andi (IntOp.andi (IntOp.cmpi .slt t A) (IntOp.cmpi .sgt L 0#32)) (IntOp.cmpi .sgt A 0#32)

/-- A word clipped to [lo, hi] (signed): the smaller of hi and the larger of lo and the word. -/
def clip (lo hi x : BitVec 32) : BitVec 32 := IntOp.minsi hi (IntOp.maxsi lo x)

/-- The number of real tokens of sample b at positions below its target length. -/
def Lnat (text : IVec S32x1024 32) (seq : IVec S32 32) (b : Fin 32) : ℕ :=
  (Finset.univ.filter fun p : Fin 1024 =>
    IntOp.andi (IntOp.cmpi .sge (text (ix2 b p)) 0#32) (IntOp.cmpi .slt (BitVec.ofNat 32 p.val) (seq (ix1 b))) = 1#1).card

/-- The token index the kernel's second stage is given for output row t of sample b: the regulator's index clipped to
    the token range where the row is valid, the word -1 (no token) where it is not. -/
def jfin (text : IVec S32x1024 32) (seq : IVec S32 32) (b : Fin 32) (t : Fin 4096) : BitVec 32 :=
  Scalar.select (okw (BitVec.ofNat 32 (Lnat text seq b)) (seq (ix1 b)) (BitVec.ofNat 32 t.val))
    (clip 0#32 1023#32 (jraw (BitVec.ofNat 32 (Lnat text seq b)) (seq (ix1 b)) (BitVec.ofNat 32 t.val)))
    4294967295#32

/-- Row v of the embedding table, zero past its last row. -/
def Wrow (W : FVec Ideal S2546x512 .f32) (v : ℕ) (d : Fin 512) : EReal :=
  if h : v < 2546 then W (ix2 ⟨v, h⟩ d) else 0

/-- Token n of sample b (any word past the last token: it is never used). -/
def textAt (text : IVec S32x1024 32) (b : Fin 32) (n : ℕ) : BitVec 32 :=
  if h : n < 1024 then text (ix2 b ⟨n, h⟩) else 0#32

/-- The result at sample b, output row t, feature d: the table's row (token + 1) for the token the regulator names,
    zero where it names none. -/
def Gc (text : IVec S32x1024 32) (seq : IVec S32 32) (W : FVec Ideal S2546x512 .f32) (b : Fin 32) (t : Fin 4096)
    (d : Fin 512) : EReal :=
  if (jfin text seq b t).toNat < 1024 then
    Wrow W (IntOp.addi (textAt text b (jfin text seq b t).toNat) 1#32).toNat d
  else 0

/-- The whole result array. -/
def G (text : IVec S32x1024 32) (seq : IVec S32 32) (W : FVec Ideal S2546x512 .f32) : FVec Ideal S32x4096x512 .f32 :=
  fun i => Gc text seq W (i 0) (i 1) (i 2)

theorem G_apply (text : IVec S32x1024 32) (seq : IVec S32 32) (W : FVec Ideal S2546x512 .f32) (b : Fin 32)
    (t : Fin 4096) (d : Fin 512) : G text seq W (ix3 b t d) = Gc text seq W b t d := rfl

/-! ## The reference, one element at a time

The reference pads the token ids (token + 1, so the pad becomes id 0) to the output length with zeros, zeroes the
ids at positions from the target length on, counts the nonzero ids, looks every id up in the table (a negative index
wrapped by the table's length, the lookup itself reading its index signed and clamped into the table), zeroes the
looked-up rows from the target length on, and lets the regulator pick among those rows. -/

/-- A lookup's read of a start index into an axis of extent N: signed, clamped into [0, N - 1]. -/
def gcl (N : ℕ) (x : BitVec 32) : ℕ := min x.toInt.toNat (N - 1)

theorem gcl_lt (N : ℕ) (hN : 0 < N) (x : BitVec 32) : gcl N x < N :=
  Nat.lt_of_le_of_lt (Nat.min_le_right _ _) (Nat.sub_lt hN Nat.one_pos)

/-- A negative index wrapped by the extent. -/
def wrapNeg (N x : BitVec 32) : BitVec 32 := Scalar.select (IntOp.cmpi .slt x 0#32) (IntOp.addi x N) x

/-- The reference's id at position p of sample b: token + 1 below both the token count and the target length, else 0. -/
def idsR (text : IVec S32x1024 32) (seq : IVec S32 32) (b : Fin 32) (p : Fin 4096) : BitVec 32 :=
  Scalar.select (IntOp.cmpi .slt (BitVec.ofNat 32 p.val) (seq (ix1 b)))
    (if h : p.val < 1024 then IntOp.addi (text (ix2 b ⟨p.val, h⟩)) 1#32 else 0#32) 0#32

/-- The reference's token count: the nonzero ids of the sample. -/
def LnatR (text : IVec S32x1024 32) (seq : IVec S32 32) (b : Fin 32) : ℕ :=
  (Finset.univ.filter fun p : Fin 4096 => idsR text seq b p ≠ 0#32).card

/-- The reference's embedded and masked row p of sample b, at feature d. -/
def embR (text : IVec S32x1024 32) (seq : IVec S32 32) (W : FVec Ideal S2546x512 .f32) (b : Fin 32) (p : Fin 4096)
    (d : Fin 512) : EReal :=
  Scalar.select (IntOp.cmpi .slt (BitVec.ofNat 32 p.val) (seq (ix1 b)))
    (W (ix2 ⟨gcl 2546 (wrapNeg 2546#32 (idsR text seq b p)), gcl_lt 2546 (by decide) _⟩ d)) (0 : EReal)

/-- The reference's result at sample b, output row t, feature d. -/
def Rc (text : IVec S32x1024 32) (seq : IVec S32 32) (W : FVec Ideal S2546x512 .f32) (b : Fin 32) (t : Fin 4096)
    (d : Fin 512) : EReal :=
  Scalar.select (okw (BitVec.ofNat 32 (LnatR text seq b)) (seq (ix1 b)) (BitVec.ofNat 32 t.val))
    (embR text seq W b
      ⟨gcl 4096 (wrapNeg 4096#32 (clip 0#32 4095#32
        (jraw (BitVec.ofNat 32 (LnatR text seq b)) (seq (ix1 b)) (BitVec.ofNat 32 t.val)))), gcl_lt 4096 (by decide) _⟩ d)
    (0 : EReal)

/-- The evident domain of the token input: every word is the pad -1 or a vocabulary id below 2545, so that token + 1
    indexes the table's 2546 rows. -/
def TextInRange (text : IVec S32x1024 32) : Prop :=
  ∀ (b : Fin 32) (n : Fin 1024), (-1 : Int) ≤ (text (ix2 b n)).toInt ∧ (text (ix2 b n)).toInt ≤ 2544

end Cert.Spec

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.KBody.lean ====
import proofs.«412804_j35905926595499_2_alg».proof.Proof.Gen.KernelIdeal.Frame
import proofs.«412804_j35905926595499_2_alg».proof.Proof.Spec
import proofs.«412804_j35905926595499_2_alg».proof.Proof.LibMatmul
import Idealize.ShloMosaic.Lib.Pipeline.Value

noncomputable section

namespace Cert.KBody

open Cert.KernelIdeal Cert.KernelIdeal.Gen Idealize.ShloMosaic Idealize.ShloMosaic.ValueIdx Idealize.ShloMosaic.TcCoe

/-- Row n of the first stage's result: the table's row named by id n of the sample (zero when the id is no row). -/
def embOf (x0 : Vec Ideal S1x1024x1 .i32) (x2 : Vec Ideal S2560x512 .bf16) : Vec Ideal S1024x512 .bf16 :=
  fun i => if h : (x0 (ix3 (0 : Fin 1) (i 0) (0 : Fin 1))).toNat < 2560 then x2 (ix2 ⟨(x0 (ix3 (0 : Fin 1) (i 0) (0 : Fin 1))).toNat, h⟩ (i 1)) else (0 : EReal)

/-- Row r of the second stage's result: the embedded row named by index r of the tile (zero when it names none). -/
def pick (x1 : Vec Ideal S1x1024x1 .i32) (e : Vec Ideal S1024x512 .bf16) : Vec Ideal S1x1024x512 .f32 :=
  fun i => if h : (x1 (ix3 (0 : Fin 1) (i 1) (0 : Fin 1))).toNat < 1024 then e (ix2 ⟨(x1 (ix3 (0 : Fin 1) (i 1) (0 : Fin 1))).toNat, h⟩ (i 2)) else (0 : EReal)

/-! ## What the body's stores leave, as terms of the loaded blocks -/

/-- The zero offsets of a rank-2 block, as the constant function. -/
theorem hz2 : (![0, 0] : Fin 2 → Nat) = fun _ => 0 := funext fun a => by fin_cases a <;> rfl
/-- The zero offsets of a rank-3 block, as the constant function. -/
theorem hz3 : (![0, 0, 0] : Fin 3 → Nat) = fun _ => 0 := funext fun a => by fin_cases a <;> rfl

section Pieces
variable {F : FTy → Type} [FloatOps F]

/-- The 512 rows of the table from row `off 0` on, as a block. -/
abbrev rows (x2 : Vec F S2560x512 .bf16) (off : Fin 2 → Nat) (inb : ∀ a, off a + S512x512.size a ≤ S2560x512.size a) :
    Vec F S512x512 .bf16 :=
  View.ld (Val := Elt F) x2 (Rect.unit (s := S2560x512) off S512x512.size inb)

/-- The first stage's stored block as a term of the sample's ids and the table's five row blocks. -/
def stage1 (x0 : Vec F S1x1024x1 .i32) (x2 : Vec F S2560x512 .bf16) : Vec F S1024x512 .bf16 :=
  k0_pay1 (k0_pay3 x0)
    (k0_pay4 x0 (rows x2 ![0, 0] inb_S2560x512_S512x512_0_0) (rows x2 ![512, 0] inb_S2560x512_S512x512_512_0)
      (rows x2 ![1024, 0] inb_S2560x512_S512x512_1024_0))
    k0_pay5 (k0_pay6 x0) (rows x2 ![1536, 0] inb_S2560x512_S512x512_1536_0) (rows x2 ![2048, 0] inb_S2560x512_S512x512_2048_0)

/-- At a first point of a sample the carried block ends holding the first stage's block of the sample's ids and the table. -/
theorem piece_sA (c : Dev nD) (i : grid0.Coords) (arg2 : Memref sig .tc .vmem S1x1024x1 .i32) (harg2 : arg2.IsWhole) (arg3 : Memref sig .tc .vmem S1x1024x1 .i32) (harg3 : arg3.IsWhole) (arg4 : Memref sig .tc .vmem S2560x512 .bf16) (harg4 : arg4.IsWhole) (arg5 : Memref sig .tc .vmem S1x1024x512 .f32) (harg5 : arg5.IsWhole) (arg6 : Memref sig .tc .vmem S1024x512 .bf16) (harg6 : arg6.IsWhole) (hc0 : cond0_0 i)
    (x0 : Vec F S1x1024x1 .i32) (x1 : Vec F S1x1024x1 .i32) (x2 : Vec F S2560x512 .bf16) :
    sout0_A_0 (F := F) c i arg2 harg2 arg3 harg3 arg4 harg4 arg5 harg5 arg6 harg6 hc0 x0 x1 x2 = stage1 x0 x2 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz2]
  simp only [View.readAt_eq_ld, harg2.read_unread, harg4.read_unread, View.ld_unit_zero (S := S1x1024x1) hz3]
  rfl

/-- At a first point of a sample the output block ends holding the second stage of the tile's indices and that same first-stage block,
    which the body reads back after storing it. -/
theorem piece_oA (c : Dev nD) (i : grid0.Coords) (arg2 : Memref sig .tc .vmem S1x1024x1 .i32) (harg2 : arg2.IsWhole) (arg3 : Memref sig .tc .vmem S1x1024x1 .i32) (harg3 : arg3.IsWhole) (arg4 : Memref sig .tc .vmem S2560x512 .bf16) (harg4 : arg4.IsWhole) (arg5 : Memref sig .tc .vmem S1x1024x512 .f32) (harg5 : arg5.IsWhole) (arg6 : Memref sig .tc .vmem S1024x512 .bf16) (harg6 : arg6.IsWhole) (hc0 : cond0_0 i)
    (x0 : Vec F S1x1024x1 .i32) (x1 : Vec F S1x1024x1 .i32) (x2 : Vec F S2560x512 .bf16) :
    out0_A_3 (F := F) c i arg2 harg2 arg3 harg3 arg4 harg4 arg5 harg5 arg6 harg6 hc0 x0 x1 x2 = k0_pay2 x1 (stage1 x0 x2) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz3]
  simp only [View.readAt_eq_ld, harg2.read_unread, harg3.read_unread, harg4.read_unread, View.ld_unit_zero (S := S1x1024x1) hz3,
    View.readCov_unit_zero (S := S1024x512) _ hz2]
  rfl

/-- At a later point the output block ends holding the second stage of the tile's indices and the block carried from the point before. -/
theorem piece_oB (c : Dev nD) (i : grid0.Coords) (arg2 : Memref sig .tc .vmem S1x1024x1 .i32) (harg2 : arg2.IsWhole) (arg3 : Memref sig .tc .vmem S1x1024x1 .i32) (harg3 : arg3.IsWhole) (arg4 : Memref sig .tc .vmem S2560x512 .bf16) (harg4 : arg4.IsWhole) (arg5 : Memref sig .tc .vmem S1x1024x512 .f32) (harg5 : arg5.IsWhole) (arg6 : Memref sig .tc .vmem S1024x512 .bf16) (harg6 : arg6.IsWhole) (hc0 : ¬cond0_0 i)
    (x0 : Vec F S1x1024x1 .i32) (x1 : Vec F S1x1024x1 .i32) (x2 : Vec F S2560x512 .bf16) (xs0 : Vec F S1024x512 .bf16) :
    out0_B_3 (F := F) c i arg2 harg2 arg3 harg3 arg4 harg4 arg5 harg5 arg6 harg6 hc0 x0 x1 x2 xs0 = k0_pay2 x1 xs0 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero hz3]
  simp only [View.readAt_eq_ld, harg3.read_unread, harg6.read_unread, View.ld_unit_zero (S := S1x1024x1) hz3,
    View.ld_unit_zero (S := S1024x512) hz2]

end Pieces

/-! ## One-hot words and sums -/

/-- The comparison bit of two words, widened and converted: 1 when they are equal, else 0. -/
theorem onehot_word (a b : BitVec 32) :
    FloatOps.sitofp (F := Ideal) .f32 ((IntOp.cmpi .eq a b).setWidth 32) = if a = b then (1 : EReal) else 0 := by
  by_cases h : a = b
  · subst h
    rw [if_pos rfl]
    show (((((BitVec.ofBool (a == a)).setWidth 32).toInt : ℤ) : ℝ) : EReal) = 1
    rw [beq_self_eq_true]
    show ((((1 : BitVec 32).toInt : ℤ) : ℝ) : EReal) = 1
    rw [show (1 : BitVec 32).toInt = 1 by decide]
    norm_num
  · rw [if_neg h]
    show (((((BitVec.ofBool (a == b)).setWidth 32).toInt : ℤ) : ℝ) : EReal) = 0
    rw [beq_eq_false_iff_ne.mpr h]
    show ((((0 : BitVec 32).toInt : ℤ) : ℝ) : EReal) = 0
    rw [show (0 : BitVec 32).toInt = 0 by decide]
    norm_num

/-- A one-hot row against a column: when the words g k are the numbers k + off, the sum over k < K of
    [g k = id] · f (k + off) is f at id's number if that lies in [off, off + K), else 0. -/
theorem onehot_sum (K off : ℕ) (g : Fin K → BitVec 32) (hg : ∀ k, (g k).toNat = k.val + off) (f : ℕ → EReal)
    (id : BitVec 32) :
    ∑ k : Fin K, (if g k = id then (1 : EReal) else 0) * f (k.val + off)
      = if off ≤ id.toNat ∧ id.toNat < off + K then f id.toNat else 0 := by
  by_cases h : off ≤ id.toNat ∧ id.toNat < off + K
  · rw [if_pos h]
    have hk : id.toNat - off < K := by omega
    rw [Finset.sum_eq_single (⟨id.toNat - off, hk⟩ : Fin K)]
    · have e : g ⟨id.toNat - off, hk⟩ = id := BitVec.eq_of_toNat_eq (by rw [hg]; show id.toNat - off + off = id.toNat; omega)
      rw [if_pos e, one_mul]
      show f (id.toNat - off + off) = f id.toNat
      rw [show id.toNat - off + off = id.toNat by omega]
    · intro k _ hne
      have : g k ≠ id := fun e => hne (Fin.ext (by
        have := hg k; rw [e] at this; show k.val = id.toNat - off; omega))
      rw [if_neg this, zero_mul]
    · intro hn; exact absurd (Finset.mem_univ _) hn
  · rw [if_neg h]
    refine Finset.sum_eq_zero fun k _ => ?_
    have : g k ≠ id := fun e => h (by have := hg k; rw [e] at this; have := k.isLt; omega)
    rw [if_neg this, zero_mul]

/-- The word of a small number plus the word of a small offset is the word of the sum. -/
theorem toNat_ofNat_add (k off : ℕ) (h : k + off < 2 ^ 32) :
    (IntOp.addi (BitVec.ofNat 32 k) (BitVec.ofNat 32 off)).toNat = k + off := by
  show (BitVec.ofNat 32 k + BitVec.ofNat 32 off).toNat = k + off
  rw [BitVec.toNat_add, BitVec.toNat_ofNat, BitVec.toNat_ofNat]
  omega

/-- The word of a small number is that number. -/
theorem toNat_ofNat_small (k : ℕ) (h : k < 2 ^ 32) : (BitVec.ofNat 32 k).toNat = k + 0 := by
  rw [BitVec.toNat_ofNat]; omega

/-! ## Layout operations at an index -/

/-- The id column of a sample's block, viewed [1024, 1]: entry (n, 0) is id n. -/
theorem col_apply {α : Type} (x : S1x1024x1.Idx → α) (n : Fin 1024) :
    shapeCast S1024x1 x shapeCasts_S1x1024x1_S1024x1 (ix2 n (0 : Fin 1)) = x (ix3 (0 : Fin 1) n (0 : Fin 1)) := by
  refine shapeCast_apply x shapeCasts_S1x1024x1_S1024x1 (ix2 n (0 : Fin 1)) (ix3 (0 : Fin 1) n (0 : Fin 1)) ?_
  rw [Shape.rowMajor_val_three, Shape.rowMajor_val_two]
  show ((0 : ℕ) * 1024 + n.val) * 1 + 0 = n.val * 1 + 0
  omega

/-- A column spread along 512 lanes reads its row's entry everywhere. -/
theorem spread512_apply {α : Type} (v : S1024x1.Idx → α) (n : Fin 1024) (k : Fin 512) :
    broadcastTo S1024x512 v broadcasts_S1024x1_S1024x512 (ix2 n k) = v (ix2 n (0 : Fin 1)) :=
  broadcastTo_apply v broadcasts_S1024x1_S1024x512 (ix2 n k) (ix2 n (0 : Fin 1)) fun a => by
    match a with
    | ⟨0, _⟩ => rfl
    | ⟨1, _⟩ => rfl

/-- The same along 1024 lanes. -/
theorem spread1024_apply {α : Type} (v : S1024x1.Idx → α) (n : Fin 1024) (k : Fin 1024) :
    broadcastTo S1024x1024 v broadcasts_S1024x1_S1024x1024 (ix2 n k) = v (ix2 n (0 : Fin 1)) :=
  broadcastTo_apply v broadcasts_S1024x1_S1024x1024 (ix2 n k) (ix2 n (0 : Fin 1)) fun a => by
    match a with
    | ⟨0, _⟩ => rfl
    | ⟨1, _⟩ => rfl

/-- The lane counter of a [1024, 512] block reads the lane. -/
theorem lane512_apply (n : Fin 1024) (k : Fin 512) :
    iota .tc S1024x512 32 [1] iota_S1024x512_d1_w32 (ix2 n k) = BitVec.ofNat 32 k.val :=
  iota_single_apply .tc S1024x512 32 1 iota_S1024x512_d1_w32 (ix2 n k)

/-- The lane counter of a [1024, 1024] block reads the lane. -/
theorem lane1024_apply (n : Fin 1024) (k : Fin 1024) :
    iota .tc S1024x1024 32 [1] iota_S1024x1024_d1_w32 (ix2 n k) = BitVec.ofNat 32 k.val :=
  iota_single_apply .tc S1024x1024 32 1 iota_S1024x1024_d1_w32 (ix2 n k)

/-! ## The table's rows -/

/-- Row v of the table at feature d, zero past the last row. -/
def tblAt (x2 : Vec Ideal S2560x512 .bf16) (v : ℕ) (d : Fin 512) : EReal :=
  if h : v < 2560 then x2 (ix2 ⟨v, h⟩ d) else 0

/-- Entry (k, d) of the row block starting at row off is the table's row k + off. -/
theorem rows_apply (x2 : Vec Ideal S2560x512 .bf16) (off : ℕ)
    (inb : ∀ a, (![off, 0] : Fin 2 → ℕ) a + S512x512.size a ≤ S2560x512.size a) (hoff : off + 512 ≤ 2560) (k d : Fin 512) :
    rows x2 ![off, 0] inb (ix2 k d) = tblAt x2 (k.val + off) d := by
  have h : k.val + off < 2560 := by have := k.isLt; omega
  unfold tblAt
  rw [dif_pos h]
  show x2 _ = x2 _
  refine congrArg x2 (funext fun a => Fin.ext ?_)
  match a with
  | ⟨0, _⟩ => show off + 1 * k.val = k.val + off; omega
  | ⟨1, _⟩ => show 0 + 1 * d.val = d.val; omega

/-! ## One chunk of the first stage -/

/-- The one-hot block of the ids against the lanes shifted by a word: entry (n, k) is 1 when id n is k plus the word. -/
def oh (ids : IVec S1024x1 32) (offw : BitVec 32) : FVec Ideal S1024x512 .bf16 :=
  truncf .bf16 (sitofp (F := Ideal) .f32 (extui 32 (cmpi .eq
    (addi (iota .tc S1024x512 32 [1] iota_S1024x512_d1_w32) (broadcast S1024x512 offw))
    (broadcastTo S1024x512 ids broadcasts_S1024x1_S1024x512)) natLt_1_32)) bitsLt_bf16_f32

/-- Entry (n, k) of that block. -/
theorem oh_apply (ids : IVec S1024x1 32) (offw : BitVec 32) (n : Fin 1024) (k : Fin 512) :
    oh ids offw (ix2 n k) = if IntOp.addi (BitVec.ofNat 32 k.val) offw = ids (ix2 n (0 : Fin 1)) then (1 : EReal) else 0 := by
  unfold oh
  show FloatOps.sitofp (F := Ideal) .f32 ((IntOp.cmpi .eq
    (IntOp.addi (iota .tc S1024x512 32 [1] iota_S1024x512_d1_w32 (ix2 n k)) offw)
    (broadcastTo S1024x512 ids broadcasts_S1024x1_S1024x512 (ix2 n k))).setWidth 32) = _
  rw [lane512_apply, spread512_apply]
  exact onehot_word _ _

/-- The product of that block with 512 rows of the table, into zero. -/
def chunk (ids : IVec S1024x1 32) (offw : BitVec 32) (tbl : Vec Ideal S512x512 .bf16) : FVec Ideal S1024x512 .f32 :=
  matmul dot_S1024x512_S512x512_S1024x512_1_0_0_1_n_n none (oh ids offw)
    (shapeCast S512x512 tbl shapeCasts_S512x512_S512x512 : FVec Ideal S512x512 .bf16) (constant S1024x512 .f32 0x00000000#32)

/-- Entry (n, d) of a chunk: the table's row id n at d when id n lies in the chunk's 512 rows, else 0. -/
theorem chunk_apply (ids : IVec S1024x1 32) (off : ℕ) (hoff : off + 512 ≤ 2560) (tbl : Vec Ideal S512x512 .bf16)
    (x2 : Vec Ideal S2560x512 .bf16) (htbl : ∀ k d : Fin 512, tbl (ix2 k d) = tblAt x2 (k.val + off) d)
    (n : Fin 1024) (d : Fin 512) :
    chunk ids (BitVec.ofNat 32 off) tbl (ix2 n d)
      = if off ≤ (ids (ix2 n (0 : Fin 1))).toNat ∧ (ids (ix2 n (0 : Fin 1))).toNat < off + 512
        then tblAt x2 (ids (ix2 n (0 : Fin 1))).toNat d else 0 := by
  unfold chunk
  refine (Cert.Lib.Matmul.matmul_zero_apply (A := 1024) (K := 512) (C := 512) none (oh ids (BitVec.ofNat 32 off))
    (shapeCast S512x512 tbl shapeCasts_S512x512_S512x512 : FVec Ideal S512x512 .bf16) n d).trans ?_
  rw [shapeCast_self]
  refine (Finset.sum_congr rfl fun k _ => ?_).trans
    (onehot_sum 512 off (fun k => IntOp.addi (BitVec.ofNat 32 k.val) (BitVec.ofNat 32 off))
      (fun k => toNat_ofNat_add _ _ (by have := k.isLt; omega)) (fun v => tblAt x2 v d) (ids (ix2 n (0 : Fin 1))))
  rw [oh_apply, htbl]

/-! ## The first stage -/

/-- A row number lies in at most one of the five 512-row ranges, and in one exactly when it is below 2560. -/
theorem five_ranges (v : ℕ) (T : EReal) :
    (0 : EReal) + (if 0 ≤ v ∧ v < 0 + 512 then T else 0) + (if 512 ≤ v ∧ v < 512 + 512 then T else 0)
        + (if 1024 ≤ v ∧ v < 1024 + 512 then T else 0) + (if 1536 ≤ v ∧ v < 1536 + 512 then T else 0)
        + (if 2048 ≤ v ∧ v < 2048 + 512 then T else 0)
      = if v < 2560 then T else 0 := by
  split_ifs <;> first | omega | simp only [zero_add, add_zero]

/-- The first stage's stored block is the five chunks added up from zero, rounded. -/
theorem stage1_chunks (x0 : Vec Ideal S1x1024x1 .i32) (x2 : Vec Ideal S2560x512 .bf16) :
    stage1 (F := Ideal) x0 x2
      = shapeCast S1024x512 (truncf .bf16 (addf (addf (addf (addf (addf
          (broadcast S1024x512 (Scalar.ofBits (F := Ideal) .f32 0x00000000#32))
          (chunk (k0_pay3 (F := Ideal) x0) 0#32 (rows x2 ![0, 0] inb_S2560x512_S512x512_0_0)))
          (chunk (k0_pay3 (F := Ideal) x0) 512#32 (rows x2 ![512, 0] inb_S2560x512_S512x512_512_0)))
          (chunk (k0_pay3 (F := Ideal) x0) 1024#32 (rows x2 ![1024, 0] inb_S2560x512_S512x512_1024_0)))
          (chunk (k0_pay3 (F := Ideal) x0) 1536#32 (rows x2 ![1536, 0] inb_S2560x512_S512x512_1536_0)))
          (chunk (k0_pay3 (F := Ideal) x0) 2048#32 (rows x2 ![2048, 0] inb_S2560x512_S512x512_2048_0)))
          bitsLt_bf16_f32) shapeCasts_S1024x512_S1024x512 := rfl

/-- The first stage's stored block is the embedded rows. -/
theorem stage1_eq (x0 : Vec Ideal S1x1024x1 .i32) (x2 : Vec Ideal S2560x512 .bf16) :
    stage1 (F := Ideal) x0 x2 = embOf x0 x2 := by
  funext j
  obtain ⟨n, d, rfl⟩ : ∃ (n : Fin 1024) (d : Fin 512), j = ix2 n d := ⟨j 0, j 1, eq_ix2 j⟩
  rw [stage1_chunks, shapeCast_self]
  have hid : k0_pay3 (F := Ideal) x0 (ix2 n (0 : Fin 1)) = x0 (ix3 (0 : Fin 1) n (0 : Fin 1)) := col_apply x0 n
  refine Eq.trans (show _ = (Ideal.ofBits .f32 0x00000000#32 : EReal)
      + chunk (k0_pay3 (F := Ideal) x0) (BitVec.ofNat 32 0) (rows x2 ![0, 0] inb_S2560x512_S512x512_0_0) (ix2 n d)
      + chunk (k0_pay3 (F := Ideal) x0) (BitVec.ofNat 32 512) (rows x2 ![512, 0] inb_S2560x512_S512x512_512_0) (ix2 n d)
      + chunk (k0_pay3 (F := Ideal) x0) (BitVec.ofNat 32 1024) (rows x2 ![1024, 0] inb_S2560x512_S512x512_1024_0) (ix2 n d)
      + chunk (k0_pay3 (F := Ideal) x0) (BitVec.ofNat 32 1536) (rows x2 ![1536, 0] inb_S2560x512_S512x512_1536_0) (ix2 n d)
      + chunk (k0_pay3 (F := Ideal) x0) (BitVec.ofNat 32 2048) (rows x2 ![2048, 0] inb_S2560x512_S512x512_2048_0) (ix2 n d)
      from rfl) ?_
  rw [chunk_apply _ 0 (by omega) _ x2 (rows_apply x2 0 _ (by omega)) n d,
    chunk_apply _ 512 (by omega) _ x2 (rows_apply x2 512 _ (by omega)) n d,
    chunk_apply _ 1024 (by omega) _ x2 (rows_apply x2 1024 _ (by omega)) n d,
    chunk_apply _ 1536 (by omega) _ x2 (rows_apply x2 1536 _ (by omega)) n d,
    chunk_apply _ 2048 (by omega) _ x2 (rows_apply x2 2048 _ (by omega)) n d,
    Ideal.ofBits_zero_f32, hid, five_ranges]
  show _ = if h : (x0 (ix3 (0 : Fin 1) n (0 : Fin 1))).toNat < 2560 then
    x2 (ix2 ⟨(x0 (ix3 (0 : Fin 1) n (0 : Fin 1))).toNat, h⟩ d) else (0 : EReal)
  unfold tblAt
  by_cases h : (x0 (ix3 (0 : Fin 1) n (0 : Fin 1))).toNat < 2560
  · rw [if_pos h, dif_pos h]
  · rw [if_neg h, dif_neg h]

/-! ## The second stage -/

/-- The one-hot block of the tile's indices against the 1024 lanes: entry (r, k) is 1 when index r is k. -/
def oh2 (ids : IVec S1024x1 32) : FVec Ideal S1024x1024 .bf16 :=
  truncf .bf16 (sitofp (F := Ideal) .f32 (extui 32 (cmpi .eq (iota .tc S1024x1024 32 [1] iota_S1024x1024_d1_w32)
    (broadcastTo S1024x1024 ids broadcasts_S1024x1_S1024x1024)) natLt_1_32)) bitsLt_bf16_f32

/-- Entry (r, k) of that block. -/
theorem oh2_apply (ids : IVec S1024x1 32) (r k : Fin 1024) :
    oh2 ids (ix2 r k) = if BitVec.ofNat 32 k.val = ids (ix2 r (0 : Fin 1)) then (1 : EReal) else 0 := by
  unfold oh2
  show FloatOps.sitofp (F := Ideal) .f32 ((IntOp.cmpi .eq
    (iota .tc S1024x1024 32 [1] iota_S1024x1024_d1_w32 (ix2 r k))
    (broadcastTo S1024x1024 ids broadcasts_S1024x1_S1024x1024 (ix2 r k))).setWidth 32) = _
  rw [lane1024_apply, spread1024_apply]
  exact onehot_word _ _

/-- Row v of an embedded block at feature d, zero past the last row. -/
def embAt (e : Vec Ideal S1024x512 .bf16) (v : ℕ) (d : Fin 512) : EReal :=
  if h : v < 1024 then e (ix2 ⟨v, h⟩ d) else 0

/-- The second stage's stored block is the one-hot block times the embedded rows, viewed [1, 1024, 512]. -/
theorem pay2_form (x1 : Vec Ideal S1x1024x1 .i32) (e : Vec Ideal S1024x512 .bf16) :
    k0_pay2 (F := Ideal) x1 e
      = shapeCast S1x1024x512 (matmul (φ₂ := .bf16) dot_S1024x1024_S1024x512_S1024x512_1_0_0_1_n_n none
          (oh2 (shapeCast S1024x1 x1 shapeCasts_S1x1024x1_S1024x1)) e
          (constant S1024x512 .f32 0x00000000#32)) shapeCasts_S1024x512_S1x1024x512 := rfl

/-- The second stage's stored block picks, for each row of the tile, the embedded row its index names. -/
theorem pay2_eq (x1 : Vec Ideal S1x1024x1 .i32) (e : Vec Ideal S1024x512 .bf16) :
    k0_pay2 (F := Ideal) x1 e = pick x1 e := by
  funext j
  obtain ⟨z, r, d, rfl⟩ : ∃ (z : Fin 1) (r : Fin 1024) (d : Fin 512), j = ix3 z r d := ⟨j 0, j 1, j 2, eq_ix3 j⟩
  rw [pay2_form]
  refine (shapeCast_apply _ shapeCasts_S1024x512_S1x1024x512 (ix3 z r d) (ix2 r d) ?_).trans ?_
  · rw [Shape.rowMajor_val_two, Shape.rowMajor_val_three]
    show r.val * 512 + d.val = (z.val * 1024 + r.val) * 512 + d.val
    have := z.isLt
    omega
  refine (Cert.Lib.Matmul.matmul_zero_apply (A := 1024) (K := 1024) (C := 512) (φ₂ := .bf16) none
    (oh2 (shapeCast S1024x1 x1 shapeCasts_S1x1024x1_S1024x1)) e r d).trans ?_
  refine ((Finset.sum_congr rfl fun k _ => ?_).trans
    (onehot_sum 1024 0 (fun k => BitVec.ofNat 32 k.val) (fun k => toNat_ofNat_small _ (by have := k.isLt; omega))
      (fun v => embAt e v d) (shapeCast S1024x1 x1 shapeCasts_S1x1024x1_S1024x1 (ix2 r (0 : Fin 1))))).trans ?_
  · rw [oh2_apply]
    refine congrArg _ ?_
    show e (ix2 k d) = embAt e (k.val + 0) d
    unfold embAt
    rw [dif_pos (show k.val + 0 < 1024 from k.isLt)]
    rfl
  rw [col_apply x1 r]
  show _ = if h : (x1 (ix3 (0 : Fin 1) r (0 : Fin 1))).toNat < 1024 then
    e (ix2 ⟨(x1 (ix3 (0 : Fin 1) r (0 : Fin 1))).toNat, h⟩ d) else (0 : EReal)
  unfold embAt
  by_cases h : (x1 (ix3 (0 : Fin 1) r (0 : Fin 1))).toNat < 1024
  · rw [if_pos ⟨Nat.zero_le _, by omega⟩, dif_pos h]
  · rw [if_neg (fun c => h (by omega)), dif_neg h]

/-! ## The three found pieces -/

theorem sout_A (c : Dev nD) (i : grid0.Coords) (arg2 : Memref sig .tc .vmem S1x1024x1 .i32) (harg2 : arg2.IsWhole) (arg3 : Memref sig .tc .vmem S1x1024x1 .i32) (harg3 : arg3.IsWhole) (arg4 : Memref sig .tc .vmem S2560x512 .bf16) (harg4 : arg4.IsWhole) (arg5 : Memref sig .tc .vmem S1x1024x512 .f32) (harg5 : arg5.IsWhole) (arg6 : Memref sig .tc .vmem S1024x512 .bf16) (harg6 : arg6.IsWhole) (hc0 : cond0_0 i)
    (x0 : Vec Ideal S1x1024x1 .i32) (x1 : Vec Ideal S1x1024x1 .i32) (x2 : Vec Ideal S2560x512 .bf16) :
    sout0_A_0 (F := Ideal) c i arg2 harg2 arg3 harg3 arg4 harg4 arg5 harg5 arg6 harg6 hc0 x0 x1 x2 = embOf x0 x2 := by
  exact (piece_sA (F := Ideal) c i arg2 harg2 arg3 harg3 arg4 harg4 arg5 harg5 arg6 harg6 hc0 x0 x1 x2).trans (stage1_eq x0 x2)

theorem out_A (c : Dev nD) (i : grid0.Coords) (arg2 : Memref sig .tc .vmem S1x1024x1 .i32) (harg2 : arg2.IsWhole) (arg3 : Memref sig .tc .vmem S1x1024x1 .i32) (harg3 : arg3.IsWhole) (arg4 : Memref sig .tc .vmem S2560x512 .bf16) (harg4 : arg4.IsWhole) (arg5 : Memref sig .tc .vmem S1x1024x512 .f32) (harg5 : arg5.IsWhole) (arg6 : Memref sig .tc .vmem S1024x512 .bf16) (harg6 : arg6.IsWhole) (hc0 : cond0_0 i)
    (x0 : Vec Ideal S1x1024x1 .i32) (x1 : Vec Ideal S1x1024x1 .i32) (x2 : Vec Ideal S2560x512 .bf16) :
    out0_A_3 (F := Ideal) c i arg2 harg2 arg3 harg3 arg4 harg4 arg5 harg5 arg6 harg6 hc0 x0 x1 x2 = pick x1 (embOf x0 x2) := by
  exact (piece_oA (F := Ideal) c i arg2 harg2 arg3 harg3 arg4 harg4 arg5 harg5 arg6 harg6 hc0 x0 x1 x2).trans
    ((congrArg (k0_pay2 (F := Ideal) x1) (stage1_eq x0 x2)).trans (pay2_eq x1 (embOf x0 x2)))

theorem out_B (c : Dev nD) (i : grid0.Coords) (arg2 : Memref sig .tc .vmem S1x1024x1 .i32) (harg2 : arg2.IsWhole) (arg3 : Memref sig .tc .vmem S1x1024x1 .i32) (harg3 : arg3.IsWhole) (arg4 : Memref sig .tc .vmem S2560x512 .bf16) (harg4 : arg4.IsWhole) (arg5 : Memref sig .tc .vmem S1x1024x512 .f32) (harg5 : arg5.IsWhole) (arg6 : Memref sig .tc .vmem S1024x512 .bf16) (harg6 : arg6.IsWhole) (hc0 : ¬cond0_0 i)
    (x0 : Vec Ideal S1x1024x1 .i32) (x1 : Vec Ideal S1x1024x1 .i32) (x2 : Vec Ideal S2560x512 .bf16) (xs0 : Vec Ideal S1024x512 .bf16) :
    out0_B_3 (F := Ideal) c i arg2 harg2 arg3 harg3 arg4 harg4 arg5 harg5 arg6 harg6 hc0 x0 x1 x2 xs0 = pick x1 xs0 := by
  exact (piece_oB (F := Ideal) c i arg2 harg2 arg3 harg3 arg4 harg4 arg5 harg5 arg6 harg6 hc0 x0 x1 x2 xs0).trans (pay2_eq x1 xs0)

end Cert.KBody

end
-- ==== Proof.KHostJ.lean ====
/-
  The host arithmetic of the idealized kernel program, read at one element.

  Before the region the program computes, for sample b and output row t, the word the region is handed as its
  upsampling index: with A the sample's target length and L the number of its real tokens (word ≥ 0) at positions
  below A, the length regulator's token index j(L, A, t) clipped to [0, 1023] where t < A, L > 0 and A > 0, and the
  word -1 elsewhere. Every operation on the way is elementwise, a broadcast, an iota or a reshape that adds a unit
  axis, except the count L itself, which is a sum of a widened one-bit mask along a row. So the buffer at (b, t, 0)
  is the specification's word once (i) each broadcast is read as the operand at the coordinates it keeps, (ii) the
  reshape is read through the row-major position, and (iii) the row sum of the mask is identified with the number of
  positions where the mask is set, a number at most 1024 and therefore its own 32-bit word.
-/
import proofs.«412804_j35905926595499_2_alg».proof.Proof.Gen.KernelIdeal.Frame
import proofs.«412804_j35905926595499_2_alg».proof.Proof.Spec
import Idealize.ShloMosaic.Lib.StableHlo.Predicate
import Idealize.ShloMosaic.Lib.Pipeline.Value

noncomputable section

namespace Cert.KHost

open Cert.KernelIdeal Cert.KernelIdeal.Gen Idealize.ShloMosaic Idealize.ShloMosaic.ValueIdx Idealize.ShloMosaic.TcCoe

variable (m : (ℓ : Loc nD τ sig) → Buf (Elt Ideal) ℓ)

namespace J

/-! ## Elementwise operations read at an index (all by definition) -/

theorem addi_at {s : Shape} {w : Nat} (x y : IVec s w) (i : s.Idx) : addi x y i = IntOp.addi (x i) (y i) := rfl
theorem subi_at {s : Shape} {w : Nat} (x y : IVec s w) (i : s.Idx) : subi x y i = IntOp.subi (x i) (y i) := rfl
theorem muli_at {s : Shape} {w : Nat} (x y : IVec s w) (i : s.Idx) : muli x y i = IntOp.muli (x i) (y i) := rfl
theorem andi_at {s : Shape} {w : Nat} (x y : IVec s w) (i : s.Idx) : andi x y i = IntOp.andi (x i) (y i) := rfl
theorem maxsi_at {s : Shape} {w : Nat} (x y : IVec s w) (i : s.Idx) : maxsi x y i = IntOp.maxsi (x i) (y i) := rfl
theorem minsi_at {s : Shape} {w : Nat} (x y : IVec s w) (i : s.Idx) : minsi x y i = IntOp.minsi (x i) (y i) := rfl
theorem cmpi_at {s : Shape} {w : Nat} (p : CmpIPredicate) (x y : IVec s w) (i : s.Idx) :
    cmpi p x y i = IntOp.cmpi p (x i) (y i) := rfl
theorem hdivsi_at {s : Shape} {w : Nat} (x y : IVec s w) (i : s.Idx) : Host.divsi x y i = IntOp.divsi .host (x i) (y i) := rfl
theorem hremsi_at {s : Shape} {w : Nat} (x y : IVec s w) (i : s.Idx) : Host.remsi x y i = IntOp.remsi .host (x i) (y i) := rfl
theorem signi_at {s : Shape} (x : IVec s 32) (i : s.Idx) : signi x i = Cert.Spec.sgn (x i) := rfl
theorem constantI_at {s : Shape} {w : Nat} (v : BitVec w) (i : s.Idx) : constantI s w v i = v := rfl

/-! ## Broadcasts read at an index: the operand at the coordinates the broadcast keeps -/

/-- A scalar broadcast to any shape reads the scalar everywhere. -/
theorem bc_scalar {α : Type} {t : Shape} (h : (⟨0, ![]⟩ : Shape).BroadcastsInDim t ![])
    (v : (⟨0, ![]⟩ : Shape).Idx → α) (j : t.Idx) : broadcastInDim t ![] h v j = v ix0 :=
  broadcastInDim_apply _ h v j ix0 (fun a => a.elim0)

/-- A vector as a one-row rectangle reads, at (0, q), the vector at q. -/
theorem bc_row1 {α : Type} {k : Nat} (h : (⟨1, ![k]⟩ : Shape).BroadcastsInDim ⟨2, ![1, k]⟩ ![1])
    (v : (⟨1, ![k]⟩ : Shape).Idx → α) (z : Fin 1) (q : Fin k) :
    broadcastInDim ⟨2, ![1, k]⟩ ![1] h v (ix2 z q) = v (ix1 q) :=
  broadcastInDim_apply _ h v _ _ (fun a => by
    have ha : a = 0 := Subsingleton.elim _ _
    subst ha
    have hq := q.isLt
    show q.val = if k = 1 then 0 else q.val
    split <;> omega)

/-- A vector as a one-column rectangle reads, at (p, 0), the vector at p. -/
theorem bc_col1 {α : Type} {n : Nat} (h : (⟨1, ![n]⟩ : Shape).BroadcastsInDim ⟨2, ![n, 1]⟩ ![0])
    (v : (⟨1, ![n]⟩ : Shape).Idx → α) (p : Fin n) (z : Fin 1) :
    broadcastInDim ⟨2, ![n, 1]⟩ ![0] h v (ix2 p z) = v (ix1 p) :=
  broadcastInDim_apply _ h v _ _ (fun a => by
    have ha : a = 0 := Subsingleton.elim _ _
    subst ha
    have hp := p.isLt
    show p.val = if n = 1 then 0 else p.val
    split <;> omega)

/-- A one-row rectangle repeated down the rows reads, at (p, q), the row at (0, q). -/
theorem bc_of_row {α : Type} {n k : Nat} (h : (⟨2, ![1, k]⟩ : Shape).BroadcastsInDim ⟨2, ![n, k]⟩ ![0, 1])
    (v : (⟨2, ![1, k]⟩ : Shape).Idx → α) (p : Fin n) (q : Fin k) :
    broadcastInDim ⟨2, ![n, k]⟩ ![0, 1] h v (ix2 p q) = v (ix2 (0 : Fin 1) q) :=
  broadcastInDim_apply _ h v _ _ (fun a => by
    match a with
    | ⟨0, _⟩ => rfl
    | ⟨1, _⟩ =>
      have hq := q.isLt
      show q.val = if k = 1 then 0 else q.val
      split <;> omega)

/-- A one-column rectangle repeated along the columns reads, at (p, q), the column at (p, 0). -/
theorem bc_of_col {α : Type} {n k : Nat} (h : (⟨2, ![n, 1]⟩ : Shape).BroadcastsInDim ⟨2, ![n, k]⟩ ![0, 1])
    (v : (⟨2, ![n, 1]⟩ : Shape).Idx → α) (p : Fin n) (q : Fin k) :
    broadcastInDim ⟨2, ![n, k]⟩ ![0, 1] h v (ix2 p q) = v (ix2 p (0 : Fin 1)) :=
  broadcastInDim_apply _ h v _ _ (fun a => by
    match a with
    | ⟨0, _⟩ =>
      have hp := p.isLt
      show p.val = if n = 1 then 0 else p.val
      split <;> omega
    | ⟨1, _⟩ => rfl)

/-- The position along a vector's one axis. -/
theorem iota_at {n w : Nat} (p : Fin n) : iotaInDim (⟨1, ![n]⟩ : Shape) w 0 (ix1 p) = BitVec.ofNat w p.val := rfl

/-- Adding a trailing unit axis keeps the row-major position: (b, t, 0) of the result is (b, t) of the operand. -/
theorem reshape_at {α : Type} (x : (⟨2, ![32, 4096]⟩ : Shape).Idx → α)
    (h : (⟨2, ![32, 4096]⟩ : Shape).ShapeCasts ⟨3, ![32, 4096, 1]⟩) (b : Fin 32) (t : Fin 4096) (z : Fin 1) :
    shapeCast ⟨3, ![32, 4096, 1]⟩ x h (ix3 b t z) = x (ix2 b t) := by
  refine shapeCast_apply x h _ _ ?_
  rw [Shape.rowMajor_val_two, Shape.rowMajor_val_three]
  have hz := z.isLt
  show b.val * 4096 + t.val = (b.val * 4096 + t.val) * 1 + z.val
  omega

/-! ## The same reads at the program's own shapes (each broadcast's axis map written over the literal ranks) -/

theorem bcS_S32_at {α : Type} (h : S_.BroadcastsInDim S32 (![] : Fin 0 → Fin 1)) (v : S_.Idx → α) (j : S32.Idx) :
    broadcastInDim S32 (![] : Fin 0 → Fin 1) h v j = v ix0 := bc_scalar h v j
theorem bcS_S32x1_at {α : Type} (h : S_.BroadcastsInDim S32x1 (![] : Fin 0 → Fin 2)) (v : S_.Idx → α) (j : S32x1.Idx) :
    broadcastInDim S32x1 (![] : Fin 0 → Fin 2) h v j = v ix0 := bc_scalar h v j
theorem bcS_S32x1024_at {α : Type} (h : S_.BroadcastsInDim S32x1024 (![] : Fin 0 → Fin 2)) (v : S_.Idx → α) (j : S32x1024.Idx) :
    broadcastInDim S32x1024 (![] : Fin 0 → Fin 2) h v j = v ix0 := bc_scalar h v j
theorem bcS_S32x4096_at {α : Type} (h : S_.BroadcastsInDim S32x4096 (![] : Fin 0 → Fin 2)) (v : S_.Idx → α) (j : S32x4096.Idx) :
    broadcastInDim S32x4096 (![] : Fin 0 → Fin 2) h v j = v ix0 := bc_scalar h v j
theorem bcRow1024_at {α : Type} (h : S1024.BroadcastsInDim S1x1024 (![1] : Fin 1 → Fin 2)) (v : S1024.Idx → α) (z : Fin 1) (q : Fin 1024) :
    broadcastInDim S1x1024 (![1] : Fin 1 → Fin 2) h v (ix2 z q) = v (ix1 q) := bc_row1 h v z q
theorem bcRow4096_at {α : Type} (h : S4096.BroadcastsInDim S1x4096 (![1] : Fin 1 → Fin 2)) (v : S4096.Idx → α) (z : Fin 1) (q : Fin 4096) :
    broadcastInDim S1x4096 (![1] : Fin 1 → Fin 2) h v (ix2 z q) = v (ix1 q) := bc_row1 h v z q
theorem bcCol32_at {α : Type} (h : S32.BroadcastsInDim S32x1 (![0] : Fin 1 → Fin 2)) (v : S32.Idx → α) (p : Fin 32) (z : Fin 1) :
    broadcastInDim S32x1 (![0] : Fin 1 → Fin 2) h v (ix2 p z) = v (ix1 p) := bc_col1 h v p z
theorem bcRows1024_at {α : Type} (h : S1x1024.BroadcastsInDim S32x1024 (![0, 1] : Fin 2 → Fin 2)) (v : S1x1024.Idx → α) (p : Fin 32) (q : Fin 1024) :
    broadcastInDim S32x1024 (![0, 1] : Fin 2 → Fin 2) h v (ix2 p q) = v (ix2 (0 : Fin 1) q) := bc_of_row h v p q
theorem bcRows4096_at {α : Type} (h : S1x4096.BroadcastsInDim S32x4096 (![0, 1] : Fin 2 → Fin 2)) (v : S1x4096.Idx → α) (p : Fin 32) (q : Fin 4096) :
    broadcastInDim S32x4096 (![0, 1] : Fin 2 → Fin 2) h v (ix2 p q) = v (ix2 (0 : Fin 1) q) := bc_of_row h v p q
theorem bcCols1024_at {α : Type} (h : S32x1.BroadcastsInDim S32x1024 (![0, 1] : Fin 2 → Fin 2)) (v : S32x1.Idx → α) (p : Fin 32) (q : Fin 1024) :
    broadcastInDim S32x1024 (![0, 1] : Fin 2 → Fin 2) h v (ix2 p q) = v (ix2 p (0 : Fin 1)) := bc_of_col h v p q
theorem bcCols4096_at {α : Type} (h : S32x1.BroadcastsInDim S32x4096 (![0, 1] : Fin 2 → Fin 2)) (v : S32x1.Idx → α) (p : Fin 32) (q : Fin 4096) :
    broadcastInDim S32x4096 (![0, 1] : Fin 2 → Fin 2) h v (ix2 p q) = v (ix2 p (0 : Fin 1)) := bc_of_col h v p q
theorem iota1024_at (p : Fin 1024) : iotaInDim S1024 32 0 (ix1 p) = BitVec.ofNat 32 p.val := rfl
theorem iota4096_at (p : Fin 4096) : iotaInDim S4096 32 0 (ix1 p) = BitVec.ofNat 32 p.val := rfl

/-! ## The token count -/

/-- The mask whose set bits the program counts: token word ≥ 0 and position below the target length. -/
abbrev maskOf (text : IVec S32x1024 32) (seq : IVec S32 32)
    (h1 : S_.BroadcastsInDim S32x1024 (![] : Fin 0 → Fin 2)) (h2 : S1x1024.BroadcastsInDim S32x1024 (![0, 1] : Fin 2 → Fin 2))
    (h3 : S1024.BroadcastsInDim S1x1024 (![1] : Fin 1 → Fin 2)) (h4 : S32x1.BroadcastsInDim S32x1024 (![0, 1] : Fin 2 → Fin 2))
    (h5 : S32.BroadcastsInDim S32x1 (![0] : Fin 1 → Fin 2)) : IVec S32x1024 1 :=
  andi (cmpi .sge text (broadcastInDim S32x1024 (![] : Fin 0 → Fin 2) h1 (constantI S_ 32 0#32)))
    (cmpi .slt
      (broadcastInDim S32x1024 (![0, 1] : Fin 2 → Fin 2) h2 (broadcastInDim S1x1024 (![1] : Fin 1 → Fin 2) h3 (iotaInDim S1024 32 0)))
      (broadcastInDim S32x1024 (![0, 1] : Fin 2 → Fin 2) h4 (broadcastInDim S32x1 (![0] : Fin 1 → Fin 2) h5 seq)))

/-- The mask at (b, q) is the specification's predicate on position q of sample b. -/
theorem maskOf_at (text : IVec S32x1024 32) (seq : IVec S32 32) (h1 h2 h3 h4 h5) (b : Fin 32) (q : Fin 1024) :
    maskOf text seq h1 h2 h3 h4 h5 (ix2 b q)
      = IntOp.andi (IntOp.cmpi .sge (text (ix2 b q)) 0#32) (IntOp.cmpi .slt (BitVec.ofNat 32 q.val) (seq (ix1 b))) := by
  simp only [maskOf, andi_at, cmpi_at, bcS_S32x1024_at, bcRows1024_at, bcRow1024_at, bcCols1024_at, bcCol32_at, iota1024_at,
    constantI_at]

/-- Summing the widened mask along a sample's row counts its real tokens below the target length: the word of that
    count (at most 1024, so it does not wrap). -/
theorem count_at (text : IVec S32x1024 32) (seq : IVec S32 32) (b : Fin 32) (h1 h2 h3 h4 h5)
    (hw : 1 < 32) (hr : S32x1024.ReducesTo ([1] : List (Fin 2)) S32) (hu : 0 < S_.numel) :
    Host.reduce IntOp.addi (extui 32 (maskOf text seq h1 h2 h3 h4 h5) hw) (constantI S_ 32 0#32) hr hu (ix1 b)
      = BitVec.ofNat 32 (Cert.Spec.Lnat text seq b) := by
  have hle : Cert.Spec.Lnat text seq b ≤ 1024 := by
    unfold Cert.Spec.Lnat
    exact (Finset.card_le_univ _).trans (by simp)
  apply BitVec.eq_of_toNat_eq
  refine (StableHlo.Predicate.toNat_reduce_count_cols (n := 32) (m := 1024) (by decide)
    (maskOf text seq h1 h2 h3 h4 h5) hw hr hu (ix1 b)).trans ?_
  rw [BitVec.toNat_ofNat, Nat.mod_eq_of_lt (by omega)]
  unfold Cert.Spec.Lnat
  refine congrArg Finset.card (Finset.filter_congr (fun q _ => ?_))
  have hij : StableHlo.Predicate.ij ((ix1 b : S32.Idx) 0) q = ix2 b q := by
    funext a
    match a with
    | ⟨0, _⟩ => rfl
    | ⟨1, _⟩ => rfl
  exact Iff.of_eq (congrArg (fun x : BitVec 1 => x = 1#1)
    ((congrArg (maskOf text seq h1 h2 h3 h4 h5) hij).trans (maskOf_at text seq h1 h2 h3 h4 h5 b q)))

end J

open J

set_option maxHeartbeats 2000000 in
/-- The upsampling index the region finds at row t of sample b. -/
theorem V_j (c : Dev nD) (b : Fin 32) (t : Fin 4096) :
    (V m c main_v59 : S32x4096x1.Idx → BitVec 32) (ix3 b t (0 : Fin 1))
      = Cert.Spec.jfin (m ((c : Thread nD τ).loc main_arg0)) (m ((c : Thread nD τ).loc main_arg1)) b t := by
  -- the buffer as the composed term of the operations that wrote it, over the two argument arrays
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, List.flatten_cons, List.flatten_nil, List.append_nil, List.cons_append, List.nil_append]
  after_results_simp
  simp only [StableHlo.TRef.ofBuf, StableHlo.TRef.toBuf, cast_eq]
  -- (b, t, 0) of the reshaped array is (b, t) of the array before it
  refine (reshape_at _ _ b t 0).trans ?_
  -- every operation read at its element; what is left is the regulator's words over A, t and the row sum of the mask
  simp only [select_apply, addi_at, subi_at, muli_at, andi_at, maxsi_at, minsi_at, cmpi_at, hdivsi_at, hremsi_at, signi_at, constantI_at, bcS_S32_at, bcS_S32x1_at, bcS_S32x1024_at, bcS_S32x4096_at, bcRow1024_at, bcRow4096_at, bcCol32_at, bcRows1024_at, bcRows4096_at, bcCols1024_at, bcCols4096_at, iota1024_at, iota4096_at, id]
  -- the row sum is the token count, and the words are the specification's
  rw [count_at (m ((c : Thread nD τ).loc main_arg0)) (m ((c : Thread nD τ).loc main_arg1)) b]
  rfl

end Cert.KHost

end
-- ==== Proof.KHostIW.lean ====
import proofs.«412804_j35905926595499_2_alg».proof.Proof.Gen.KernelIdeal.Frame
import proofs.«412804_j35905926595499_2_alg».proof.Proof.Spec
import Idealize.ShloMosaic.Lib.KernelVsHost

noncomputable section

namespace Cert.KHost

open Cert.KernelIdeal Cert.KernelIdeal.Gen Idealize.ShloMosaic Idealize.ShloMosaic.ValueIdx Idealize.ShloMosaic.TcCoe

/-- A table of 2546 rows padded below with fourteen rows of a value that is zero, then narrowed to the shorter float
    format: row v of the result is the table's row v while v < 2546, and zero after. -/
theorem padded_row (W : FVec Ideal S2546x512 .f32) (z : FVec Ideal S_ .f32)
    (hp : S2546x512.Pads (![0, 0] : Fin 2 → Nat) ![14, 0] ![0, 0] S2560x512) (h0 : 0 < S_.numel)
    (hz : z (Shape.Idx.first h0) = 0) (hb : FTy.bf16.bits < FTy.f32.bits) (v : Fin 2560) (d : Fin 512) :
    (truncf .bf16 (pad S2560x512 ![0, 0] ![14, 0] ![0, 0] W z hp h0) hb : FVec Ideal S2560x512 .bf16) (ix2 v d)
      = Cert.Spec.Wrow W v.val d := by
  -- the change of float format is the identity on extended reals
  show pad S2560x512 ![0, 0] ![14, 0] ![0, 0] W z hp h0 (ix2 v d) = Cert.Spec.Wrow W v.val d
  unfold Cert.Spec.Wrow
  by_cases hv : v.val < 2546
  · -- a row of the table: the padded array reads the table there
    rw [dif_pos hv]
    exact pad_apply_of_inside _ _ _ W z hp h0 (ix2 v d) (ix2 (⟨v.val, hv⟩ : Fin 2546) d) (fun a =>
      match a with
      | ⟨0, _⟩ => by show v.val = 0 + v.val * (0 + 1); omega
      | ⟨1, _⟩ => by show d.val = 0 + d.val * (0 + 1); omega)
  · -- a row past the table: the padding value
    rw [dif_neg hv]
    refine (pad_apply_of_not_inside _ _ _ W z hp h0 (ix2 v d) (0 : Fin 2) (by
      intro hin
      have h3 : (v.val - 0) / (0 + 1) < 2546 := hin.2.2
      omega)).trans ?_
    exact hz

variable (m : (ℓ : Loc nD τ sig) → Buf (Elt Ideal) ℓ)

/-- The id the region finds for token n of sample b: the token's word plus one. -/
theorem V_ids (c : Dev nD) (b : Fin 32) (n : Fin 1024) :
    (V m c main_v58 : S32x1024x1.Idx → BitVec 32) (ix3 b n (0 : Fin 1))
      = IntOp.addi ((m ((c : Thread nD τ).loc main_arg0) : S32x1024.Idx → BitVec 32) (ix2 b n)) 1#32 := by
  -- the array is the token array plus a constant one at every entry, given a trailing unit axis
  have e : (V m c main_v58 : S32x1024x1.Idx → BitVec 32)
      = shapeCast S32x1024x1
          (addi (m ((c : Thread nD τ).loc main_arg0) : S32x1024.Idx → BitVec 32)
            (broadcastInDim S32x1024 ![] bcast_S_S32x1024 (constantI S_ 32 1#32)))
          shapeCasts_S32x1024_S32x1024x1 := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, List.flatten_cons, List.flatten_nil, List.append_nil, List.cons_append, List.nil_append]
    after_results
    rfl
  rw [e]
  -- entry (b, n, 0) of the three-axis array and entry (b, n) of the two-axis one share the position 1024 b + n
  refine (shapeCast_apply _ _ (ix3 b n (0 : Fin 1)) (ix2 b n) (by
    rw [Shape.rowMajor_val_two, Shape.rowMajor_val_three]
    show b.val * 1024 + n.val = (b.val * 1024 + n.val) * 1 + 0
    omega)).trans ?_
  rfl

/-- The table the region finds: the embedding table's rows, then zero rows. -/
theorem V_w (c : Dev nD) (v : Fin 2560) (d : Fin 512) :
    (V m c main_v61 : S2560x512.Idx → EReal) (ix2 v d)
      = Cert.Spec.Wrow (m ((c : Thread nD τ).loc main_arg2)) v.val d := by
  -- the array is the table with fourteen rows of the converted integer zero appended, narrowed to the shorter format
  have e : (V m c main_v61 : S2560x512.Idx → EReal)
      = truncf .bf16
          (pad S2560x512 ![0, 0] ![14, 0] ![0, 0]
            (m ((c : Thread nD τ).loc main_arg2) : FVec Ideal S2546x512 .f32)
            (sitofp (F := Ideal) .f32 (constantI S_ 32 0#32))
            pads_S2546x512_S2560x512_0140_000 h_S_)
          bitsLt_bf16_f32 := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, List.flatten_cons, List.flatten_nil, List.append_nil, List.cons_append, List.nil_append]
    after_results
    rfl
  exact (congrFun e (ix2 v d)).trans
    (padded_row (m ((c : Thread nD τ).loc main_arg2)) (sitofp (F := Ideal) .f32 (constantI S_ 32 0#32))
      pads_S2546x512_S2560x512_0140_000 h_S_ sitofp_zero bitsLt_bf16_f32 v d)

end Cert.KHost

end
-- ==== Proof.KValue.lean ====
import proofs.«412804_j35905926595499_2_alg».proof.Proof.Gen.KernelIdeal.Value
import proofs.«412804_j35905926595499_2_alg».proof.Proof.KBody
import proofs.«412804_j35905926595499_2_alg».proof.Proof.KHostJ
import proofs.«412804_j35905926595499_2_alg».proof.Proof.KHostIW
import proofs.«412804_j35905926595499_2_alg».proof.Proof.Spec

noncomputable section

namespace Cert.KValue

open Cert.KernelIdeal Cert.KernelIdeal.Gen Cert.KernelIdeal.Value Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

/-- The three argument arrays as launched. -/
abbrev textOf (c : Dev nD) : IVec Cert.Spec.S32x1024 32 := m ((c : Thread nD τ).loc main_arg0)
abbrev seqOf (c : Dev nD) : IVec Cert.Spec.S32 32 := m ((c : Thread nD τ).loc main_arg1)
abbrev tabOf (c : Dev nD) : FVec Ideal Cert.Spec.S2546x512 .f32 := m ((c : Thread nD τ).loc main_arg2)

/-- The three input windows' blocks at a point, at their literal types. -/
abbrev blk0 (c : Dev nD) (t : Fin cfg0.N) : Vec Ideal S1x1024x1 .i32 := iblk m c 0 t
abbrev blk1 (c : Dev nD) (t : Fin cfg0.N) : Vec Ideal S1x1024x1 .i32 := iblk m c 1 t
abbrev blk2 (c : Dev nD) (t : Fin cfg0.N) : Vec Ideal S2560x512 .bf16 := iblk m c 2 t

/-- The printed index maps over the grid of 32 samples by 4 sequence tiles: point t is sample t / 4, tile t mod 4. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 2) = 0 ∧ win0_2.index t (1 : Fin 2) = 0
    ∧ win0_3.index t (0 : Fin 3) = t.val / 4 ∧ win0_3.index t (1 : Fin 3) = t.val % 4 ∧ win0_3.index t (2 : Fin 3) = 0 :=
  (by decide +kernel : ∀ t : Fin grid0.N, _)

theorem N_lt (t : Fin cfg0.N) : t.val < 128 := lt_of_lt_of_eq t.isLt (show cfg0.N = 128 from N_0)

/-- The sample of a point. -/
def smp (t : Fin cfg0.N) : Fin 32 := ⟨t.val / 4, by have := N_lt t; omega⟩

/-- The output row of a point's tile row r. -/
def orow (t : Fin cfg0.N) (r : Fin 1024) : Fin 4096 := ⟨(t.val % 4) * 1024 + r.val, by have := r.isLt; omega⟩

/-- The id block of a point is its sample's id column. -/
theorem blk0_apply (c : Dev nD) (t : Fin cfg0.N) (n : Fin 1024) :
    blk0 m c t (ix3 (0 : Fin 1) n (0 : Fin 1))
      = (V m c main_v58 : S32x1024x1.Idx → BitVec 32) (ix3 (smp t) n (0 : Fin 1)) := by
  obtain ⟨e0, e1, e2, -⟩ := idx_facts t
  show (V m c main_v58 : S32x1024x1.Idx → BitVec 32) (((cfg0.win 0).blk t).view.emb (ix3 (0 : Fin 1) n (0 : Fin 1))) = _
  congr 1
  funext a; apply Fin.ext
  match a with
  | ⟨0, _⟩ => show win0_0.index t (0 : Fin 3) * 1 + 1 * 0 = t.val / 4; omega
  | ⟨1, _⟩ => show win0_0.index t (1 : Fin 3) * 1024 + 1 * n.val = n.val; omega
  | ⟨2, _⟩ => show win0_0.index t (2 : Fin 3) * 1 + 1 * 0 = 0; omega

/-- The index block of a point is its tile of its sample's index column. -/
theorem blk1_apply (c : Dev nD) (t : Fin cfg0.N) (r : Fin 1024) :
    blk1 m c t (ix3 (0 : Fin 1) r (0 : Fin 1))
      = (V m c main_v59 : S32x4096x1.Idx → BitVec 32) (ix3 (smp t) (orow t r) (0 : Fin 1)) := by
  obtain ⟨-, -, -, e0, e1, e2, -⟩ := idx_facts t
  show (V m c main_v59 : S32x4096x1.Idx → BitVec 32) (((cfg0.win 1).blk t).view.emb (ix3 (0 : Fin 1) r (0 : Fin 1))) = _
  congr 1
  funext a; apply Fin.ext
  match a with
  | ⟨0, _⟩ => show win0_1.index t (0 : Fin 3) * 1 + 1 * 0 = t.val / 4; omega
  | ⟨1, _⟩ => show win0_1.index t (1 : Fin 3) * 1024 + 1 * r.val = (t.val % 4) * 1024 + r.val; omega
  | ⟨2, _⟩ => show win0_1.index t (2 : Fin 3) * 1 + 1 * 0 = 0; omega

/-- The table block of every point is the whole table. -/
theorem blk2_apply (c : Dev nD) (t : Fin cfg0.N) (v : Fin 2560) (d : Fin 512) :
    blk2 m c t (ix2 v d) = (V m c main_v61 : S2560x512.Idx → EReal) (ix2 v d) := by
  obtain ⟨-, -, -, -, -, -, e0, e1, -⟩ := idx_facts t
  show (V m c main_v61 : S2560x512.Idx → EReal) (((cfg0.win 2).blk t).view.emb (ix2 v d)) = _
  congr 1
  funext a; apply Fin.ext
  match a with
  | ⟨0, _⟩ => show win0_2.index t (0 : Fin 2) * 2560 + 1 * v.val = v.val; omega
  | ⟨1, _⟩ => show win0_2.index t (1 : Fin 2) * 512 + 1 * d.val = d.val; omega

/-- The first stage's result for sample b: row n is the table's row (token n of the sample, plus one). -/
def Etab (c : Dev nD) (b : Fin 32) (n : Fin 1024) (d : Fin 512) : EReal :=
  Cert.Spec.Wrow (tabOf m c) (IntOp.addi (textOf m c (ix2 b n)) 1#32).toNat d

def EtabV (c : Dev nD) (b : Fin 32) : Vec Ideal S1024x512 .bf16 := fun i => Etab m c b (i 0) (i 1)

/-- At every point the first stage, run on the point's id block and the table block, gives its sample's embedded rows:
    an id is a row of the padded table exactly when it is below 2560, and the rows from 2546 on are zero. -/
theorem embOf_blocks (c : Dev nD) (t : Fin cfg0.N) :
    Cert.KBody.embOf (blk0 m c t) (blk2 m c t) = EtabV m c (smp t) := by
  funext i
  obtain ⟨n, d, rfl⟩ : ∃ (n : Fin 1024) (d : Fin 512), i = ix2 n d := ⟨i 0, i 1, eq_ix2 i⟩
  show (if h : (blk0 m c t (ix3 (0 : Fin 1) n (0 : Fin 1))).toNat < 2560
        then blk2 m c t (ix2 ⟨(blk0 m c t (ix3 (0 : Fin 1) n (0 : Fin 1))).toNat, h⟩ d) else (0 : EReal))
      = Etab m c (smp t) n d
  rw [blk0_apply, Cert.KHost.V_ids]
  show (if h : (IntOp.addi (textOf m c (ix2 (smp t) n)) 1#32).toNat < 2560
        then blk2 m c t (ix2 ⟨(IntOp.addi (textOf m c (ix2 (smp t) n)) 1#32).toNat, h⟩ d) else (0 : EReal))
      = Cert.Spec.Wrow (tabOf m c) (IntOp.addi (textOf m c (ix2 (smp t) n)) 1#32).toNat d
  by_cases h : (IntOp.addi (textOf m c (ix2 (smp t) n)) 1#32).toNat < 2560
  · rw [dif_pos h, blk2_apply, Cert.KHost.V_w]
  · rw [dif_neg h]
    unfold Cert.Spec.Wrow
    rw [dif_neg (fun h' => h (by omega))]

/-- THE CARRIED SCRATCH after any point holds the embedded rows of the point's sample: the first tile of a sample
    computes them, the other three keep what the tile before left, and they are tiles of the same sample. -/
theorem scratch_eq (c : Dev nD) : ∀ (n : ℕ) (h : n < cfg0.N), (outsAt0 m c n h).2 = EtabV m c (smp ⟨n, h⟩)
  | 0, h => by
    rw [outsAt0_A m c ⟨0, h⟩ rfl]
    dsimp only
    exact (Cert.KBody.sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr rfl) (blk0 m c ⟨0, h⟩) (blk1 m c ⟨0, h⟩) (blk2 m c ⟨0, h⟩)).trans (embOf_blocks m c ⟨0, h⟩)
  | n + 1, h => by
    by_cases h0 : (n + 1) % 4 = 0
    · rw [outsAt0_A m c ⟨n + 1, h⟩ h0]
      dsimp only
      exact (Cert.KBody.sout_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) ((hcond0_0 ⟨n + 1, h⟩).mpr h0) (blk0 m c ⟨n + 1, h⟩) (blk1 m c ⟨n + 1, h⟩) (blk2 m c ⟨n + 1, h⟩)).trans (embOf_blocks m c ⟨n + 1, h⟩)
    · rw [outsAt0_B m c ⟨n + 1, h⟩ h0]
      dsimp only
      unfold sout0_B_0
      rw [scratch_eq c (n + 1 - 1) (Nat.lt_of_le_of_lt (Nat.sub_le _ _) h)]
      congr 1
      apply Fin.ext
      show (n + 1 - 1) / 4 = (n + 1) / 4
      omega

/-- The second stage on a point's index block and its sample's embedded rows is the point's block of the result:
    row r of the tile is output row (tile · 1024 + r) of the sample, whose index word names a token exactly when it is
    below 1024 as a natural number (the word -1 of an invalid row is not). -/
theorem pick_eq (c : Dev nD) (t : Fin cfg0.N) (j : S1x1024x512.Idx) :
    Cert.KBody.pick (blk1 m c t) (EtabV m c (smp t)) j
      = Cert.Spec.G (textOf m c) (seqOf m c) (tabOf m c) (((cfg0.win 3).blk t).view.emb j) := by
  obtain ⟨z, r, d, rfl⟩ : ∃ (z : Fin 1) (r : Fin 1024) (d : Fin 512), j = ix3 z r d := ⟨j 0, j 1, j 2, eq_ix3 j⟩
  obtain ⟨-, -, -, -, -, -, -, -, e0, e1, e2⟩ := idx_facts t
  have hemb : ((cfg0.win 3).blk t).view.emb (ix3 z r d) = ix3 (smp t) (orow t r) d := by
    funext a; apply Fin.ext
    match a with
    | ⟨0, _⟩ => show win0_3.index t (0 : Fin 3) * 1 + 1 * z.val = t.val / 4; have := z.isLt; omega
    | ⟨1, _⟩ => show win0_3.index t (1 : Fin 3) * 1024 + 1 * r.val = (t.val % 4) * 1024 + r.val; omega
    | ⟨2, _⟩ => show win0_3.index t (2 : Fin 3) * 512 + 1 * d.val = d.val; omega
  rw [hemb, Cert.Spec.G_apply]
  show (if h : (blk1 m c t (ix3 (0 : Fin 1) r (0 : Fin 1))).toNat < 1024
        then EtabV m c (smp t) (ix2 ⟨(blk1 m c t (ix3 (0 : Fin 1) r (0 : Fin 1))).toNat, h⟩ d) else (0 : EReal))
      = Cert.Spec.Gc (textOf m c) (seqOf m c) (tabOf m c) (smp t) (orow t r) d
  rw [blk1_apply, Cert.KHost.V_j]
  unfold Cert.Spec.Gc
  by_cases h : (Cert.Spec.jfin (textOf m c) (seqOf m c) (smp t) (orow t r)).toNat < 1024
  · rw [dif_pos h, if_pos h]
    show Cert.Spec.Wrow (tabOf m c) (IntOp.addi (textOf m c (ix2 (smp t) ⟨_, h⟩)) 1#32).toNat d = _
    unfold Cert.Spec.textAt
    rw [dif_pos h]
  · rw [dif_neg h, if_neg h]

/-- WHAT POINT t WRITES BACK is its block of the result function. -/
theorem flushed_eq (c : Dev nD) (t : Fin cfg0.N) :
    (dats m 0 c).flushed 3 t
      = ((cfg0.win 3).blk t).view.read (Elt Ideal) (Cert.Spec.G (textOf m c) (seqOf m c) (tabOf m c)) := by
  by_cases h0 : t.val % 4 = 0
  · rw [flushed3_A m c t h0,
      Cert.KBody.out_A c (grid0.coords t) (ms0_0 t) (hs0_0 t) (ms0_1 t) (hs0_1 t) (ms0_2 t) (hs0_2 t) (ms0_3 t) (hs0_3 t) scM0_0 (Memref.isWhole_whole _) ((hcond0_0 t).mpr h0) (blk0 m c t) (blk1 m c t) (blk2 m c t),
      embOf_blocks]
    funext j
    exact pick_eq m c t j
  · rw [flushed3_B m c t h0,
      Cert.KBody.out_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (blk0 m c t) (blk1 m c t) (blk2 m c t) (outsAt0 m c (t.val - 1) (Nat.lt_of_le_of_lt (Nat.sub_le _ _) t.isLt)).2,
      scratch_eq]
    have hs : smp ⟨t.val - 1, Nat.lt_of_le_of_lt (Nat.sub_le _ _) t.isLt⟩ = smp t := by
      apply Fin.ext
      show (t.val - 1) / 4 = t.val / 4
      omega
    rw [hs]
    funext j
    exact pick_eq m c t j

/-- An index of the result array is in point t's block iff each coordinate is in the block's range on its axis. -/
theorem mem_blk (t : Fin cfg0.N) (i : S32x4096x512.Idx) :
    i ∈ ((cfg0.win 3).blk t).view.set ↔ ∀ a : Fin 3, win0_3.index t a * S1x1024x512.size a ≤ (i a).val ∧ (i a).val < win0_3.index t a * S1x1024x512.size a + S1x1024x512.size a := by
  show i ∈ ((View.whole main_v62).slice (win0_3.rect t)).set ↔ _
  rw [View.set_slice_whole, Rect.mem_set_unit]
  exact Iff.rfl

/-- Every index of the result array lies in some point's block: sample i₀, tile i₁ / 1024. -/
theorem cover (i : S32x4096x512.Idx) :
    ∃ t : Fin cfg0.N, (cfg0.win 3).flush t = true ∧ i ∈ ((cfg0.win 3).blk t).view.set := by
  have hi0 : (i 0).val < 32 := (i 0).isLt
  have hi1 : (i 1).val < 4096 := (i 1).isLt
  have hi2 : (i 2).val < 512 := (i 2).isLt
  have hN : cfg0.N = 128 := N_0
  let t : Fin cfg0.N := ⟨4 * (i 0).val + (i 1).val / 1024, by rw [hN]; omega⟩
  obtain ⟨-, -, -, -, -, -, -, -, e0, e1, e2⟩ := idx_facts t
  have ht : t.val = 4 * (i 0).val + (i 1).val / 1024 := rfl
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 512 ≤ (i 2).val ∧ (i 2).val < win0_3.index t (2 : Fin 3) * 512 + 512; omega

/-- THE RESULT ARRAY after the run is the result function of the argument arrays. -/
theorem final (c : Dev nD) :
    (dats m 0 c).arrAt 3 cfg0.N = Cert.Spec.G (textOf m c) (seqOf m c) (tabOf m c) :=
  (dats m 0 c).arrAt_eq_of_cover 3 (Cert.Spec.G (textOf m c) (seqOf m c) (tabOf m c)) (fun t _ => flushed_eq m c t) cover

/-- The kernel program's run: it ends with the result array at the result function of its arguments, which it keeps. -/
theorem run : θ_run defs (onTc (τ := τ) (main (F := Ideal))) ⟨m, fun _ => 0, ρ⟩ fun r => ∀ c : Dev nD,
      r.2.mem ((c : Thread nD τ).loc main_v62) = Cert.Spec.G (textOf m c) (seqOf m c) (tabOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KValue

end
-- ==== Proof.RefOps.lean ====
/-
  The reference program's run, written out. @main is two windows of statements, ten of them calls of
  module-local functions (two of which call a further function); a call means its callee's body on the
  operands, so the straight line @main runs is its own operations with every callee's operations in
  place of its call, over that call's record of buffers: 183 operations. They are listed here in five
  consecutive stretches (the first four make up the first window, the fifth is the second window), @main is
  equal to the straight line of the whole list, and a straight line's run is the fold of its operations:
  every weakly fair execution terminates with each buffer at the fold of the operations' results over the
  launch contents.
-/
import proofs.«412804_j35905926595499_2_alg».proof.ReferenceIdeal
import proofs.«412804_j35905926595499_2_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem
  Idealize.ShloMosaic.StableHlo

variable {F : FTy → Type} [FloatOps F]

/-! ## The operations -/
/-- Statements 1 … 31 of the first window: the ids (token + 1, padded with zeros to the output length, zeroed from the target length on), the table lookup at the wrapped ids, its rows zeroed from the target length on, and the count of nonzero ids (42 operations). -/
abbrev ops0 : List (HloOp τ sig (Elt F)) :=
  [ nullary main_c (constantI S_ 32 1#32),
    unary main_c main_v0 (broadcastInDim S32x1024 ![] bcast_S_S32x1024 : (⟨S_, .i32⟩ : BufTy).Contents (Elt F) → (⟨S32x1024, .i32⟩ : BufTy).Contents (Elt F)),
    binary main_arg0 main_v0 main_v1 (addi : (⟨S32x1024, .i32⟩ : BufTy).Contents (Elt F) → (⟨S32x1024, .i32⟩ : BufTy).Contents (Elt F) → (⟨S32x1024, .i32⟩ : BufTy).Contents (Elt F)),
    nullary main_c_0 (constantI S_ 32 0#32),
    TRef.unary (.of main_c_0 : TRef sig ⟨S_, .i32⟩) main_call0.v0 id,
    TRef.binary (.of main_v1 : TRef sig ⟨S32x1024, .i32⟩) main_call0.v0 main_call0.v1 (fun x v => pad S32x4096 ![0, 0] ![0, 3072] ![0, 0] x v pads_S32x1024_S32x4096_000_030720 h_S_),
    nullary main_v3 (iotaInDim S4096 32 0),
    unary main_v3 main_v4 (broadcastInDim S1x4096 ![1] bcast_S4096_S1x4096_1 : (⟨S4096, .i32⟩ : BufTy).Contents (Elt F) → (⟨S1x4096, .i32⟩ : BufTy).Contents (Elt F)),
    unary main_arg1 main_v5 (broadcastInDim S32x1 ![0] bcast_S32_S32x1_0 : (⟨S32, .i32⟩ : BufTy).Contents (Elt F) → (⟨S32x1, .i32⟩ : BufTy).Contents (Elt F)),
    unary main_v4 main_v6 (broadcastInDim S32x4096 ![0, 1] bcast_S1x4096_S32x4096_0_1 : (⟨S1x4096, .i32⟩ : BufTy).Contents (Elt F) → (⟨S32x4096, .i32⟩ : BufTy).Contents (Elt F)),
    unary main_v5 main_v7 (broadcastInDim S32x4096 ![0, 1] bcast_S32x1_S32x4096_0_1 : (⟨S32x1, .i32⟩ : BufTy).Contents (Elt F) → (⟨S32x4096, .i32⟩ : BufTy).Contents (Elt F)),
    binary main_v6 main_v7 main_v8 (cmpi .slt : (⟨S32x4096, .i32⟩ : BufTy).Contents (Elt F) → (⟨S32x4096, .i32⟩ : BufTy).Contents (Elt F) → (⟨S32x4096, .i1⟩ : BufTy).Contents (Elt F)),
    nullary main_c_1 (constantI S_ 32 0#32),
    TRef.unary (.of main_c_1 : TRef sig ⟨S_, .i32⟩) main_call1.v0 id,
    TRef.unary main_call1.v0 main_call1.v1 (broadcastInDim S32x4096 ![] bcast_S_S32x4096),
    TRef.ternary (.of main_v8 : TRef sig ⟨S32x4096, .i1⟩) (.of main_v2 : TRef sig ⟨S32x4096, .i32⟩) main_call1.v1 main_call1.v2 select,
    nullary main_c_2 (constantI S_ 32 0#32),
    unary main_c_2 main_v10 (broadcastInDim S32x4096 ![] bcast_S_S32x4096 : (⟨S_, .i32⟩ : BufTy).Contents (Elt F) → (⟨S32x4096, .i32⟩ : BufTy).Contents (Elt F)),
    binary main_v9 main_v10 main_v11 (cmpi .eq : (⟨S32x4096, .i32⟩ : BufTy).Contents (Elt F) → (⟨S32x4096, .i32⟩ : BufTy).Contents (Elt F) → (⟨S32x4096, .i1⟩ : BufTy).Contents (Elt F)),
    nullary main_c_3 (constantI S_ 32 0#32),
    unary main_c_3 main_v12 (broadcastInDim S32x4096 ![] bcast_S_S32x4096 : (⟨S_, .i32⟩ : BufTy).Contents (Elt F) → (⟨S32x4096, .i32⟩ : BufTy).Contents (Elt F)),
    binary main_v9 main_v12 main_v13 (cmpi .slt : (⟨S32x4096, .i32⟩ : BufTy).Contents (Elt F) → (⟨S32x4096, .i32⟩ : BufTy).Contents (Elt F) → (⟨S32x4096, .i1⟩ : BufTy).Contents (Elt F)),
    nullary main_c_4 (constantI S_ 32 2546#32),
    unary main_c_4 main_v14 (broadcastInDim S32x4096 ![] bcast_S_S32x4096 : (⟨S_, .i32⟩ : BufTy).Contents (Elt F) → (⟨S32x4096, .i32⟩ : BufTy).Contents (Elt F)),
    binary main_v9 main_v14 main_v15 (addi : (⟨S32x4096, .i32⟩ : BufTy).Contents (Elt F) → (⟨S32x4096, .i32⟩ : BufTy).Contents (Elt F) → (⟨S32x4096, .i32⟩ : BufTy).Contents (Elt F)),
    ternary main_v13 main_v15 main_v9 main_v16 (select : (⟨S32x4096, .i1⟩ : BufTy).Contents (Elt F) → (⟨S32x4096, .i32⟩ : BufTy).Contents (Elt F) → (⟨S32x4096, .i32⟩ : BufTy).Contents (Elt F) → (⟨S32x4096, .i32⟩ : BufTy).Contents (Elt F)),
    unary main_v16 main_v17 (broadcastInDim S32x4096x1 ![0, 1] bcast_S32x4096_S32x4096x1_0_1 : (⟨S32x4096, .i32⟩ : BufTy).Contents (Elt F) → (⟨S32x4096x1, .i32⟩ : BufTy).Contents (Elt F)),
    binary main_arg2 main_v17 main_v18 ((fun x i => Host.gather gather_S2546x512_S32x4096x1_S32x4096x512_2_0_n_n_0_2_1512 x i) : (⟨S2546x512, .f32⟩ : BufTy).Contents (Elt F) → (⟨S32x4096x1, .i32⟩ : BufTy).Contents (Elt F) → (⟨S32x4096x512, .f32⟩ : BufTy).Contents (Elt F)),
    unary main_v8 main_v19 (broadcastInDim S32x4096x1 ![0, 1] bcast_S32x4096_S32x4096x1_0_1 : (⟨S32x4096, .i1⟩ : BufTy).Contents (Elt F) → (⟨S32x4096x1, .i1⟩ : BufTy).Contents (Elt F)),
    nullary main_cst (constant S_ .f32 0x00000000#32),
    TRef.unary (.of main_cst : TRef sig ⟨S_, .f32⟩) main_call2.v0 id,
    TRef.unary (.of main_v19 : TRef sig ⟨S32x4096x1, .i1⟩) main_call2.v1 (broadcastInDim S32x4096x512 ![0, 1, 2] bcast_S32x4096x1_S32x4096x512_0_1_2),
    TRef.unary main_call2.v0 main_call2.v2 (broadcastInDim S32x4096x512 ![] bcast_S_S32x4096x512),
    TRef.ternary main_call2.v1 (.of main_v18 : TRef sig ⟨S32x4096x512, .f32⟩) main_call2.v2 main_call2.v3 select,
    unary main_v11 main_v21 (noti : (⟨S32x4096, .i1⟩ : BufTy).Contents (Elt F) → (⟨S32x4096, .i1⟩ : BufTy).Contents (Elt F)),
    unary main_v21 main_v22 ((extui 32 · natLt_1_32) : (⟨S32x4096, .i1⟩ : BufTy).Contents (Elt F) → (⟨S32x4096, .i32⟩ : BufTy).Contents (Elt F)),
    nullary main_c_5 (constantI S_ 32 0#32),
    binary main_v22 main_c_5 main_v23 ((fun x v => Host.reduce IntOp.addi x v reducesTo_S32x4096_S32_d1 h_S_) : (⟨S32x4096, .i32⟩ : BufTy).Contents (Elt F) → (⟨S_, .i32⟩ : BufTy).Contents (Elt F) → (⟨S32, .i32⟩ : BufTy).Contents (Elt F)),
    nullary main_v24 (iotaInDim S4096 32 0),
    nullary main_c_6 (constantI S_ 32 1#32),
    unary main_c_6 main_v25 (broadcastInDim S32 ![] bcast_S_S32 : (⟨S_, .i32⟩ : BufTy).Contents (Elt F) → (⟨S32, .i32⟩ : BufTy).Contents (Elt F)),
    binary main_v23 main_v25 main_v26 (maxsi : (⟨S32, .i32⟩ : BufTy).Contents (Elt F) → (⟨S32, .i32⟩ : BufTy).Contents (Elt F) → (⟨S32, .i32⟩ : BufTy).Contents (Elt F)) ]

/-- Statements 32 … 38 of the first window: the count floored at one, the floor quotient and the sign-following remainder of the target length by it (43 operations). -/
abbrev ops1 : List (HloOp τ sig (Elt F)) :=
  [ TRef.binary (.of main_arg1 : TRef sig ⟨S32, .i32⟩) (.of main_v26 : TRef sig ⟨S32, .i32⟩) main_call3.v0 Host.divsi,
    TRef.unary (.of main_arg1 : TRef sig ⟨S32, .i32⟩) main_call3.v1 signi,
    TRef.unary (.of main_v26 : TRef sig ⟨S32, .i32⟩) main_call3.v2 signi,
    TRef.binary main_call3.v1 main_call3.v2 main_call3.v3 (cmpi .ne),
    TRef.binary (.of main_arg1 : TRef sig ⟨S32, .i32⟩) (.of main_v26 : TRef sig ⟨S32, .i32⟩) main_call3.v4 Host.remsi,
    TRef.nullary main_call3.c (constantI S_ 32 0#32),
    TRef.unary main_call3.c main_call3.v5 (broadcastInDim S32 ![] bcast_S_S32),
    TRef.binary main_call3.v4 main_call3.v5 main_call3.v6 (cmpi .ne),
    TRef.binary main_call3.v3 main_call3.v6 main_call3.v7 andi,
    TRef.nullary main_call3.c_0 (constantI S_ 32 1#32),
    TRef.unary main_call3.c_0 main_call3.v8 (broadcastInDim S32 ![] bcast_S_S32),
    TRef.binary main_call3.v0 main_call3.v8 main_call3.v9 subi,
    TRef.ternary main_call3.v7 main_call3.v9 main_call3.v0 main_call3.call0.v0 select,
    TRef.nullary main_call4.c (constantI S_ 32 0#32),
    TRef.unary main_call4.c main_call4.v0 (broadcastInDim S32 ![] bcast_S_S32),
    TRef.binary (.of main_v26 : TRef sig ⟨S32, .i32⟩) main_call4.v0 main_call4.v1 (cmpi .eq),
    TRef.nullary main_call4.c_0 (constantI S_ 32 1#32),
    TRef.unary main_call4.c_0 main_call4.call0.v0 (broadcastInDim S32 ![] bcast_S_S32),
    TRef.ternary main_call4.v1 main_call4.call0.v0 (.of main_v26 : TRef sig ⟨S32, .i32⟩) main_call4.call0.v1 select,
    TRef.binary (.of main_arg1 : TRef sig ⟨S32, .i32⟩) main_call4.call0.v1 main_call4.v3 Host.remsi,
    TRef.nullary main_call4.c_1 (constantI S_ 32 0#32),
    TRef.unary main_call4.c_1 main_call4.v4 (broadcastInDim S32 ![] bcast_S_S32),
    TRef.binary main_call4.v3 main_call4.v4 main_call4.v5 (cmpi .ne),
    TRef.nullary main_call4.c_2 (constantI S_ 32 0#32),
    TRef.unary main_call4.c_2 main_call4.v6 (broadcastInDim S32 ![] bcast_S_S32),
    TRef.binary main_call4.v3 main_call4.v6 main_call4.v7 (cmpi .slt),
    TRef.nullary main_call4.c_3 (constantI S_ 32 0#32),
    TRef.unary main_call4.c_3 main_call4.v8 (broadcastInDim S32 ![] bcast_S_S32),
    TRef.binary main_call4.call0.v1 main_call4.v8 main_call4.v9 (cmpi .slt),
    TRef.binary main_call4.v7 main_call4.v9 main_call4.v10 (cmpi .ne),
    TRef.binary main_call4.v10 main_call4.v5 main_call4.v11 andi,
    TRef.binary main_call4.v3 main_call4.call0.v1 main_call4.v12 addi,
    TRef.ternary main_call4.v11 main_call4.v12 main_call4.v3 main_call4.v13 select,
    binary main_v23 main_v28 main_v29 (subi : (⟨S32, .i32⟩ : BufTy).Contents (Elt F) → (⟨S32, .i32⟩ : BufTy).Contents (Elt F) → (⟨S32, .i32⟩ : BufTy).Contents (Elt F)),
    binary main_v29 main_v27 main_v30 (muli : (⟨S32, .i32⟩ : BufTy).Contents (Elt F) → (⟨S32, .i32⟩ : BufTy).Contents (Elt F) → (⟨S32, .i32⟩ : BufTy).Contents (Elt F)),
    unary main_v24 main_v31 (broadcastInDim S1x4096 ![1] bcast_S4096_S1x4096_1 : (⟨S4096, .i32⟩ : BufTy).Contents (Elt F) → (⟨S1x4096, .i32⟩ : BufTy).Contents (Elt F)),
    unary main_v30 main_v32 (broadcastInDim S32x1 ![0] bcast_S32_S32x1_0 : (⟨S32, .i32⟩ : BufTy).Contents (Elt F) → (⟨S32x1, .i32⟩ : BufTy).Contents (Elt F)),
    unary main_v31 main_v33 (broadcastInDim S32x4096 ![0, 1] bcast_S1x4096_S32x4096_0_1 : (⟨S1x4096, .i32⟩ : BufTy).Contents (Elt F) → (⟨S32x4096, .i32⟩ : BufTy).Contents (Elt F)),
    unary main_v32 main_v34 (broadcastInDim S32x4096 ![0, 1] bcast_S32x1_S32x4096_0_1 : (⟨S32x1, .i32⟩ : BufTy).Contents (Elt F) → (⟨S32x4096, .i32⟩ : BufTy).Contents (Elt F)),
    binary main_v33 main_v34 main_v35 (cmpi .slt : (⟨S32x4096, .i32⟩ : BufTy).Contents (Elt F) → (⟨S32x4096, .i32⟩ : BufTy).Contents (Elt F) → (⟨S32x4096, .i1⟩ : BufTy).Contents (Elt F)),
    nullary main_c_7 (constantI S_ 32 1#32),
    unary main_c_7 main_v36 (broadcastInDim S32 ![] bcast_S_S32 : (⟨S_, .i32⟩ : BufTy).Contents (Elt F) → (⟨S32, .i32⟩ : BufTy).Contents (Elt F)),
    binary main_v27 main_v36 main_v37 (maxsi : (⟨S32, .i32⟩ : BufTy).Contents (Elt F) → (⟨S32, .i32⟩ : BufTy).Contents (Elt F) → (⟨S32, .i32⟩ : BufTy).Contents (Elt F)) ]

/-- Statements 39 … 49 of the first window: the split position, and the floor quotient of every position by the floored base length (34 operations). -/
abbrev ops2 : List (HloOp τ sig (Elt F)) :=
  [ TRef.unary (.of main_v24 : TRef sig ⟨S4096, .i32⟩) main_call5.v0 (broadcastInDim S1x4096 ![1] bcast_S4096_S1x4096_1),
    TRef.unary (.of main_v37 : TRef sig ⟨S32, .i32⟩) main_call5.v1 (broadcastInDim S32x1 ![0] bcast_S32_S32x1_0),
    TRef.unary main_call5.v0 main_call5.v2 (broadcastInDim S32x4096 ![0, 1] bcast_S1x4096_S32x4096_0_1),
    TRef.unary main_call5.v1 main_call5.v3 (broadcastInDim S32x4096 ![0, 1] bcast_S32x1_S32x4096_0_1),
    TRef.binary main_call5.v2 main_call5.v3 main_call5.v4 Host.divsi,
    TRef.unary (.of main_v24 : TRef sig ⟨S4096, .i32⟩) main_call5.v5 signi,
    TRef.unary (.of main_v37 : TRef sig ⟨S32, .i32⟩) main_call5.v6 signi,
    TRef.unary main_call5.v5 main_call5.v7 (broadcastInDim S1x4096 ![1] bcast_S4096_S1x4096_1),
    TRef.unary main_call5.v6 main_call5.v8 (broadcastInDim S32x1 ![0] bcast_S32_S32x1_0),
    TRef.unary main_call5.v7 main_call5.v9 (broadcastInDim S32x4096 ![0, 1] bcast_S1x4096_S32x4096_0_1),
    TRef.unary main_call5.v8 main_call5.v10 (broadcastInDim S32x4096 ![0, 1] bcast_S32x1_S32x4096_0_1),
    TRef.binary main_call5.v9 main_call5.v10 main_call5.v11 (cmpi .ne),
    TRef.unary (.of main_v24 : TRef sig ⟨S4096, .i32⟩) main_call5.v12 (broadcastInDim S1x4096 ![1] bcast_S4096_S1x4096_1),
    TRef.unary (.of main_v37 : TRef sig ⟨S32, .i32⟩) main_call5.v13 (broadcastInDim S32x1 ![0] bcast_S32_S32x1_0),
    TRef.unary main_call5.v12 main_call5.v14 (broadcastInDim S32x4096 ![0, 1] bcast_S1x4096_S32x4096_0_1),
    TRef.unary main_call5.v13 main_call5.v15 (broadcastInDim S32x4096 ![0, 1] bcast_S32x1_S32x4096_0_1),
    TRef.binary main_call5.v14 main_call5.v15 main_call5.v16 Host.remsi,
    TRef.nullary main_call5.c (constantI S_ 32 0#32),
    TRef.unary main_call5.c main_call5.v17 (broadcastInDim S32x4096 ![] bcast_S_S32x4096),
    TRef.binary main_call5.v16 main_call5.v17 main_call5.v18 (cmpi .ne),
    TRef.binary main_call5.v11 main_call5.v18 main_call5.v19 andi,
    TRef.nullary main_call5.c_0 (constantI S_ 32 1#32),
    TRef.unary main_call5.c_0 main_call5.v20 (broadcastInDim S32x4096 ![] bcast_S_S32x4096),
    TRef.binary main_call5.v4 main_call5.v20 main_call5.v21 subi,
    TRef.ternary main_call5.v19 main_call5.v21 main_call5.v4 main_call5.call0.v0 select,
    binary main_v23 main_v28 main_v39 (subi : (⟨S32, .i32⟩ : BufTy).Contents (Elt F) → (⟨S32, .i32⟩ : BufTy).Contents (Elt F) → (⟨S32, .i32⟩ : BufTy).Contents (Elt F)),
    unary main_v24 main_v40 (broadcastInDim S1x4096 ![1] bcast_S4096_S1x4096_1 : (⟨S4096, .i32⟩ : BufTy).Contents (Elt F) → (⟨S1x4096, .i32⟩ : BufTy).Contents (Elt F)),
    unary main_v30 main_v41 (broadcastInDim S32x1 ![0] bcast_S32_S32x1_0 : (⟨S32, .i32⟩ : BufTy).Contents (Elt F) → (⟨S32x1, .i32⟩ : BufTy).Contents (Elt F)),
    unary main_v40 main_v42 (broadcastInDim S32x4096 ![0, 1] bcast_S1x4096_S32x4096_0_1 : (⟨S1x4096, .i32⟩ : BufTy).Contents (Elt F) → (⟨S32x4096, .i32⟩ : BufTy).Contents (Elt F)),
    unary main_v41 main_v43 (broadcastInDim S32x4096 ![0, 1] bcast_S32x1_S32x4096_0_1 : (⟨S32x1, .i32⟩ : BufTy).Contents (Elt F) → (⟨S32x4096, .i32⟩ : BufTy).Contents (Elt F)),
    binary main_v42 main_v43 main_v44 (subi : (⟨S32x4096, .i32⟩ : BufTy).Contents (Elt F) → (⟨S32x4096, .i32⟩ : BufTy).Contents (Elt F) → (⟨S32x4096, .i32⟩ : BufTy).Contents (Elt F)),
    nullary main_c_8 (constantI S_ 32 1#32),
    unary main_c_8 main_v45 (broadcastInDim S32 ![] bcast_S_S32 : (⟨S_, .i32⟩ : BufTy).Contents (Elt F) → (⟨S32, .i32⟩ : BufTy).Contents (Elt F)),
    binary main_v27 main_v45 main_v46 (addi : (⟨S32, .i32⟩ : BufTy).Contents (Elt F) → (⟨S32, .i32⟩ : BufTy).Contents (Elt F) → (⟨S32, .i32⟩ : BufTy).Contents (Elt F)) ]

/-- Statements 50 … 60 of the first window: the positions past the split, and their floor quotient by the base length plus one (20 operations). -/
abbrev ops3 : List (HloOp τ sig (Elt F)) :=
  [ TRef.unary (.of main_v46 : TRef sig ⟨S32, .i32⟩) main_call6.v0 (broadcastInDim S32x1 ![0] bcast_S32_S32x1_0),
    TRef.unary main_call6.v0 main_call6.v1 (broadcastInDim S32x4096 ![0, 1] bcast_S32x1_S32x4096_0_1),
    TRef.binary (.of main_v44 : TRef sig ⟨S32x4096, .i32⟩) main_call6.v1 main_call6.v2 Host.divsi,
    TRef.unary (.of main_v44 : TRef sig ⟨S32x4096, .i32⟩) main_call6.v3 signi,
    TRef.unary (.of main_v46 : TRef sig ⟨S32, .i32⟩) main_call6.v4 signi,
    TRef.unary main_call6.v4 main_call6.v5 (broadcastInDim S32x1 ![0] bcast_S32_S32x1_0),
    TRef.unary main_call6.v5 main_call6.v6 (broadcastInDim S32x4096 ![0, 1] bcast_S32x1_S32x4096_0_1),
    TRef.binary main_call6.v3 main_call6.v6 main_call6.v7 (cmpi .ne),
    TRef.unary (.of main_v46 : TRef sig ⟨S32, .i32⟩) main_call6.v8 (broadcastInDim S32x1 ![0] bcast_S32_S32x1_0),
    TRef.unary main_call6.v8 main_call6.v9 (broadcastInDim S32x4096 ![0, 1] bcast_S32x1_S32x4096_0_1),
    TRef.binary (.of main_v44 : TRef sig ⟨S32x4096, .i32⟩) main_call6.v9 main_call6.v10 Host.remsi,
    TRef.nullary main_call6.c (constantI S_ 32 0#32),
    TRef.unary main_call6.c main_call6.v11 (broadcastInDim S32x4096 ![] bcast_S_S32x4096),
    TRef.binary main_call6.v10 main_call6.v11 main_call6.v12 (cmpi .ne),
    TRef.binary main_call6.v7 main_call6.v12 main_call6.v13 andi,
    TRef.nullary main_call6.c_0 (constantI S_ 32 1#32),
    TRef.unary main_call6.c_0 main_call6.v14 (broadcastInDim S32x4096 ![] bcast_S_S32x4096),
    TRef.binary main_call6.v2 main_call6.v14 main_call6.v15 subi,
    TRef.ternary main_call6.v13 main_call6.v15 main_call6.v2 main_call6.call0.v0 select,
    unary main_v39 main_v48 (broadcastInDim S32x1 ![0] bcast_S32_S32x1_0 : (⟨S32, .i32⟩ : BufTy).Contents (Elt F) → (⟨S32x1, .i32⟩ : BufTy).Contents (Elt F)) ]

/-- The second window: the regulator's index chosen by the split, clipped and wrapped, the lookup of the embedded rows at it, and the rows outside the valid positions zeroed (44 operations). -/
abbrev ops4 : List (HloOp τ sig (Elt F)) :=
  [ unary main_v48 main_v49 (broadcastInDim S32x4096 ![0, 1] bcast_S32x1_S32x4096_0_1 : (⟨S32x1, .i32⟩ : BufTy).Contents (Elt F) → (⟨S32x4096, .i32⟩ : BufTy).Contents (Elt F)),
    binary main_v49 main_v47 main_v50 (addi : (⟨S32x4096, .i32⟩ : BufTy).Contents (Elt F) → (⟨S32x4096, .i32⟩ : BufTy).Contents (Elt F) → (⟨S32x4096, .i32⟩ : BufTy).Contents (Elt F)),
    TRef.ternary (.of main_v35 : TRef sig ⟨S32x4096, .i1⟩) (.of main_v38 : TRef sig ⟨S32x4096, .i32⟩) (.of main_v50 : TRef sig ⟨S32x4096, .i32⟩) main_call7.v0 select,
    nullary main_c_9 (constantI S_ 32 0#32),
    nullary main_c_10 (constantI S_ 32 4095#32),
    TRef.unary (.of main_c_9 : TRef sig ⟨S_, .i32⟩) main_call8.v0 id,
    TRef.unary main_call8.v0 main_call8.v1 (broadcastInDim S32x4096 ![] bcast_S_S32x4096),
    TRef.binary main_call8.v1 (.of main_v51 : TRef sig ⟨S32x4096, .i32⟩) main_call8.v2 maxsi,
    TRef.unary (.of main_c_10 : TRef sig ⟨S_, .i32⟩) main_call8.v3 id,
    TRef.unary main_call8.v3 main_call8.v4 (broadcastInDim S32x4096 ![] bcast_S_S32x4096),
    TRef.binary main_call8.v4 main_call8.v2 main_call8.v5 minsi,
    nullary main_c_11 (constantI S_ 32 0#32),
    unary main_c_11 main_v53 (broadcastInDim S32x4096 ![] bcast_S_S32x4096 : (⟨S_, .i32⟩ : BufTy).Contents (Elt F) → (⟨S32x4096, .i32⟩ : BufTy).Contents (Elt F)),
    binary main_v52 main_v53 main_v54 (cmpi .slt : (⟨S32x4096, .i32⟩ : BufTy).Contents (Elt F) → (⟨S32x4096, .i32⟩ : BufTy).Contents (Elt F) → (⟨S32x4096, .i1⟩ : BufTy).Contents (Elt F)),
    nullary main_c_12 (constantI S_ 32 4096#32),
    unary main_c_12 main_v55 (broadcastInDim S32x4096 ![] bcast_S_S32x4096 : (⟨S_, .i32⟩ : BufTy).Contents (Elt F) → (⟨S32x4096, .i32⟩ : BufTy).Contents (Elt F)),
    binary main_v52 main_v55 main_v56 (addi : (⟨S32x4096, .i32⟩ : BufTy).Contents (Elt F) → (⟨S32x4096, .i32⟩ : BufTy).Contents (Elt F) → (⟨S32x4096, .i32⟩ : BufTy).Contents (Elt F)),
    ternary main_v54 main_v56 main_v52 main_v57 (select : (⟨S32x4096, .i1⟩ : BufTy).Contents (Elt F) → (⟨S32x4096, .i32⟩ : BufTy).Contents (Elt F) → (⟨S32x4096, .i32⟩ : BufTy).Contents (Elt F) → (⟨S32x4096, .i32⟩ : BufTy).Contents (Elt F)),
    unary main_v57 main_v58 (broadcastInDim S32x4096x1 ![0, 1] bcast_S32x4096_S32x4096x1_0_1 : (⟨S32x4096, .i32⟩ : BufTy).Contents (Elt F) → (⟨S32x4096x1, .i32⟩ : BufTy).Contents (Elt F)),
    binary main_v20 main_v58 main_v59 ((fun x i => Host.gather gather_S32x4096x512_S32x4096x1_S32x4096x512_2_1_0_0_1_2_11512 x i) : (⟨S32x4096x512, .f32⟩ : BufTy).Contents (Elt F) → (⟨S32x4096x1, .i32⟩ : BufTy).Contents (Elt F) → (⟨S32x4096x512, .f32⟩ : BufTy).Contents (Elt F)),
    unary main_v24 main_v60 (broadcastInDim S1x4096 ![1] bcast_S4096_S1x4096_1 : (⟨S4096, .i32⟩ : BufTy).Contents (Elt F) → (⟨S1x4096, .i32⟩ : BufTy).Contents (Elt F)),
    unary main_arg1 main_v61 (broadcastInDim S32x1 ![0] bcast_S32_S32x1_0 : (⟨S32, .i32⟩ : BufTy).Contents (Elt F) → (⟨S32x1, .i32⟩ : BufTy).Contents (Elt F)),
    unary main_v60 main_v62 (broadcastInDim S32x4096 ![0, 1] bcast_S1x4096_S32x4096_0_1 : (⟨S1x4096, .i32⟩ : BufTy).Contents (Elt F) → (⟨S32x4096, .i32⟩ : BufTy).Contents (Elt F)),
    unary main_v61 main_v63 (broadcastInDim S32x4096 ![0, 1] bcast_S32x1_S32x4096_0_1 : (⟨S32x1, .i32⟩ : BufTy).Contents (Elt F) → (⟨S32x4096, .i32⟩ : BufTy).Contents (Elt F)),
    binary main_v62 main_v63 main_v64 (cmpi .slt : (⟨S32x4096, .i32⟩ : BufTy).Contents (Elt F) → (⟨S32x4096, .i32⟩ : BufTy).Contents (Elt F) → (⟨S32x4096, .i1⟩ : BufTy).Contents (Elt F)),
    unary main_v64 main_v65 (broadcastInDim S32x4096x1 ![0, 1] bcast_S32x4096_S32x4096x1_0_1 : (⟨S32x4096, .i1⟩ : BufTy).Contents (Elt F) → (⟨S32x4096x1, .i1⟩ : BufTy).Contents (Elt F)),
    nullary main_c_13 (constantI S_ 32 0#32),
    unary main_c_13 main_v66 (broadcastInDim S32 ![] bcast_S_S32 : (⟨S_, .i32⟩ : BufTy).Contents (Elt F) → (⟨S32, .i32⟩ : BufTy).Contents (Elt F)),
    binary main_v23 main_v66 main_v67 (cmpi .sgt : (⟨S32, .i32⟩ : BufTy).Contents (Elt F) → (⟨S32, .i32⟩ : BufTy).Contents (Elt F) → (⟨S32, .i1⟩ : BufTy).Contents (Elt F)),
    unary main_v67 main_v68 (broadcastInDim S32x1x1 ![0] bcast_S32_S32x1x1_0 : (⟨S32, .i1⟩ : BufTy).Contents (Elt F) → (⟨S32x1x1, .i1⟩ : BufTy).Contents (Elt F)),
    unary main_v68 main_v69 (broadcastInDim S32x4096x1 ![0, 1, 2] bcast_S32x1x1_S32x4096x1_0_1_2 : (⟨S32x1x1, .i1⟩ : BufTy).Contents (Elt F) → (⟨S32x4096x1, .i1⟩ : BufTy).Contents (Elt F)),
    binary main_v65 main_v69 main_v70 (andi : (⟨S32x4096x1, .i1⟩ : BufTy).Contents (Elt F) → (⟨S32x4096x1, .i1⟩ : BufTy).Contents (Elt F) → (⟨S32x4096x1, .i1⟩ : BufTy).Contents (Elt F)),
    nullary main_c_14 (constantI S_ 32 0#32),
    unary main_c_14 main_v71 (broadcastInDim S32 ![] bcast_S_S32 : (⟨S_, .i32⟩ : BufTy).Contents (Elt F) → (⟨S32, .i32⟩ : BufTy).Contents (Elt F)),
    binary main_arg1 main_v71 main_v72 (cmpi .sgt : (⟨S32, .i32⟩ : BufTy).Contents (Elt F) → (⟨S32, .i32⟩ : BufTy).Contents (Elt F) → (⟨S32, .i1⟩ : BufTy).Contents (Elt F)),
    unary main_v72 main_v73 (broadcastInDim S32x1x1 ![0] bcast_S32_S32x1x1_0 : (⟨S32, .i1⟩ : BufTy).Contents (Elt F) → (⟨S32x1x1, .i1⟩ : BufTy).Contents (Elt F)),
    unary main_v73 main_v74 (broadcastInDim S32x4096x1 ![0, 1, 2] bcast_S32x1x1_S32x4096x1_0_1_2 : (⟨S32x1x1, .i1⟩ : BufTy).Contents (Elt F) → (⟨S32x4096x1, .i1⟩ : BufTy).Contents (Elt F)),
    binary main_v70 main_v74 main_v75 (andi : (⟨S32x4096x1, .i1⟩ : BufTy).Contents (Elt F) → (⟨S32x4096x1, .i1⟩ : BufTy).Contents (Elt F) → (⟨S32x4096x1, .i1⟩ : BufTy).Contents (Elt F)),
    nullary main_cst_15 (constant S_ .f32 0x00000000#32),
    TRef.unary (.of main_cst_15 : TRef sig ⟨S_, .f32⟩) main_call9.v0 id,
    TRef.unary (.of main_v75 : TRef sig ⟨S32x4096x1, .i1⟩) main_call9.v1 (broadcastInDim S32x4096x512 ![0, 1, 2] bcast_S32x4096x1_S32x4096x512_0_1_2),
    TRef.unary main_call9.v0 main_call9.v2 (broadcastInDim S4096x512 ![] bcast_S_S4096x512),
    TRef.unary main_call9.v2 main_call9.v3 (broadcastInDim S32x4096x512 ![1, 2] bcast_S4096x512_S32x4096x512_1_2),
    TRef.ternary main_call9.v1 (.of main_v59 : TRef sig ⟨S32x4096x512, .f32⟩) main_call9.v3 main_call9.v4 select ]

/-- @main's 183 operations, in order, the calls unfolded at their call sites. -/
abbrev ops : List (HloOp τ sig (Elt F)) := ops0 ++ (ops1 ++ (ops2 ++ (ops3 ++ ops4)))

/-! ## @main is the straight line -/

-- the chain of steps nests once per operation: 139 deep in the first window, 44 in the second
set_option maxRecDepth 16384 in
set_option maxHeartbeats 4000000 in
/-- The first window is the straight line of its four stretches: the functions' definitions unfolded at their
    calls, both sides are one chain of steps once sequencing is re-associated. -/
theorem main_part0_eq (c : Dev nD) :
    main_part0 (F := F) c = seq (ops0 ++ (ops1 ++ (ops2 ++ ops3))) := by
  simp only [main_part0, fn_pad.body, fn_where.body, fn_where_0.body, fn_where_1.body, fn_floor_divide.body, fn_where_2.body, fn_remainder.body, fn_where_4.body, fn_floor_divide_3.body, fn_floor_divide_5.body, fn_clip.body, fn_where_6.body, List.cons_append, List.nil_append, seq, bind_assoc, pure_bind]
  rfl

set_option maxRecDepth 16384 in
set_option maxHeartbeats 4000000 in
/-- The second window is the straight line of the fifth stretch. -/
theorem main_part1_eq (c : Dev nD) : main_part1 (F := F) c = seq ops4 := by
  simp only [main_part1, fn_pad.body, fn_where.body, fn_where_0.body, fn_where_1.body, fn_floor_divide.body, fn_where_2.body, fn_remainder.body, fn_where_4.body, fn_floor_divide_3.body, fn_floor_divide_5.body, fn_clip.body, fn_where_6.body, seq, bind_assoc, pure_bind]

/-- @main, the two windows in order, is the straight line of the whole list. -/
theorem main_eq (c : Dev nD) : main (F := F) c = seq ops := by
  have h : (ops : List (HloOp τ sig (Elt F))) = (ops0 ++ (ops1 ++ (ops2 ++ ops3))) ++ ops4 := by
    simp only [ops, List.append_assoc]
  rw [h, seq_append, ← main_part0_eq c, ← main_part1_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., unary_bufs_sub .., ternary_bufs_sub .., unary_bufs_sub .., unary_bufs_sub .., nullary_bufs_sub .., binary_bufs_sub .., nullary_bufs_sub .., nullary_bufs_sub .., unary_bufs_sub .., binary_bufs_sub ..⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops1_sub : (ops1 : List (HloOp τ sig (Elt F))).Forall fun op => op.bufs ⊆ tcRefs τ sig :=
  ⟨binary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., ternary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., ternary_bufs_sub .., binary_bufs_sub .., binary_bufs_sub .., unary_bufs_sub .., unary_bufs_sub .., unary_bufs_sub .., unary_bufs_sub .., binary_bufs_sub .., nullary_bufs_sub .., unary_bufs_sub .., binary_bufs_sub ..⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops2_sub : (ops2 : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., ternary_bufs_sub .., binary_bufs_sub .., unary_bufs_sub .., unary_bufs_sub .., unary_bufs_sub .., unary_bufs_sub .., binary_bufs_sub .., nullary_bufs_sub .., unary_bufs_sub .., binary_bufs_sub ..⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops3_sub : (ops3 : List (HloOp τ sig (Elt F))).Forall fun op => op.bufs ⊆ tcRefs τ sig :=
  ⟨unary_bufs_sub .., unary_bufs_sub .., binary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub ..⟩

set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

set_option maxRecDepth 8192 in
theorem ops4_sub : (ops4 : List (HloOp τ sig (Elt F))).Forall fun op => op.bufs ⊆ tcRefs τ sig :=
  ⟨unary_bufs_sub .., binary_bufs_sub .., ternary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., binary_bufs_sub .., unary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., unary_bufs_sub .., unary_bufs_sub .., unary_bufs_sub .., ternary_bufs_sub ..⟩

set_option maxRecDepth 8192 in
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h]

/-- Every operation determines its results. -/
theorem ops_fresh : ∀ op ∈ (ops : List (HloOp τ sig (Elt F))), op.fresh = ∅ := fun op h => by
  simp only [ops, List.mem_append] at h
  rcases h with h | h | h | h | h
  exacts [List.forall_iff_forall_mem.mp ops0_fresh op h, List.forall_iff_forall_mem.mp ops1_fresh op h,
    List.forall_iff_forall_mem.mp ops2_fresh op h, List.forall_iff_forall_mem.mp ops3_fresh op h,
    List.forall_iff_forall_mem.mp ops4_fresh op h]

/-! ## The run -/

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.RefRun

end
-- ==== Proof.RefValueA.lean ====
/-
  The reference's first half, read one element at a time, at the ideal instance. After the run the count buffer
  holds, at sample b, the number of nonzero ids of the sample — an id being token + 1 below both the token count
  and the target length and 0 elsewhere, so the pad (token -1) and every position from the target length on count
  for nothing —, as a 32-bit word (the count is at most 4096, so the sum of the widened bits does not wrap); the
  embedded-rows buffer holds, at (b, p, d), the table's row at the id of (b, p) — a negative id wrapped by the
  table's length, the lookup reading its index signed and clamped into the table — at column d, and zero from the
  target length on; and the three arguments are as they were. Each is shown in two steps: the buffer after the
  run is a closed term of the arguments' contents (only the first of the five stretches of operations writes
  these buffers), and that term at an index is the specification's word or extended real.
-/
import proofs.«412804_j35905926595499_2_alg».proof.Proof.RefOps
import proofs.«412804_j35905926595499_2_alg».proof.Proof.Spec
import Idealize.ShloMosaic.Lib.ValueIdx
import Idealize.ShloMosaic.Lib.StableHlo.Predicate
import Idealize.ShloMosaic.Lib.Pipeline.Value
import Idealize.ShloMosaic.Lib.Pipeline.Frame
import Idealize.ShloMosaic.Lib.IdealHost

noncomputable section

namespace Cert.RefValueA

open Cert.ReferenceIdeal Cert.ReferenceIdeal.Gen Cert.RefRun Idealize.ShloMosaic Idealize.ShloMosaic.TcCoe Idealize.SL.Sem
  Idealize.ShloMosaic.StableHlo Idealize.ShloMosaic.ValueIdx

/-! ## The first half's values, as terms of the arguments -/

/-- Positions below the target length: bit (b, p) is set when p < seq b (signed). -/
def posLt (seq : IVec S32 32) : IVec S32x4096 1 :=
  cmpi .slt
    (broadcastInDim S32x4096 ![0, 1] bcast_S1x4096_S32x4096_0_1 (broadcastInDim S1x4096 ![1] bcast_S4096_S1x4096_1 (iotaInDim S4096 32 0)))
    (broadcastInDim S32x4096 ![0, 1] bcast_S32x1_S32x4096_0_1 (broadcastInDim S32x1 ![0] bcast_S32_S32x1_0 seq))

/-- The ids: token + 1 padded with zeros to the output length, zero from the target length on. -/
def ids (text : IVec S32x1024 32) (seq : IVec S32 32) : IVec S32x4096 32 :=
  select (posLt seq)
    (pad S32x4096 ![0, 0] ![0, 3072] ![0, 0]
      (addi text (broadcastInDim S32x1024 ![] bcast_S_S32x1024 (constantI S_ 32 1#32)))
      (constantI S_ 32 0#32) pads_S32x1024_S32x4096_000_030720 h_S_)
    (broadcastInDim S32x4096 ![] bcast_S_S32x4096 (constantI S_ 32 0#32))

/-- The count of nonzero ids of each sample, as the program sums it. -/
def cnt (text : IVec S32x1024 32) (seq : IVec S32 32) : IVec S32 32 :=
  Host.reduce IntOp.addi
    (extui 32 (noti (cmpi .eq (ids text seq) (broadcastInDim S32x4096 ![] bcast_S_S32x4096 (constantI S_ 32 0#32)))) natLt_1_32)
    (constantI S_ 32 0#32) reducesTo_S32x4096_S32_d1 h_S_

/-- The ids with a negative one wrapped by the table's length. -/
def wrapped (text : IVec S32x1024 32) (seq : IVec S32 32) : IVec S32x4096 32 :=
  select (cmpi .slt (ids text seq) (broadcastInDim S32x4096 ![] bcast_S_S32x4096 (constantI S_ 32 0#32)))
    (addi (ids text seq) (broadcastInDim S32x4096 ![] bcast_S_S32x4096 (constantI S_ 32 2546#32)))
    (ids text seq)

/-- The table's rows looked up at the wrapped ids, zeroed from the target length on. -/
def emb (text : IVec S32x1024 32) (seq : IVec S32 32) (W : FVec Ideal S2546x512 .f32) : FVec Ideal S32x4096x512 .f32 :=
  select
    (broadcastInDim S32x4096x512 ![0, 1, 2] bcast_S32x4096x1_S32x4096x512_0_1_2
      (broadcastInDim S32x4096x1 ![0, 1] bcast_S32x4096_S32x4096x1_0_1 (posLt seq)))
    (Host.gather gather_S2546x512_S32x4096x1_S32x4096x512_2_0_n_n_0_2_1512 W
      (broadcastInDim S32x4096x1 ![0, 1] bcast_S32x4096_S32x4096x1_0_1 (wrapped text seq)))
    (broadcastInDim S32x4096x512 ![] bcast_S_S32x4096x512 (constant S_ .f32 0x00000000#32))

/-! ## Read at an index -/

theorem posLt_apply (seq : IVec S32 32) (b : Fin 32) (p : Fin 4096) :
    posLt seq (ix2 b p) = IntOp.cmpi .slt (BitVec.ofNat 32 p.val) (seq (ix1 b)) := by
  have h1 : broadcastInDim S32x4096 ![0, 1] bcast_S1x4096_S32x4096_0_1
      (broadcastInDim S1x4096 ![1] bcast_S4096_S1x4096_1 (iotaInDim S4096 32 0)) (ix2 b p) = BitVec.ofNat 32 p.val := rfl
  have h2 : broadcastInDim S32x4096 ![0, 1] bcast_S32x1_S32x4096_0_1
      (broadcastInDim S32x1 ![0] bcast_S32_S32x1_0 seq) (ix2 b p) = seq (ix1 b) := by
    refine (broadcastInDim_apply (s := S32x1) (t := S32x4096) ![0, 1] bcast_S32x1_S32x4096_0_1 _ (ix2 b p) (ix2 b (0 : Fin 1))
      (fun a => match a with | ⟨0, _⟩ => rfl | ⟨1, _⟩ => rfl)).trans ?_
    exact broadcastInDim_apply (s := S32) (t := S32x1) ![0] bcast_S32_S32x1_0 seq (ix2 b (0 : Fin 1)) (ix1 b)
      (fun a => match a with | ⟨0, _⟩ => rfl)
  show IntOp.cmpi .slt _ _ = _
  rw [h1, h2]

/-- The pad of a [32, 1024] array to [32, 4096] on the right reads the array below column 1024 and the padding value from there on. -/
theorem pad_apply (x : IVec S32x1024 32) (v : IVec S_ 32) (b : Fin 32) (p : Fin 4096) :
    pad S32x4096 ![0, 0] ![0, 3072] ![0, 0] x v pads_S32x1024_S32x4096_000_030720 h_S_ (ix2 b p)
      = if h : p.val < 1024 then x (ix2 b ⟨p.val, h⟩) else v ix0 := by
  unfold pad
  by_cases hp : p.val < 1024
  · rw [dif_pos hp, dif_pos (fun a => match a with
      | ⟨0, _⟩ => ⟨Nat.zero_le _, Nat.mod_one _, by show (b.val - 0) / (0 + 1) < 32; have := b.isLt; omega⟩
      | ⟨1, _⟩ => ⟨Nat.zero_le _, Nat.mod_one _, by show (p.val - 0) / (0 + 1) < 1024; omega⟩)]
    congr 1
    funext a
    match a with
    | ⟨0, _⟩ => exact Fin.ext (by show (b.val - 0) / (0 + 1) = b.val; omega)
    | ⟨1, _⟩ => exact Fin.ext (by show (p.val - 0) / (0 + 1) = p.val; omega)
  · rw [dif_neg hp, dif_neg (fun hin => hp (by
      have h1 := (hin ⟨1, by decide⟩).2.2
      change (p.val - 0) / (0 + 1) < 1024 at h1
      omega))]
    exact congrArg v (eq_ix0 _)

theorem ids_apply (text : IVec S32x1024 32) (seq : IVec S32 32) (b : Fin 32) (p : Fin 4096) :
    ids text seq (ix2 b p) = Cert.Spec.idsR text seq b p := by
  show Scalar.select (posLt seq (ix2 b p)) (pad _ _ _ _ _ _ _ _ (ix2 b p)) _ = _
  rw [posLt_apply, pad_apply]
  rfl

/-- A negated test for zero is set exactly at the nonzero words. -/
theorem not_eq_zero_iff (a : BitVec 32) : ~~~(IntOp.cmpi .eq a 0#32) = 1#1 ↔ a ≠ 0#32 := by
  by_cases h : a = 0#32
  · subst h; simp only [ne_eq, not_true_eq_false, iff_false]; decide
  · have hc : IntOp.cmpi .eq a 0#32 = 0#1 :=
      eq_zero_of_ne_one (fun e => h (Idealize.ShloMosaic.StableHlo.Predicate.cmpi_eq_iff.mp e))
    rw [hc]
    exact ⟨fun _ => h, fun _ => by decide⟩

theorem cnt_apply (text : IVec S32x1024 32) (seq : IVec S32 32) (b : Fin 32) :
    cnt text seq (ix1 b) = BitVec.ofNat 32 (Cert.Spec.LnatR text seq b) := by
  apply BitVec.eq_of_toNat_eq
  have hcount : (cnt text seq (ix1 b)).toNat = (Finset.univ.filter fun q : Fin 4096 =>
        noti (cmpi .eq (ids text seq) (broadcastInDim S32x4096 ![] bcast_S_S32x4096 (constantI S_ 32 0#32)))
          (Idealize.ShloMosaic.StableHlo.Predicate.ij b q) = 1#1).card :=
    Idealize.ShloMosaic.StableHlo.Predicate.toNat_reduce_count_cols (n := 32) (m := 4096) (by decide)
      (noti (cmpi .eq (ids text seq) (broadcastInDim S32x4096 ![] bcast_S_S32x4096 (constantI S_ 32 0#32))))
      natLt_1_32 reducesTo_S32x4096_S32_d1 h_S_ (ix1 b)
  have hset : (Finset.univ.filter fun q : Fin 4096 =>
        noti (cmpi .eq (ids text seq) (broadcastInDim S32x4096 ![] bcast_S_S32x4096 (constantI S_ 32 0#32)))
          (Idealize.ShloMosaic.StableHlo.Predicate.ij b q) = 1#1)
      = Finset.univ.filter fun q : Fin 4096 => Cert.Spec.idsR text seq b q ≠ 0#32 := by
    refine Finset.filter_congr fun q _ => ?_
    have hij : Idealize.ShloMosaic.StableHlo.Predicate.ij b q = ix2 b q := by
      funext a; match a with | ⟨0, _⟩ => rfl | ⟨1, _⟩ => rfl
    rw [hij]
    show ~~~(IntOp.cmpi .eq (ids text seq (ix2 b q)) 0#32) = 1#1 ↔ _
    rw [ids_apply]
    exact not_eq_zero_iff _
  have hle : (Finset.univ.filter fun q : Fin 4096 => Cert.Spec.idsR text seq b q ≠ 0#32).card ≤ 4096 := by
    simpa using Finset.card_le_univ (Finset.univ.filter fun q : Fin 4096 => Cert.Spec.idsR text seq b q ≠ 0#32)
  rw [hcount, hset, BitVec.toNat_ofNat]
  unfold Cert.Spec.LnatR
  omega

theorem wrapped_apply (text : IVec S32x1024 32) (seq : IVec S32 32) (b : Fin 32) (p : Fin 4096) :
    wrapped text seq (ix2 b p) = Cert.Spec.wrapNeg 2546#32 (Cert.Spec.idsR text seq b p) := by
  show Scalar.select (IntOp.cmpi .slt (ids text seq (ix2 b p)) 0#32) (IntOp.addi (ids text seq (ix2 b p)) 2546#32)
    (ids text seq (ix2 b p)) = _
  rw [ids_apply]
  rfl

/-- The table lookup at (b, p, d): the table's row at the start index of (b, p), read signed and clamped into the table,
    at column d. -/
theorem gather_rows (W : FVec Ideal S2546x512 .f32) (idx : IVec S32x4096x1 32) (b : Fin 32) (p : Fin 4096) (d : Fin 512) :
    Host.gather gather_S2546x512_S32x4096x1_S32x4096x512_2_0_n_n_0_2_1512 W idx (ix3 b p d)
      = W (ix2 ⟨Cert.Spec.gcl 2546 (idx (ix3 b p (0 : Fin 1))), Cert.Spec.gcl_lt 2546 (by decide) _⟩ d) := by
  unfold Host.gather
  congr 1
  funext a
  match a with
  | ⟨0, _⟩ =>
    refine Fin.ext ?_
    show gather_S2546x512_S32x4096x1_S32x4096x512_2_0_n_n_0_2_1512.start (ix3 b p d) idx 0
        + gather_S2546x512_S32x4096x1_S32x4096x512_2_0_n_n_0_2_1512.batchCoord (ix3 b p d) 0
        + gather_S2546x512_S32x4096x1_S32x4096x512_2_0_n_n_0_2_1512.offCoord (ix3 b p d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S2546x512_S32x4096x1_S32x4096x512_2_0_n_n_0_2_1512.startIndexMap from
      List.mem_singleton.mpr rfl)]
    have hsi : gather_S2546x512_S32x4096x1_S32x4096x512_2_0_n_n_0_2_1512.siIdx (ix3 b p d)
        ⟨List.idxOf (0 : Fin 2) gather_S2546x512_S32x4096x1_S32x4096x512_2_0_n_n_0_2_1512.startIndexMap,
          List.idxOf_lt_length_iff.2 (List.mem_singleton.mpr rfl)⟩ = ix3 b p (0 : Fin 1) := by
      funext c; refine Fin.ext ?_
      match c with
      | ⟨0, _⟩ => rfl
      | ⟨1, _⟩ => rfl
      | ⟨2, _⟩ => rfl
    rw [hsi]
    rfl
  | ⟨1, _⟩ =>
    refine Fin.ext ?_
    show gather_S2546x512_S32x4096x1_S32x4096x512_2_0_n_n_0_2_1512.start (ix3 b p d) idx 1
        + gather_S2546x512_S32x4096x1_S32x4096x512_2_0_n_n_0_2_1512.batchCoord (ix3 b p d) 1
        + gather_S2546x512_S32x4096x1_S32x4096x512_2_0_n_n_0_2_1512.offCoord (ix3 b p d) 1 = d.val
    have hs : gather_S2546x512_S32x4096x1_S32x4096x512_2_0_n_n_0_2_1512.start (ix3 b p d) idx 1 = 0 := by
      unfold GatherDims.start
      rw [dif_neg (show (1 : Fin 2) ∉ gather_S2546x512_S32x4096x1_S32x4096x512_2_0_n_n_0_2_1512.startIndexMap from by decide)]
    have ho : gather_S2546x512_S32x4096x1_S32x4096x512_2_0_n_n_0_2_1512.offCoord (ix3 b p d) 1 = d.val := by
      unfold GatherDims.offCoord
      rw [dif_pos (show (1 : Fin 2) ∈ gather_S2546x512_S32x4096x1_S32x4096x512_2_0_n_n_0_2_1512.sKept from by decide)]
      rfl
    rw [GatherDims.batchCoord_eq_zero _ _ _ List.not_mem_nil, hs, ho]
    omega

theorem emb_apply (text : IVec S32x1024 32) (seq : IVec S32 32) (W : FVec Ideal S2546x512 .f32) (b : Fin 32) (p : Fin 4096)
    (d : Fin 512) : emb text seq W (ix3 b p d) = Cert.Spec.embR text seq W b p d := by
  have hm : broadcastInDim S32x4096x512 ![0, 1, 2] bcast_S32x4096x1_S32x4096x512_0_1_2
      (broadcastInDim S32x4096x1 ![0, 1] bcast_S32x4096_S32x4096x1_0_1 (posLt seq)) (ix3 b p d) = posLt seq (ix2 b p) := by
    refine (broadcastInDim_apply (s := S32x4096x1) (t := S32x4096x512) ![0, 1, 2] bcast_S32x4096x1_S32x4096x512_0_1_2 _
      (ix3 b p d) (ix3 b p (0 : Fin 1)) (fun a => match a with | ⟨0, _⟩ => rfl | ⟨1, _⟩ => rfl | ⟨2, _⟩ => rfl)).trans ?_
    exact broadcastInDim_apply (s := S32x4096) (t := S32x4096x1) ![0, 1] bcast_S32x4096_S32x4096x1_0_1 _
      (ix3 b p (0 : Fin 1)) (ix2 b p) (fun a => match a with | ⟨0, _⟩ => rfl | ⟨1, _⟩ => rfl)
  have hi : broadcastInDim S32x4096x1 ![0, 1] bcast_S32x4096_S32x4096x1_0_1 (wrapped text seq) (ix3 b p (0 : Fin 1))
      = wrapped text seq (ix2 b p) :=
    broadcastInDim_apply (s := S32x4096) (t := S32x4096x1) ![0, 1] bcast_S32x4096_S32x4096x1_0_1 _
      (ix3 b p (0 : Fin 1)) (ix2 b p) (fun a => match a with | ⟨0, _⟩ => rfl | ⟨1, _⟩ => rfl)
  show Scalar.select
      (broadcastInDim S32x4096x512 ![0, 1, 2] bcast_S32x4096x1_S32x4096x512_0_1_2
        (broadcastInDim S32x4096x1 ![0, 1] bcast_S32x4096_S32x4096x1_0_1 (posLt seq)) (ix3 b p d))
      (Host.gather gather_S2546x512_S32x4096x1_S32x4096x512_2_0_n_n_0_2_1512 W
        (broadcastInDim S32x4096x1 ![0, 1] bcast_S32x4096_S32x4096x1_0_1 (wrapped text seq)) (ix3 b p d))
      (Ideal.ofBits .f32 0x00000000#32) = _
  rw [hm, gather_rows, hi, posLt_apply, wrapped_apply, Ideal.ofBits_zero_f32]
  rfl

/-! ## The run's buffers are those terms -/

variable (V : Valuation τ sig (Elt Ideal))

set_option maxRecDepth 8192 in
set_option maxHeartbeats 2000000 in
/-- After the first stretch the count's buffer holds the count of the arguments' contents. -/
theorem v23_ops0 : after (ops0 (F := Ideal)) V (main_v23 : DevRef τ sig)
    = cnt (V (main_arg0 : DevRef τ sig)) (V (main_arg1 : DevRef τ sig)) := by
  after_results_simp
  simp only [TRef.ofBuf, TRef.toBuf, cast_eq]
  rfl

set_option maxRecDepth 8192 in
set_option maxHeartbeats 2000000 in
/-- After the first stretch the embedded rows' buffer holds the masked lookup of the arguments' contents. -/
theorem v20_ops0 : after (ops0 (F := Ideal)) V (main_v20 : DevRef τ sig)
    = emb (V (main_arg0 : DevRef τ sig)) (V (main_arg1 : DevRef τ sig)) (V (main_arg2 : DevRef τ sig)) := by
  after_results_simp
  simp only [TRef.ofBuf, TRef.toBuf, cast_eq]
  rfl

set_option maxRecDepth 8192 in
set_option maxHeartbeats 2000000 in
theorem arg0_ops0 : after (ops0 (F := Ideal)) V (main_arg0 : DevRef τ sig) = V (main_arg0 : DevRef τ sig) := by
  after_results_simp

set_option maxRecDepth 8192 in
set_option maxHeartbeats 2000000 in
theorem arg1_ops0 : after (ops0 (F := Ideal)) V (main_arg1 : DevRef τ sig) = V (main_arg1 : DevRef τ sig) := by
  after_results_simp

set_option maxRecDepth 8192 in
set_option maxHeartbeats 2000000 in
theorem arg2_ops0 : after (ops0 (F := Ideal)) V (main_arg2 : DevRef τ sig) = V (main_arg2 : DevRef τ sig) := by
  after_results_simp

/-! The later stretches write none of these five buffers. -/

set_option maxRecDepth 16384 in
set_option maxHeartbeats 4000000 in
theorem v23_tail (X : Valuation τ sig (Elt Ideal)) :
    after (ops1 (F := Ideal) ++ (ops2 ++ (ops3 ++ ops4))) X (main_v23 : DevRef τ sig) = X (main_v23 : DevRef τ sig) := by
  simp only [StableHlo.after_append]
  after_results_simp

set_option maxRecDepth 16384 in
set_option maxHeartbeats 4000000 in
theorem v20_tail (X : Valuation τ sig (Elt Ideal)) :
    after (ops1 (F := Ideal) ++ (ops2 ++ (ops3 ++ ops4))) X (main_v20 : DevRef τ sig) = X (main_v20 : DevRef τ sig) := by
  simp only [StableHlo.after_append]
  after_results_simp

set_option maxRecDepth 16384 in
set_option maxHeartbeats 4000000 in
theorem arg0_tail (X : Valuation τ sig (Elt Ideal)) :
    after (ops1 (F := Ideal) ++ (ops2 ++ (ops3 ++ ops4))) X (main_arg0 : DevRef τ sig) = X (main_arg0 : DevRef τ sig) := by
  simp only [StableHlo.after_append]
  after_results_simp

set_option maxRecDepth 16384 in
set_option maxHeartbeats 4000000 in
theorem arg1_tail (X : Valuation τ sig (Elt Ideal)) :
    after (ops1 (F := Ideal) ++ (ops2 ++ (ops3 ++ ops4))) X (main_arg1 : DevRef τ sig) = X (main_arg1 : DevRef τ sig) := by
  simp only [StableHlo.after_append]
  after_results_simp

set_option maxRecDepth 16384 in
set_option maxHeartbeats 4000000 in
theorem arg2_tail (X : Valuation τ sig (Elt Ideal)) :
    after (ops1 (F := Ideal) ++ (ops2 ++ (ops3 ++ ops4))) X (main_arg2 : DevRef τ sig) = X (main_arg2 : DevRef τ sig) := by
  simp only [StableHlo.after_append]
  after_results_simp

/-! ## The statements -/

/-- The arguments are unchanged by the run. -/
theorem arg0_kept : after (ops (F := Ideal)) V (main_arg0 : DevRef τ sig) = V (main_arg0 : DevRef τ sig) := by
  show after (ops0 ++ (ops1 ++ (ops2 ++ (ops3 ++ ops4)))) V _ = _
  rw [StableHlo.after_append, arg0_tail, arg0_ops0]

theorem arg1_kept : after (ops (F := Ideal)) V (main_arg1 : DevRef τ sig) = V (main_arg1 : DevRef τ sig) := by
  show after (ops0 ++ (ops1 ++ (ops2 ++ (ops3 ++ ops4)))) V _ = _
  rw [StableHlo.after_append, arg1_tail, arg1_ops0]

theorem arg2_kept : after (ops (F := Ideal)) V (main_arg2 : DevRef τ sig) = V (main_arg2 : DevRef τ sig) := by
  show after (ops0 ++ (ops1 ++ (ops2 ++ (ops3 ++ ops4)))) V _ = _
  rw [StableHlo.after_append, arg2_tail, arg2_ops0]

/-- The reference's count buffer, at sample b, is the number of nonzero ids of the sample. -/
theorem ref_L (b : Fin 32) :
    (after (ops (F := Ideal)) V (main_v23 : DevRef τ sig) : S32.Idx → BitVec 32) (ix1 b)
      = BitVec.ofNat 32 (Cert.Spec.LnatR (V (main_arg0 : DevRef τ sig)) (V (main_arg1 : DevRef τ sig)) b) := by
  have h : after (ops (F := Ideal)) V (main_v23 : DevRef τ sig)
      = cnt (V (main_arg0 : DevRef τ sig)) (V (main_arg1 : DevRef τ sig)) := by
    show after (ops0 ++ (ops1 ++ (ops2 ++ (ops3 ++ ops4)))) V _ = _
    rw [StableHlo.after_append, v23_tail, v23_ops0]
  exact (congrFun h (ix1 b)).trans (cnt_apply _ _ b)

/-- The reference's embedded rows, at sample b, position p, feature d: the table's row at the wrapped id, zero from the
    target length on. -/
theorem ref_emb (b : Fin 32) (p : Fin 4096) (d : Fin 512) :
    (after (ops (F := Ideal)) V (main_v20 : DevRef τ sig) : S32x4096x512.Idx → EReal) (ix3 b p d)
      = Cert.Spec.embR (V (main_arg0 : DevRef τ sig)) (V (main_arg1 : DevRef τ sig)) (V (main_arg2 : DevRef τ sig)) b p d := by
  have h : after (ops (F := Ideal)) V (main_v20 : DevRef τ sig)
      = emb (V (main_arg0 : DevRef τ sig)) (V (main_arg1 : DevRef τ sig)) (V (main_arg2 : DevRef τ sig)) := by
    show after (ops0 ++ (ops1 ++ (ops2 ++ (ops3 ++ ops4)))) V _ = _
    rw [StableHlo.after_append, v20_tail, v20_ops0]
  exact (congrFun h (ix3 b p d)).trans (emb_apply _ _ _ b p d)

end Cert.RefValueA

end
-- ==== Proof.RefValueJ.lean ====
/-
  The reference program's index arithmetic, read at one element.

  After counting a sample's nonzero ids the reference computes, on vectors of one word per sample broadcast along the
  output rows, the length regulator's token index for every output row — the count floored at one, the floor quotient
  and the sign-following remainder of the target length by it, the split position, the two floor quotients of the
  position before and past the split, the choice between them —, clips it to [0, 4095], and forms the validity bit of
  the row (row below the target length, count positive, target length positive). All of this is written after the
  count, and reads of the earlier part only the count, the positions, the count floored at one and the target lengths.
  So the later stretches are read over ANY contents they start from in which the position buffer holds the positions
  and the floored count is the count floored at one: every operation is elementwise, a broadcast or an iota, and the
  buffer at an element is the specification's word of the count's word, the target length's word and the row. The
  count itself is never looked into. The first stretch supplies the two facts and keeps the target lengths; the later
  stretches do not write the count.
-/
import proofs.«412804_j35905926595499_2_alg».proof.Proof.RefOps
import proofs.«412804_j35905926595499_2_alg».proof.Proof.Spec
import Idealize.ShloMosaic.Lib.ValueIdx
import Idealize.ShloMosaic.Lib.Pipeline.Value
import Idealize.ShloMosaic.Lib.Pipeline.Frame

noncomputable section

namespace Cert.RefValueJ

open Cert.ReferenceIdeal Cert.ReferenceIdeal.Gen Cert.RefRun Idealize.ShloMosaic Idealize.ShloMosaic.ValueIdx Idealize.ShloMosaic.TcCoe
  Idealize.ShloMosaic.StableHlo

variable (V : Valuation τ sig (Elt Ideal))

/-! ## Elementwise operations read at an index (all by definition) -/

theorem addi_at {s : Shape} {w : Nat} (x y : IVec s w) (i : s.Idx) : addi x y i = IntOp.addi (x i) (y i) := rfl
theorem subi_at {s : Shape} {w : Nat} (x y : IVec s w) (i : s.Idx) : subi x y i = IntOp.subi (x i) (y i) := rfl
theorem muli_at {s : Shape} {w : Nat} (x y : IVec s w) (i : s.Idx) : muli x y i = IntOp.muli (x i) (y i) := rfl
theorem andi_at {s : Shape} {w : Nat} (x y : IVec s w) (i : s.Idx) : andi x y i = IntOp.andi (x i) (y i) := rfl
theorem maxsi_at {s : Shape} {w : Nat} (x y : IVec s w) (i : s.Idx) : maxsi x y i = IntOp.maxsi (x i) (y i) := rfl
theorem minsi_at {s : Shape} {w : Nat} (x y : IVec s w) (i : s.Idx) : minsi x y i = IntOp.minsi (x i) (y i) := rfl
theorem cmpi_at {s : Shape} {w : Nat} (p : CmpIPredicate) (x y : IVec s w) (i : s.Idx) :
    cmpi p x y i = IntOp.cmpi p (x i) (y i) := rfl
theorem hdivsi_at {s : Shape} {w : Nat} (x y : IVec s w) (i : s.Idx) : Host.divsi x y i = IntOp.divsi .host (x i) (y i) := rfl
theorem hremsi_at {s : Shape} {w : Nat} (x y : IVec s w) (i : s.Idx) : Host.remsi x y i = IntOp.remsi .host (x i) (y i) := rfl
theorem signi_at {s : Shape} (x : IVec s 32) (i : s.Idx) : signi x i = Cert.Spec.sgn (x i) := rfl
theorem constantI_at {s : Shape} {w : Nat} (v : BitVec w) (i : s.Idx) : constantI s w v i = v := rfl

/-! ## Broadcasts read at an index: the operand at the coordinates the broadcast keeps -/

/-- A scalar broadcast to any shape reads the scalar everywhere. -/
theorem bc_scalar {α : Type} {t : Shape} (h : (⟨0, ![]⟩ : Shape).BroadcastsInDim t ![])
    (v : (⟨0, ![]⟩ : Shape).Idx → α) (j : t.Idx) : broadcastInDim t ![] h v j = v ix0 :=
  broadcastInDim_apply _ h v j ix0 (fun a => a.elim0)

/-- A vector as a one-row rectangle reads, at (0, q), the vector at q. -/
theorem bc_row1 {α : Type} {k : Nat} (h : (⟨1, ![k]⟩ : Shape).BroadcastsInDim ⟨2, ![1, k]⟩ ![1])
    (v : (⟨1, ![k]⟩ : Shape).Idx → α) (z : Fin 1) (q : Fin k) :
    broadcastInDim ⟨2, ![1, k]⟩ ![1] h v (ix2 z q) = v (ix1 q) :=
  broadcastInDim_apply _ h v _ _ (fun a => by
    have ha : a = 0 := Subsingleton.elim _ _
    subst ha
    have hq := q.isLt
    show q.val = if k = 1 then 0 else q.val
    split <;> omega)

/-- A vector as a one-column rectangle reads, at (p, 0), the vector at p. -/
theorem bc_col1 {α : Type} {n : Nat} (h : (⟨1, ![n]⟩ : Shape).BroadcastsInDim ⟨2, ![n, 1]⟩ ![0])
    (v : (⟨1, ![n]⟩ : Shape).Idx → α) (p : Fin n) (z : Fin 1) :
    broadcastInDim ⟨2, ![n, 1]⟩ ![0] h v (ix2 p z) = v (ix1 p) :=
  broadcastInDim_apply _ h v _ _ (fun a => by
    have ha : a = 0 := Subsingleton.elim _ _
    subst ha
    have hp := p.isLt
    show p.val = if n = 1 then 0 else p.val
    split <;> omega)

/-- A one-row rectangle repeated down the rows reads, at (p, q), the row at (0, q). -/
theorem bc_of_row {α : Type} {n k : Nat} (h : (⟨2, ![1, k]⟩ : Shape).BroadcastsInDim ⟨2, ![n, k]⟩ ![0, 1])
    (v : (⟨2, ![1, k]⟩ : Shape).Idx → α) (p : Fin n) (q : Fin k) :
    broadcastInDim ⟨2, ![n, k]⟩ ![0, 1] h v (ix2 p q) = v (ix2 (0 : Fin 1) q) :=
  broadcastInDim_apply _ h v _ _ (fun a => by
    match a with
    | ⟨0, _⟩ => rfl
    | ⟨1, _⟩ =>
      have hq := q.isLt
      show q.val = if k = 1 then 0 else q.val
      split <;> omega)

/-- A one-column rectangle repeated along the columns reads, at (p, q), the column at (p, 0). -/
theorem bc_of_col {α : Type} {n k : Nat} (h : (⟨2, ![n, 1]⟩ : Shape).BroadcastsInDim ⟨2, ![n, k]⟩ ![0, 1])
    (v : (⟨2, ![n, 1]⟩ : Shape).Idx → α) (p : Fin n) (q : Fin k) :
    broadcastInDim ⟨2, ![n, k]⟩ ![0, 1] h v (ix2 p q) = v (ix2 p (0 : Fin 1)) :=
  broadcastInDim_apply _ h v _ _ (fun a => by
    match a with
    | ⟨0, _⟩ =>
      have hp := p.isLt
      show p.val = if n = 1 then 0 else p.val
      split <;> omega
    | ⟨1, _⟩ => rfl)

/-- The position along a vector's one axis. -/
theorem iota_at {n w : Nat} (p : Fin n) : iotaInDim (⟨1, ![n]⟩ : Shape) w 0 (ix1 p) = BitVec.ofNat w p.val := rfl

/-- A rectangle given a trailing unit axis reads, at (p, q, 0), the rectangle at (p, q). -/
theorem bc_unit3 {α : Type} {n k : Nat} (h : (⟨2, ![n, k]⟩ : Shape).BroadcastsInDim ⟨3, ![n, k, 1]⟩ ![0, 1])
    (v : (⟨2, ![n, k]⟩ : Shape).Idx → α) (p : Fin n) (q : Fin k) (z : Fin 1) :
    broadcastInDim ⟨3, ![n, k, 1]⟩ ![0, 1] h v (ix3 p q z) = v (ix2 p q) :=
  broadcastInDim_apply _ h v _ _ (fun a => by
    match a with
    | ⟨0, _⟩ =>
      have hp := p.isLt
      show p.val = if n = 1 then 0 else p.val
      split <;> omega
    | ⟨1, _⟩ =>
      have hq := q.isLt
      show q.val = if k = 1 then 0 else q.val
      split <;> omega)

/-- A vector given two trailing unit axes reads, at (p, 0, 0), the vector at p. -/
theorem bc_col11 {α : Type} {n : Nat} (h : (⟨1, ![n]⟩ : Shape).BroadcastsInDim ⟨3, ![n, 1, 1]⟩ ![0])
    (v : (⟨1, ![n]⟩ : Shape).Idx → α) (p : Fin n) (z z' : Fin 1) :
    broadcastInDim ⟨3, ![n, 1, 1]⟩ ![0] h v (ix3 p z z') = v (ix1 p) :=
  broadcastInDim_apply _ h v _ _ (fun a => by
    have ha : a = 0 := Subsingleton.elim _ _
    subst ha
    have hp := p.isLt
    show p.val = if n = 1 then 0 else p.val
    split <;> omega)

/-- An [n, 1, 1] array repeated along its middle axis reads, at (p, q, 0), the array at (p, 0, 0). -/
theorem bc_mid {α : Type} {n k : Nat} (h : (⟨3, ![n, 1, 1]⟩ : Shape).BroadcastsInDim ⟨3, ![n, k, 1]⟩ ![0, 1, 2])
    (v : (⟨3, ![n, 1, 1]⟩ : Shape).Idx → α) (p : Fin n) (q : Fin k) (z : Fin 1) :
    broadcastInDim ⟨3, ![n, k, 1]⟩ ![0, 1, 2] h v (ix3 p q z) = v (ix3 p (0 : Fin 1) (0 : Fin 1)) :=
  broadcastInDim_apply _ h v _ _ (fun a => by
    match a with
    | ⟨0, _⟩ =>
      have hp := p.isLt
      show p.val = if n = 1 then 0 else p.val
      split <;> omega
    | ⟨1, _⟩ => rfl
    | ⟨2, _⟩ => rfl)

/-! ## The same reads at the program's own shapes (each broadcast's axis map written over the literal ranks) -/

theorem bcS_S32_at {α : Type} (h : S_.BroadcastsInDim S32 (![] : Fin 0 → Fin 1)) (v : S_.Idx → α) (j : S32.Idx) :
    broadcastInDim S32 (![] : Fin 0 → Fin 1) h v j = v ix0 := bc_scalar h v j
theorem bcS_S32x4096_at {α : Type} (h : S_.BroadcastsInDim S32x4096 (![] : Fin 0 → Fin 2)) (v : S_.Idx → α) (j : S32x4096.Idx) :
    broadcastInDim S32x4096 (![] : Fin 0 → Fin 2) h v j = v ix0 := bc_scalar h v j
theorem bcRow4096_at {α : Type} (h : S4096.BroadcastsInDim S1x4096 (![1] : Fin 1 → Fin 2)) (v : S4096.Idx → α) (z : Fin 1) (q : Fin 4096) :
    broadcastInDim S1x4096 (![1] : Fin 1 → Fin 2) h v (ix2 z q) = v (ix1 q) := bc_row1 h v z q
theorem bcCol32_at {α : Type} (h : S32.BroadcastsInDim S32x1 (![0] : Fin 1 → Fin 2)) (v : S32.Idx → α) (p : Fin 32) (z : Fin 1) :
    broadcastInDim S32x1 (![0] : Fin 1 → Fin 2) h v (ix2 p z) = v (ix1 p) := bc_col1 h v p z
theorem bcRows4096_at {α : Type} (h : S1x4096.BroadcastsInDim S32x4096 (![0, 1] : Fin 2 → Fin 2)) (v : S1x4096.Idx → α) (p : Fin 32) (q : Fin 4096) :
    broadcastInDim S32x4096 (![0, 1] : Fin 2 → Fin 2) h v (ix2 p q) = v (ix2 (0 : Fin 1) q) := bc_of_row h v p q
theorem bcCols4096_at {α : Type} (h : S32x1.BroadcastsInDim S32x4096 (![0, 1] : Fin 2 → Fin 2)) (v : S32x1.Idx → α) (p : Fin 32) (q : Fin 4096) :
    broadcastInDim S32x4096 (![0, 1] : Fin 2 → Fin 2) h v (ix2 p q) = v (ix2 p (0 : Fin 1)) := bc_of_col h v p q
theorem bcUnit_at {α : Type} (h : S32x4096.BroadcastsInDim S32x4096x1 (![0, 1] : Fin 2 → Fin 3)) (v : S32x4096.Idx → α) (p : Fin 32) (q : Fin 4096) (z : Fin 1) :
    broadcastInDim S32x4096x1 (![0, 1] : Fin 2 → Fin 3) h v (ix3 p q z) = v (ix2 p q) := bc_unit3 h v p q z
theorem bcCol11_at {α : Type} (h : S32.BroadcastsInDim S32x1x1 (![0] : Fin 1 → Fin 3)) (v : S32.Idx → α) (p : Fin 32) (z z' : Fin 1) :
    broadcastInDim S32x1x1 (![0] : Fin 1 → Fin 3) h v (ix3 p z z') = v (ix1 p) := bc_col11 h v p z z'
theorem bcMid_at {α : Type} (h : S32x1x1.BroadcastsInDim S32x4096x1 (![0, 1, 2] : Fin 3 → Fin 3)) (v : S32x1x1.Idx → α) (p : Fin 32) (q : Fin 4096) (z : Fin 1) :
    broadcastInDim S32x4096x1 (![0, 1, 2] : Fin 3 → Fin 3) h v (ix3 p q z) = v (ix3 p (0 : Fin 1) (0 : Fin 1)) := bc_mid h v p q z

/-! ## The stretches after the first, over any contents they start from -/

set_option maxRecDepth 16384 in
set_option maxHeartbeats 4000000 in
/-- From contents whose position buffer holds the positions and whose floored count is the count floored at one, the
    later stretches leave the clipped regulator's index of the count and the target length. -/
theorem tail_jc (X : Valuation τ sig (Elt Ideal))
    (h24 : ∀ t : Fin 4096, (X (main_v24 : DevRef τ sig) : S4096.Idx → BitVec 32) (ix1 t) = BitVec.ofNat 32 t.val)
    (h26 : ∀ b : Fin 32, (X (main_v26 : DevRef τ sig) : S32.Idx → BitVec 32) (ix1 b)
      = IntOp.maxsi ((X (main_v23 : DevRef τ sig) : S32.Idx → BitVec 32) (ix1 b)) 1#32)
    (b : Fin 32) (t : Fin 4096) :
    (after (ops1 (F := Ideal) ++ (ops2 ++ (ops3 ++ ops4))) X (main_v52 : DevRef τ sig) : S32x4096.Idx → BitVec 32) (ix2 b t)
      = Cert.Spec.clip 0#32 4095#32 (Cert.Spec.jraw ((X (main_v23 : DevRef τ sig) : S32.Idx → BitVec 32) (ix1 b))
          ((X (main_arg1 : DevRef τ sig) : S32.Idx → BitVec 32) (ix1 b)) (BitVec.ofNat 32 t.val)) := by
  simp only [ops1, ops2, ops3, ops4, List.cons_append, List.nil_append]
  after_results_simp
  simp only [TRef.ofBuf, TRef.toBuf, cast_eq]
  simp only [select_apply, addi_at, subi_at, muli_at, andi_at, maxsi_at, minsi_at, cmpi_at, hdivsi_at, hremsi_at, signi_at, constantI_at, bcS_S32_at, bcS_S32x4096_at, bcRow4096_at, bcCol32_at, bcRows4096_at, bcCols4096_at, bcUnit_at, bcCol11_at, bcMid_at, id, h24, h26]
  rfl

set_option maxRecDepth 16384 in
set_option maxHeartbeats 4000000 in
/-- From the same contents the later stretches leave, at (b, t, 0), the validity bit of row t of sample b. -/
theorem tail_okb (X : Valuation τ sig (Elt Ideal))
    (h24 : ∀ t : Fin 4096, (X (main_v24 : DevRef τ sig) : S4096.Idx → BitVec 32) (ix1 t) = BitVec.ofNat 32 t.val)
    (b : Fin 32) (t : Fin 4096) :
    (after (ops1 (F := Ideal) ++ (ops2 ++ (ops3 ++ ops4))) X (main_v75 : DevRef τ sig) : S32x4096x1.Idx → BitVec 1)
        (ix3 b t (0 : Fin 1))
      = Cert.Spec.okw ((X (main_v23 : DevRef τ sig) : S32.Idx → BitVec 32) (ix1 b))
          ((X (main_arg1 : DevRef τ sig) : S32.Idx → BitVec 32) (ix1 b)) (BitVec.ofNat 32 t.val) := by
  simp only [ops1, ops2, ops3, ops4, List.cons_append, List.nil_append]
  after_results_simp
  simp only [select_apply, addi_at, subi_at, muli_at, andi_at, maxsi_at, minsi_at, cmpi_at, hdivsi_at, hremsi_at, signi_at, constantI_at, bcS_S32_at, bcS_S32x4096_at, bcRow4096_at, bcCol32_at, bcRows4096_at, bcCols4096_at, bcUnit_at, bcCol11_at, bcMid_at, id, h24]
  rfl

set_option maxRecDepth 16384 in
set_option maxHeartbeats 4000000 in
/-- The later stretches do not write the count's buffer. -/
theorem v23_tail (X : Valuation τ sig (Elt Ideal)) :
    after (ops1 (F := Ideal) ++ (ops2 ++ (ops3 ++ ops4))) X (main_v23 : DevRef τ sig) = X (main_v23 : DevRef τ sig) := by
  simp only [ops1, ops2, ops3, ops4, List.cons_append, List.nil_append]
  after_results_simp

/-! ## What the first stretch leaves for them -/

set_option maxRecDepth 8192 in
set_option maxHeartbeats 2000000 in
/-- The first stretch does not write the target lengths. -/
theorem arg1_ops0 : after (ops0 (F := Ideal)) V (main_arg1 : DevRef τ sig) = V (main_arg1 : DevRef τ sig) := by
  after_results_simp

set_option maxRecDepth 8192 in
set_option maxHeartbeats 2000000 in
/-- After the first stretch the position buffer holds each position's word. -/
theorem v24_ops0 (t : Fin 4096) :
    (after (ops0 (F := Ideal)) V (main_v24 : DevRef τ sig) : S4096.Idx → BitVec 32) (ix1 t) = BitVec.ofNat 32 t.val := by
  have e : after (ops0 (F := Ideal)) V (main_v24 : DevRef τ sig) = iotaInDim S4096 32 0 := by
    after_results_simp
  exact congrFun e (ix1 t)

set_option maxRecDepth 8192 in
set_option maxHeartbeats 2000000 in
/-- After the first stretch the floored count is the count floored at one, whatever the count is. -/
theorem v26_ops0 (b : Fin 32) :
    (after (ops0 (F := Ideal)) V (main_v26 : DevRef τ sig) : S32.Idx → BitVec 32) (ix1 b)
      = IntOp.maxsi ((after (ops0 (F := Ideal)) V (main_v23 : DevRef τ sig) : S32.Idx → BitVec 32) (ix1 b)) 1#32 := by
  have e : after (ops0 (F := Ideal)) V (main_v26 : DevRef τ sig)
      = maxsi (after (ops0 (F := Ideal)) V (main_v23 : DevRef τ sig))
          (broadcastInDim S32 (![] : Fin 0 → Fin 1) bcast_S_S32 (constantI S_ 32 1#32)) := by
    after_results_simp
  exact congrFun e (ix1 b)

/-! ## The statements -/

/-- The count buffer after the whole run is the count buffer after the first stretch. -/
theorem v23_ops : after (ops (F := Ideal)) V (main_v23 : DevRef τ sig) = after (ops0 (F := Ideal)) V (main_v23 : DevRef τ sig) := by
  show after (ops0 ++ (ops1 ++ (ops2 ++ (ops3 ++ ops4)))) V _ = _
  rw [StableHlo.after_append, v23_tail]

/-- The reference's clipped regulator index at row t of sample b, over its own token count and the target length. -/
theorem ref_jc (b : Fin 32) (t : Fin 4096) :
    (after (ops (F := Ideal)) V (main_v52 : DevRef τ sig) : S32x4096.Idx → BitVec 32) (ix2 b t)
      = Cert.Spec.clip 0#32 4095#32
          (Cert.Spec.jraw ((after (ops (F := Ideal)) V (main_v23 : DevRef τ sig) : S32.Idx → BitVec 32) (ix1 b))
            ((V (main_arg1 : DevRef τ sig) : S32.Idx → BitVec 32) (ix1 b)) (BitVec.ofNat 32 t.val)) := by
  have e52 : after (ops (F := Ideal)) V (main_v52 : DevRef τ sig)
      = after (ops1 (F := Ideal) ++ (ops2 ++ (ops3 ++ ops4))) (after (ops0 (F := Ideal)) V) (main_v52 : DevRef τ sig) := by
    show after (ops0 ++ (ops1 ++ (ops2 ++ (ops3 ++ ops4)))) V _ = _
    rw [StableHlo.after_append]
  refine (congrFun e52 (ix2 b t)).trans ((tail_jc (after (ops0 (F := Ideal)) V) (v24_ops0 V) (v26_ops0 V) b t).trans ?_)
  exact congrArg₂ (fun L A : BitVec 32 => Cert.Spec.clip 0#32 4095#32 (Cert.Spec.jraw L A (BitVec.ofNat 32 t.val)))
    (congrFun (v23_ops V).symm (ix1 b)) (congrFun (arg1_ops0 V) (ix1 b))

/-- The reference's validity bit at row t of sample b, over its own token count and the target length. -/
theorem ref_okb (b : Fin 32) (t : Fin 4096) :
    (after (ops (F := Ideal)) V (main_v75 : DevRef τ sig) : S32x4096x1.Idx → BitVec 1) (ix3 b t (0 : Fin 1))
      = Cert.Spec.okw ((after (ops (F := Ideal)) V (main_v23 : DevRef τ sig) : S32.Idx → BitVec 32) (ix1 b))
          ((V (main_arg1 : DevRef τ sig) : S32.Idx → BitVec 32) (ix1 b)) (BitVec.ofNat 32 t.val) := by
  have e75 : after (ops (F := Ideal)) V (main_v75 : DevRef τ sig)
      = after (ops1 (F := Ideal) ++ (ops2 ++ (ops3 ++ ops4))) (after (ops0 (F := Ideal)) V) (main_v75 : DevRef τ sig) := by
    show after (ops0 ++ (ops1 ++ (ops2 ++ (ops3 ++ ops4)))) V _ = _
    rw [StableHlo.after_append]
  refine (congrFun e75 (ix3 b t (0 : Fin 1))).trans ((tail_okb (after (ops0 (F := Ideal)) V) (v24_ops0 V) b t).trans ?_)
  exact congrArg₂ (fun L A : BitVec 32 => Cert.Spec.okw L A (BitVec.ofNat 32 t.val))
    (congrFun (v23_ops V).symm (ix1 b)) (congrFun (arg1_ops0 V) (ix1 b))

end Cert.RefValueJ

end
-- ==== Proof.RefValueB.lean ====
/-
  The reference's last steps, read one element at a time, at the ideal instance. Once the regulator's token index is
  clipped to [0, 4095] (the buffer Jc), the validity mask is formed (the buffer OK) and the first half has left the
  embedded rows (the buffer E), the program wraps a negative index by 4096, looks sample b's embedded row up at the wrapped
  index of (b, t) — the lookup reading its start index signed and clamped into the axis — and keeps it where the mask is
  set, putting zero elsewhere. The three buffers are taken as they are: nothing here opens them. First the batched lookup
  is read at an index; then the last operations are named as functions of the three buffers and read at an index; then the
  run's result buffer is shown to be that function of the run's three buffers.
-/
import proofs.«412804_j35905926595499_2_alg».proof.Proof.RefOps
import proofs.«412804_j35905926595499_2_alg».proof.Proof.Spec
import Idealize.ShloMosaic.Lib.ValueIdx
import Idealize.ShloMosaic.Lib.Pipeline.Frame
import Idealize.ShloMosaic.PureOps.Ideal.Laws

noncomputable section

namespace Cert.RefValueB

open Cert.ReferenceIdeal Cert.ReferenceIdeal.Gen Cert.RefRun Idealize.ShloMosaic Idealize.ShloMosaic.TcCoe
  Idealize.ShloMosaic.StableHlo Idealize.ShloMosaic.ValueIdx
open Cert.Spec (gcl gcl_lt wrapNeg)

/-! ## The batched lookup read at an index

The second lookup takes, for sample b and output row t, row `idx[b, t, 0]` of sample b's own embedded rows: the operand's
axis 0 is the batch axis (its coordinate the result's), its axis 1 is collapsed and carries the start index, read signed and
clamped into the axis, and its axis 2 is the offset axis (its coordinate the result's feature). -/

/-- The lookup's dimension numbers. -/
abbrev GD : GatherDims S32x4096x512 S32x4096x1 S32x4096x512 :=
  gather_S32x4096x512_S32x4096x1_S32x4096x512_2_1_0_0_1_2_11512

/-- The start-index array is read at (b, t, 0). -/
theorem GD_siIdx (b : Fin 32) (t : Fin 4096) (d : Fin 512) :
    GD.siIdx (ix3 b t d) ⟨0, by decide⟩ = ix3 b t (0 : Fin 1) := by
  funext a
  match a with
  | ⟨0, _⟩ => rfl
  | ⟨1, _⟩ => rfl
  | ⟨2, _⟩ => rfl

theorem gather_rows {α : Type} (E : S32x4096x512.Idx → α) (idx : IVec S32x4096x1 32) (b : Fin 32) (t : Fin 4096)
    (d : Fin 512) :
    Host.gather gather_S32x4096x512_S32x4096x1_S32x4096x512_2_1_0_0_1_2_11512 E idx (ix3 b t d)
      = E (ix3 b ⟨gcl 4096 (idx (ix3 b t (0 : Fin 1))), gcl_lt 4096 (by decide) _⟩ d) := by
  unfold Host.gather
  refine congrArg E (funext fun a => Fin.ext ?_)
  match a with
  | ⟨0, _⟩ =>
    -- the batch axis: no start, the result's batch coordinate, no offset
    show GD.start (ix3 b t d) idx 0 + GD.batchCoord (ix3 b t d) 0 + GD.offCoord (ix3 b t d) 0 = b.val
    rw [show GD.start (ix3 b t d) idx 0 = 0 from rfl, show GD.batchCoord (ix3 b t d) 0 = b.val from rfl,
      show GD.offCoord (ix3 b t d) 0 = 0 from rfl]
    simp only [Nat.zero_add, Nat.add_zero]
  | ⟨1, _⟩ =>
    -- the collapsed axis: the clamped start index alone
    show GD.start (ix3 b t d) idx 1 + GD.batchCoord (ix3 b t d) 1 + GD.offCoord (ix3 b t d) 1
      = gcl 4096 (idx (ix3 b t (0 : Fin 1)))
    rw [show GD.start (ix3 b t d) idx 1
        = min (idx (GD.siIdx (ix3 b t d) ⟨0, by decide⟩)).toInt.toNat (4096 - 1) from rfl,
      show GD.batchCoord (ix3 b t d) 1 = 0 from rfl, show GD.offCoord (ix3 b t d) 1 = 0 from rfl, GD_siIdx]
    simp only [Nat.add_zero]
    rfl
  | ⟨2, _⟩ =>
    -- the offset axis: the result's feature coordinate alone
    show GD.start (ix3 b t d) idx 2 + GD.batchCoord (ix3 b t d) 2 + GD.offCoord (ix3 b t d) 2 = d.val
    rw [show GD.start (ix3 b t d) idx 2 = 0 from rfl, show GD.batchCoord (ix3 b t d) 2 = 0 from rfl,
      show GD.offCoord (ix3 b t d) 2 = d.val from rfl]
    simp only [Nat.zero_add]

/-! ## The last operations as functions of the three buffers -/

section Last

/-- A (sample, position) array as a column of start indices: (b, t, 0) reads (b, t). -/
abbrev asCol {α : Type} (v : S32x4096.Idx → α) : S32x4096x1.Idx → α :=
  broadcastInDim S32x4096x1 ![0, 1] bcast_S32x4096_S32x4096x1_0_1 v
/-- A column laid along every feature: (b, t, d) reads (b, t, 0). -/
abbrev alongD {α : Type} (v : S32x4096x1.Idx → α) : S32x4096x512.Idx → α :=
  broadcastInDim S32x4096x512 ![0, 1, 2] bcast_S32x4096x1_S32x4096x512_0_1_2 v

theorem asCol_apply {α : Type} (v : S32x4096.Idx → α) (b : Fin 32) (t : Fin 4096) :
    asCol v (ix3 b t (0 : Fin 1)) = v (ix2 b t) :=
  congrArg v (funext fun a => match a with | ⟨0, _⟩ => rfl | ⟨1, _⟩ => rfl)
theorem alongD_apply {α : Type} (v : S32x4096x1.Idx → α) (b : Fin 32) (t : Fin 4096) (d : Fin 512) :
    alongD v (ix3 b t d) = v (ix3 b t (0 : Fin 1)) :=
  congrArg v (funext fun a => match a with | ⟨0, _⟩ => rfl | ⟨1, _⟩ => rfl | ⟨2, _⟩ => rfl)

/-- The word 0 on every (sample, position). -/
abbrev zero2 : IVec S32x4096 32 := broadcastInDim S32x4096 ![] bcast_S_S32x4096 (constantI S_ 32 0#32)

/-- An index with a negative one wrapped by the extent 4096. -/
def wrapJ (J : IVec S32x4096 32) : IVec S32x4096 32 :=
  select (cmpi .slt J zero2) (addi J (broadcastInDim S32x4096 ![] bcast_S_S32x4096 (constantI S_ 32 4096#32))) J

theorem wrapJ_apply (J : IVec S32x4096 32) (i : S32x4096.Idx) : wrapJ J i = wrapNeg 4096#32 (J i) := rfl

/-- The embedded rows picked at the wrapped indices. -/
def picked (E : FVec Ideal S32x4096x512 .f32) (J : IVec S32x4096 32) : FVec Ideal S32x4096x512 .f32 :=
  Host.gather gather_S32x4096x512_S32x4096x1_S32x4096x512_2_1_0_0_1_2_11512 E (asCol (wrapJ J))

theorem picked_apply (E : FVec Ideal S32x4096x512 .f32) (J : IVec S32x4096 32) (b : Fin 32) (t : Fin 4096) (d : Fin 512) :
    picked E J (ix3 b t d)
      = E (ix3 b ⟨gcl 4096 (wrapNeg 4096#32 (J (ix2 b t))), gcl_lt 4096 (by decide) _⟩ d) := by
  unfold picked
  rw [gather_rows]
  have h : asCol (wrapJ J) (ix3 b t (0 : Fin 1)) = wrapNeg 4096#32 (J (ix2 b t)) := by
    rw [asCol_apply, wrapJ_apply]
  exact congrArg (fun k : Fin 4096 => E (ix3 b k d)) (Fin.ext (congrArg (gcl 4096) h))

/-- The zero array the invalid rows take. -/
abbrev zero3 : FVec Ideal S32x4096x512 .f32 :=
  broadcastInDim S32x4096x512 ![1, 2] bcast_S4096x512_S32x4096x512_1_2
    (broadcastInDim S4096x512 ![] bcast_S_S4096x512 (constant (F := Ideal) S_ .f32 0x00000000#32))

/-- The result from the mask and the picked rows. -/
def masked (OK : IVec S32x4096x1 1) (R : FVec Ideal S32x4096x512 .f32) : FVec Ideal S32x4096x512 .f32 :=
  select (alongD OK) R zero3

theorem masked_apply (OK : IVec S32x4096x1 1) (R : FVec Ideal S32x4096x512 .f32) (b : Fin 32) (t : Fin 4096) (d : Fin 512) :
    masked OK R (ix3 b t d) = Scalar.select (OK (ix3 b t (0 : Fin 1))) (R (ix3 b t d)) (0 : EReal) := by
  show Scalar.select (alongD OK (ix3 b t d)) (R (ix3 b t d)) (Ideal.ofBits .f32 0x00000000#32) = _
  rw [alongD_apply, Ideal.ofBits_zero_f32]

end Last

/-! ## The run's result buffer is that function of the run's three buffers

The second window's operations after the clip are taken in two stretches: the wrap, the lookup and the mask's
formation; then the six operations that put zero where the mask is not set. -/

section Run

variable (Y : Valuation τ sig (Elt Ideal))

/-- The second window up to the clip: eleven operations. -/
abbrev opsClip : List (HloOp τ sig (Elt Ideal)) := List.take 11 ops4
/-- From the wrap to the mask: twenty-seven operations. -/
abbrev opsWrap : List (HloOp τ sig (Elt Ideal)) := List.take 27 (List.drop 11 ops4)
/-- The last six operations: the zero, laid out, and the choice by the mask. -/
abbrev opsMask : List (HloOp τ sig (Elt Ideal)) := List.drop 27 (List.drop 11 ops4)

theorem ops4_split : (ops4 : List (HloOp τ sig (Elt Ideal))) = opsClip ++ (opsWrap ++ opsMask) :=
  (List.take_append_drop 11 ops4).symm.trans
    (congrArg (fun l => List.take 11 ops4 ++ l) (List.take_append_drop 27 (List.drop 11 ops4)).symm)

set_option maxRecDepth 16384 in
set_option maxHeartbeats 4000000 in
/-- The picked rows, from the embedded rows and the clipped index. -/
theorem W_v59 : after opsWrap Y (main_v59 : DevRef τ sig)
    = picked (Y (main_v20 : DevRef τ sig)) (Y (main_v52 : DevRef τ sig)) := by
  simp only [opsWrap, ops4, List.drop_succ_cons, List.drop_zero, List.take_succ_cons, List.take_zero]
  after_results_simp
  rfl

set_option maxRecDepth 16384 in
set_option maxHeartbeats 4000000 in
theorem W_v52 : after opsWrap Y (main_v52 : DevRef τ sig)
    = Y (main_v52 : DevRef τ sig) := by
  simp only [opsWrap, ops4, List.drop_succ_cons, List.drop_zero, List.take_succ_cons, List.take_zero]
  after_results_simp

set_option maxRecDepth 16384 in
set_option maxHeartbeats 4000000 in
theorem W_v20 : after opsWrap Y (main_v20 : DevRef τ sig)
    = Y (main_v20 : DevRef τ sig) := by
  simp only [opsWrap, ops4, List.drop_succ_cons, List.drop_zero, List.take_succ_cons, List.take_zero]
  after_results_simp

set_option maxRecDepth 16384 in
set_option maxHeartbeats 4000000 in
/-- The result, from the mask and the picked rows. -/
theorem M_v76 : after opsMask Y (main_v76 : DevRef τ sig)
    = masked (Y (main_v75 : DevRef τ sig)) (Y (main_v59 : DevRef τ sig)) := by
  simp only [opsMask, ops4, List.drop_succ_cons, List.drop_zero, List.take_succ_cons, List.take_zero]
  after_results_simp
  simp only [TRef.ofBuf, TRef.toBuf, cast_eq]
  rfl

set_option maxRecDepth 16384 in
set_option maxHeartbeats 4000000 in
theorem M_v75 : after opsMask Y (main_v75 : DevRef τ sig)
    = Y (main_v75 : DevRef τ sig) := by
  simp only [opsMask, ops4, List.drop_succ_cons, List.drop_zero, List.take_succ_cons, List.take_zero]
  after_results_simp

set_option maxRecDepth 16384 in
set_option maxHeartbeats 4000000 in
theorem M_v52 : after opsMask Y (main_v52 : DevRef τ sig)
    = Y (main_v52 : DevRef τ sig) := by
  simp only [opsMask, ops4, List.drop_succ_cons, List.drop_zero, List.take_succ_cons, List.take_zero]
  after_results_simp

set_option maxRecDepth 16384 in
set_option maxHeartbeats 4000000 in
theorem M_v20 : after opsMask Y (main_v20 : DevRef τ sig)
    = Y (main_v20 : DevRef τ sig) := by
  simp only [opsMask, ops4, List.drop_succ_cons, List.drop_zero, List.take_succ_cons, List.take_zero]
  after_results_simp

end Run

/-! ## The statement -/

variable (V : Valuation τ sig (Elt Ideal))

/-- The run is the run of the last two stretches from what the earlier operations leave. -/
theorem after_ops_eq : after (ops (F := Ideal)) V
    = after opsMask (after opsWrap (after opsClip (after ops3 (after ops2 (after ops1 (after ops0 V)))))) := by
  show after (ops0 ++ (ops1 ++ (ops2 ++ (ops3 ++ ops4)))) V = _
  rw [StableHlo.after_append, StableHlo.after_append, StableHlo.after_append, StableHlo.after_append,
    ← StableHlo.after_append opsWrap opsMask, ← StableHlo.after_append opsClip (opsWrap ++ opsMask), ← ops4_split]

/-- The reference's result at sample b, output row t, feature d: the embedded row of sample b at the clipped index of
    (b, t), a negative one wrapped by 4096, the lookup reading it signed and clamped into the axis, where the validity mask
    is set at (b, t); zero elsewhere. -/
theorem ref_tail (b : Fin 32) (t : Fin 4096) (d : Fin 512) :
    (after (ops (F := Ideal)) V (main_v76 : DevRef τ sig) : S32x4096x512.Idx → EReal) (ix3 b t d)
      = Scalar.select ((after (ops (F := Ideal)) V (main_v75 : DevRef τ sig) : S32x4096x1.Idx → BitVec 1) (ix3 b t (0 : Fin 1)))
          ((after (ops (F := Ideal)) V (main_v20 : DevRef τ sig) : S32x4096x512.Idx → EReal)
            (ix3 b ⟨gcl 4096 (wrapNeg 4096#32
              ((after (ops (F := Ideal)) V (main_v52 : DevRef τ sig) : S32x4096.Idx → BitVec 32) (ix2 b t))),
              gcl_lt 4096 (by decide) _⟩ d))
          (0 : EReal) := by
  rw [after_ops_eq]
  generalize after opsClip (after ops3 (after ops2 (after ops1 (after ops0 V)))) = Y
  rw [M_v76, M_v75, M_v20, M_v52, W_v59, W_v20, W_v52]
  generalize after opsWrap Y (main_v75 : DevRef τ sig) = OK
  generalize Y (main_v20 : DevRef τ sig) = E
  generalize Y (main_v52 : DevRef τ sig) = J
  exact (masked_apply OK (picked E J) b t d).trans (by rw [picked_apply])

end Cert.RefValueB

end
-- ==== Proof.RefValue.lean ====
/-
  The reference's result element: its parts put together. The token counts and the embedded, masked rows (the first
  part) feed the regulator's integer arithmetic (the second), whose clipped index and validity mask the row lookup and
  the final select (the third) are applied to.
-/
import proofs.«412804_j35905926595499_2_alg».proof.Proof.RefValueA
import proofs.«412804_j35905926595499_2_alg».proof.Proof.RefValueJ
import proofs.«412804_j35905926595499_2_alg».proof.Proof.RefValueB
import proofs.«412804_j35905926595499_2_alg».proof.Proof.Spec

noncomputable section

namespace Cert.RefValue

open Cert.ReferenceIdeal Cert.ReferenceIdeal.Gen Cert.RefRun Idealize.ShloMosaic Idealize.ShloMosaic.ValueIdx
open Idealize.ShloMosaic.TcCoe Idealize.ShloMosaic.StableHlo

variable (V : Valuation τ sig (Elt Ideal))

theorem arg0_kept : after ops V (main_arg0 : DevRef τ sig) = V (main_arg0 : DevRef τ sig) := Cert.RefValueA.arg0_kept V
theorem arg1_kept : after ops V (main_arg1 : DevRef τ sig) = V (main_arg1 : DevRef τ sig) := Cert.RefValueA.arg1_kept V
theorem arg2_kept : after ops V (main_arg2 : DevRef τ sig) = V (main_arg2 : DevRef τ sig) := Cert.RefValueA.arg2_kept V

/-- The reference's result at sample b, output row t, feature d. -/
theorem ref_eq (b : Fin 32) (t : Fin 4096) (d : Fin 512) :
    (after ops V (main_v76 : DevRef τ sig) : S32x4096x512.Idx → EReal) (ix3 b t d)
      = Cert.Spec.Rc (V (main_arg0 : DevRef τ sig)) (V (main_arg1 : DevRef τ sig)) (V (main_arg2 : DevRef τ sig)) b t d := by
  rw [Cert.RefValueB.ref_tail V b t d, Cert.RefValueJ.ref_okb V b t, Cert.RefValueJ.ref_jc V b t,
    Cert.RefValueA.ref_L V b, Cert.RefValueA.ref_emb V]
  rfl

end Cert.RefValue

end
-- ==== Proof.Arith.lean ====
/-
  Arithmetic on 32-bit words for the length regulator: under the validity word, with the token count at most 1024, at
  most the target length, and the output position below 4096, the regulator's raw index is below the token count, so
  both clips leave it alone; and at most A positions below 1024 compare signed-below a positive word A.
-/
import proofs.«412804_j35905926595499_2_alg».proof.Proof.Spec

namespace Cert.Arith

open Idealize.ShloMosaic Cert.Spec

/-! ## Words read as numbers -/

private theorem ofBool_eq_one {b : Bool} : BitVec.ofBool b = 1#1 ↔ b = true := by cases b <;> decide

theorem cmpi_slt_iff (x y : BitVec 32) : IntOp.cmpi .slt x y = 1#1 ↔ x.toInt < y.toInt := by
  simp only [IntOp.cmpi, ofBool_eq_one, BitVec.slt_iff_toInt_lt]

theorem cmpi_sgt_iff (x y : BitVec 32) : IntOp.cmpi .sgt x y = 1#1 ↔ y.toInt < x.toInt := by
  simp only [IntOp.cmpi, ofBool_eq_one, BitVec.slt_iff_toInt_lt]

theorem cmpi_ne_iff {w : Nat} (x y : BitVec w) : IntOp.cmpi .ne x y = 1#1 ↔ x ≠ y := by
  simp only [IntOp.cmpi, ofBool_eq_one, bne_iff_ne, ne_eq]

theorem cmpi_eq_iff {w : Nat} (x y : BitVec w) : IntOp.cmpi .eq x y = 1#1 ↔ x = y := by
  simp only [IntOp.cmpi, ofBool_eq_one, beq_iff_eq]

theorem andi_eq_one (c d : BitVec 1) : IntOp.andi c d = 1#1 ↔ c = 1#1 ∧ d = 1#1 := by revert c d; decide

theorem bit_eq_of_ne_one (c d : BitVec 1) (hc : c ≠ 1#1) (hd : d ≠ 1#1) : c = d := by revert c d; decide

theorem select_neg {α : Type} (c : BitVec 1) (a b : α) (h : c ≠ 1#1) : Scalar.select c a b = b := if_neg h

theorem select_pos {α : Type} (c : BitVec 1) (a b : α) (h : c = 1#1) : Scalar.select c a b = a := if_pos h

/-- A word below 2³¹ reads the same signed and unsigned. -/
theorem toInt_small {x : BitVec 32} (h : x.toNat < 2 ^ 31) : x.toInt = x.toNat :=
  BitVec.toInt_eq_toNat_of_lt (by omega)

theorem msb_small {x : BitVec 32} (h : x.toNat < 2 ^ 31) : x.msb = false := by
  rw [BitVec.msb_eq_false_iff_two_mul_lt]; omega

/-- A signed-positive word is below 2³¹ and not zero. -/
theorem small_of_pos {x : BitVec 32} (h : 0 < x.toInt) : 0 < x.toNat ∧ x.toNat < 2 ^ 31 := by
  have hc := BitVec.toInt_eq_toNat_cond x
  have hl := x.isLt
  split at hc <;> omega

theorem not_corner {x y : BitVec 32} (hy0 : 0 < y.toNat) (hy : y.toNat < 2 ^ 31) : ¬IntOp.SDivCorner x y := by
  rintro (h | ⟨-, h⟩) <;> subst h
  · simp at hy0
  · revert hy; decide

theorem toNat_divsi {x y : BitVec 32} (hx : x.toNat < 2 ^ 31) (hy0 : 0 < y.toNat) (hy : y.toNat < 2 ^ 31) :
    (IntOp.divsi .host x y).toNat = x.toNat / y.toNat := by
  unfold IntOp.divsi
  rw [if_neg (not_corner hy0 hy), BitVec.sdiv_eq, msb_small hx, msb_small hy]
  show (x / y).toNat = _
  rw [BitVec.toNat_udiv]

theorem toNat_remsi {x y : BitVec 32} (hx : x.toNat < 2 ^ 31) (hy0 : 0 < y.toNat) (hy : y.toNat < 2 ^ 31) :
    (IntOp.remsi .host x y).toNat = x.toNat % y.toNat := by
  unfold IntOp.remsi
  rw [if_neg (not_corner hy0 hy), BitVec.srem_eq, msb_small hx, msb_small hy]
  show (x % y).toNat = _
  rw [BitVec.toNat_umod]

/-! ## The sign word, floor division and the divisor-signed remainder on nonnegative operands -/

theorem sgn_pos {x : BitVec 32} (h0 : 0 < x.toNat) (h : x.toNat < 2 ^ 31) : sgn x = 1 := by
  unfold sgn
  have hne : x ≠ 0 := by
    intro he; subst he; simp at h0
  rw [if_neg hne, msb_small h]; rfl

theorem eq_zero_of_toNat {x : BitVec 32} (h : x.toNat = 0) : x = 0#32 := by
  apply BitVec.eq_of_toNat_eq; simpa using h

/-- Floor division of a nonnegative word by a positive one is the quotient of the numbers. -/
theorem toNat_fdiv {x y : BitVec 32} (hx : x.toNat < 2 ^ 31) (hy0 : 0 < y.toNat) (hy : y.toNat < 2 ^ 31) :
    (fdiv x y).toNat = x.toNat / y.toNat := by
  unfold fdiv
  rw [select_neg, toNat_divsi hx hy0 hy]
  rw [Ne, andi_eq_one, cmpi_ne_iff, cmpi_ne_iff]
  rintro ⟨hs, hr⟩
  rw [sgn_pos hy0 hy] at hs
  by_cases hx0 : 0 < x.toNat
  · exact hs (sgn_pos hx0 hx)
  · apply hr
    apply eq_zero_of_toNat
    rw [toNat_remsi hx hy0 hy]
    have : x.toNat = 0 := by omega
    rw [this, Nat.zero_mod]

/-- The divisor-signed remainder of a nonnegative word by a positive one is the remainder of the numbers. -/
theorem toNat_frem {x y : BitVec 32} (hx : x.toNat < 2 ^ 31) (hy0 : 0 < y.toNat) (hy : y.toNat < 2 ^ 31) :
    (frem x y).toNat = x.toNat % y.toNat := by
  unfold frem
  have hy' : Scalar.select (IntOp.cmpi .eq y 0#32) 1#32 y = y := by
    apply select_neg
    rw [Ne, cmpi_eq_iff]
    intro he; subst he; simp at hy0
  simp only [hy']
  have hr := toNat_remsi hx hy0 hy
  have hrlt : (IntOp.remsi .host x y).toNat < 2 ^ 31 := by
    rw [hr]; exact lt_trans (Nat.mod_lt _ hy0) hy
  rw [select_neg, hr]
  rw [Ne, andi_eq_one, cmpi_ne_iff]
  rintro ⟨hs, -⟩
  apply hs
  apply bit_eq_of_ne_one
  · rw [Ne, cmpi_slt_iff, toInt_small hrlt]; simp
  · rw [Ne, cmpi_slt_iff, toInt_small hy]; simp

/-! ## The regulator on numbers

With a = l · b + r and r < l: the first l - r tokens take b positions each, which is at most a; a position before that
split reads a token below l - r; a later position below a reads one of the last r tokens. -/

theorem split_add (l a b r : ℕ) (hda : l * b + r = a) (hr : r < l) : (l - r) * b + r * (b + 1) = a := by
  obtain ⟨k, rfl⟩ : ∃ k, l = r + k := ⟨l - r, by omega⟩
  rw [Nat.add_sub_cancel_left, ← hda]; ring

theorem split_le (l a b r : ℕ) (hda : l * b + r = a) (hr : r < l) : (l - r) * b ≤ a := by
  have := split_add l a b r hda hr; omega

theorem early_lt (l b r t : ℕ) (hb : 0 < b) (h : t < (l - r) * b) : t / b < l - r := by
  rw [Nat.div_lt_iff_lt_mul hb]; exact h

theorem late_lt (l a b r t : ℕ) (hda : l * b + r = a) (hr : r < l) (hta : t < a) (h : (l - r) * b ≤ t) :
    (t - (l - r) * b) / (b + 1) < r := by
  rw [Nat.div_lt_iff_lt_mul (show 0 < b + 1 by omega)]
  have := split_add l a b r hda hr; omega

/-! ## The regulator on words -/

theorem maxsi_one {x : BitVec 32} (h0 : 0 < x.toNat) (h : x.toNat < 2 ^ 31) : IntOp.maxsi x 1#32 = x := by
  unfold IntOp.maxsi
  split
  · rfl
  · rename_i hn
    rw [BitVec.slt_iff_toInt_lt, toInt_small h, toInt_small (by decide)] at hn
    apply BitVec.eq_of_toNat_eq
    have : (1#32 : BitVec 32).toNat = 1 := rfl
    rw [this] at hn ⊢
    omega

theorem toNat_subi {x y : BitVec 32} (h : y.toNat ≤ x.toNat) : (IntOp.subi x y).toNat = x.toNat - y.toNat :=
  BitVec.toNat_sub_of_le (BitVec.le_def.mpr h)

theorem slt_iff_small {x y : BitVec 32} (hx : x.toNat < 2 ^ 31) (hy : y.toNat < 2 ^ 31) :
    IntOp.cmpi .slt x y = 1#1 ↔ x.toNat < y.toNat := by
  rw [cmpi_slt_iff, toInt_small hx, toInt_small hy]; exact Int.ofNat_lt

theorem jraw_toNat_lt {L A t : BitVec 32} (hl0 : 0 < L.toNat) (hl : L.toNat ≤ 1024) (ha : A.toNat < 2 ^ 31)
    (hla : L.toNat ≤ A.toNat) (ht : t.toNat < 4096) (hta : t.toNat < A.toNat) :
    (jraw L A t).toNat < L.toNat := by
  have hL31 : L.toNat < 2 ^ 31 := by omega
  have ht31 : t.toNat < 2 ^ 31 := by omega
  unfold jraw
  simp only [maxsi_one hl0 hL31]
  have hb := toNat_fdiv ha hl0 hL31
  have hr := toNat_frem ha hl0 hL31
  have hda : L.toNat * (fdiv A L).toNat + (frem A L).toNat = A.toNat := by
    rw [hb, hr]; exact Nat.div_add_mod _ _
  have hrl : (frem A L).toNat < L.toNat := by rw [hr]; exact Nat.mod_lt _ hl0
  have hbpos : 0 < (fdiv A L).toNat := by rw [hb]; exact Nat.div_pos hla hl0
  have hb31 : (fdiv A L).toNat < 2 ^ 31 := by rw [hb]; exact lt_of_le_of_lt (Nat.div_le_self _ _) ha
  clear hb hr
  generalize fdiv A L = b at *
  generalize frem A L = r at *
  have hsub : (IntOp.subi L r).toNat = L.toNat - r.toNat := toNat_subi hrl.le
  have hsle : (L.toNat - r.toNat) * b.toNat ≤ A.toNat := split_le _ _ _ _ hda hrl
  have hsplit : (IntOp.muli (IntOp.subi L r) b).toNat = (L.toNat - r.toNat) * b.toNat := by
    show (IntOp.subi L r * b).toNat = _
    rw [BitVec.toNat_mul, hsub, Nat.mod_eq_of_lt (by omega)]
  generalize IntOp.muli (IntOp.subi L r) b = s at *
  have hs31 : s.toNat < 2 ^ 31 := by omega
  by_cases hc : IntOp.cmpi .slt t s = 1#1
  · rw [select_pos _ _ _ hc, maxsi_one hbpos hb31, toNat_fdiv ht31 hbpos hb31]
    rw [slt_iff_small ht31 hs31, hsplit] at hc
    have := early_lt _ _ _ _ hbpos hc
    omega
  · rw [select_neg _ _ _ hc]
    rw [slt_iff_small ht31 hs31] at hc
    have hts : s.toNat ≤ t.toNat := by omega
    have hbs : b.toNat ≤ s.toNat := by
      rw [hsplit]; exact Nat.le_mul_of_pos_left _ (by omega)
    have hb1 : (IntOp.addi b 1#32).toNat = b.toNat + 1 := by
      show (b + 1#32).toNat = _
      rw [BitVec.toNat_add, show (1#32 : BitVec 32).toNat = 1 from rfl, Nat.mod_eq_of_lt (by omega)]
    have hd : (IntOp.subi t s).toNat = t.toNat - s.toNat := toNat_subi hts
    have hq := toNat_fdiv (x := IntOp.subi t s) (y := IntOp.addi b 1#32) (by omega) (by omega) (by omega)
    rw [hb1, hd] at hq
    have hql : (fdiv (IntOp.subi t s) (IntOp.addi b 1#32)).toNat < r.toNat := by
      rw [hq, hsplit]; exact late_lt _ _ _ _ _ hda hrl hta (by rw [← hsplit]; exact hts)
    generalize fdiv (IntOp.subi t s) (IntOp.addi b 1#32) = q at *
    show (IntOp.subi L r + q).toNat < _
    rw [BitVec.toNat_add, hsub, Nat.mod_eq_of_lt (by omega)]
    omega

/-! ## The stated facts -/

/-- The validity word read back: t < A, L > 0 and A > 0, all signed. -/
theorem okw_facts (L A t : BitVec 32) (hok : okw L A t = 1#1) : t.toInt < A.toInt ∧ 0 < L.toInt ∧ 0 < A.toInt := by
  unfold okw at hok
  rw [andi_eq_one, andi_eq_one, cmpi_slt_iff, cmpi_sgt_iff, cmpi_sgt_iff] at hok
  have e0 : (0#32 : BitVec 32).toInt = 0 := by decide
  rw [e0] at hok
  exact ⟨hok.1.1, hok.1.2, hok.2⟩

/-- The hypotheses of the regulator's bound, as facts about numbers. -/
theorem nat_facts (L A t : BitVec 32) (hok : okw L A t = 1#1) (hL : L.toNat ≤ 1024) (hLA : L.toInt ≤ A.toInt)
    (ht : t.toNat < 4096) :
    0 < L.toNat ∧ A.toNat < 2 ^ 31 ∧ L.toNat ≤ A.toNat ∧ t.toNat < A.toNat := by
  obtain ⟨htA, hL0, hA0⟩ := okw_facts L A t hok
  obtain ⟨hA1, hA2⟩ := small_of_pos hA0
  obtain ⟨hL1, hL2⟩ := small_of_pos hL0
  rw [toInt_small hL2, toInt_small hA2] at hLA
  rw [toInt_small (show t.toNat < 2 ^ 31 by omega), toInt_small hA2] at htA
  refine ⟨hL1, hA2, ?_, ?_⟩ <;> omega

theorem jraw_lt (L A t : BitVec 32) (hok : okw L A t = 1#1) (hL : L.toNat ≤ 1024) (hLA : L.toInt ≤ A.toInt)
    (ht : t.toNat < 4096) : (jraw L A t).toNat < L.toNat := by
  obtain ⟨h1, h2, h3, h4⟩ := nat_facts L A t hok hL hLA ht
  exact jraw_toNat_lt h1 hL h2 h3 ht h4

/-- A clip to [0, hi] leaves a word at most hi < 2³¹ alone. -/
theorem clip_id {x : BitVec 32} (hi : ℕ) (hhi : hi < 2 ^ 31) (hx : x.toNat ≤ hi) :
    clip 0#32 (BitVec.ofNat 32 hi) x = x := by
  have hx31 : x.toNat < 2 ^ 31 := by omega
  have hhiN : (BitVec.ofNat 32 hi).toNat = hi := by rw [BitVec.toNat_ofNat]; omega
  unfold clip
  have hmax : IntOp.maxsi 0#32 x = x := by
    unfold IntOp.maxsi
    rw [if_neg]
    rw [BitVec.slt_iff_toInt_lt, toInt_small hx31, show (0#32 : BitVec 32).toInt = 0 by decide]
    omega
  rw [hmax]
  unfold IntOp.minsi
  rw [if_neg]
  rw [BitVec.slt_iff_toInt_lt, toInt_small hx31, toInt_small (by rw [hhiN]; exact hhi), hhiN]
  omega

theorem clip1023_jraw (L A t : BitVec 32) (hok : okw L A t = 1#1) (hL : L.toNat ≤ 1024) (hLA : L.toInt ≤ A.toInt)
    (ht : t.toNat < 4096) : clip 0#32 1023#32 (jraw L A t) = jraw L A t := by
  have h := jraw_lt L A t hok hL hLA ht
  exact clip_id 1023 (by decide) (by omega)

theorem clip4095_jraw (L A t : BitVec 32) (hok : okw L A t = 1#1) (hL : L.toNat ≤ 1024) (hLA : L.toInt ≤ A.toInt)
    (ht : t.toNat < 4096) : clip 0#32 4095#32 (jraw L A t) = jraw L A t := by
  have h := jraw_lt L A t hok hL hLA ht
  exact clip_id 4095 (by decide) (by omega)

/-- At most A of the positions below 1024 compare signed-below a positive word A. -/
theorem count_slt_le (A : BitVec 32) (hA : 0 < A.toInt) :
    (Finset.univ.filter fun p : Fin 1024 => IntOp.cmpi .slt (BitVec.ofNat 32 p.val) A = 1#1).card ≤ A.toInt.toNat := by
  obtain ⟨-, hA2⟩ := small_of_pos hA
  rw [toInt_small hA2, Int.toNat_natCast]
  calc (Finset.univ.filter fun p : Fin 1024 => IntOp.cmpi .slt (BitVec.ofNat 32 p.val) A = 1#1).card
      ≤ (Finset.range A.toNat).card := by
        apply Finset.card_le_card_of_injOn (fun p => p.val)
        · intro p hp
          rw [Finset.mem_coe, Finset.mem_filter] at hp
          have hpN : (BitVec.ofNat 32 p.val).toNat = p.val := by
            rw [BitVec.toNat_ofNat]; have := p.isLt; omega
          have hp31 : (BitVec.ofNat 32 p.val).toNat < 2 ^ 31 := by rw [hpN]; have := p.isLt; omega
          have := (slt_iff_small hp31 hA2).mp hp.2
          rw [hpN] at this
          rw [Finset.mem_coe, Finset.mem_range]; exact this
        · intro p _ q _ h
          exact Fin.ext h
    _ = A.toNat := Finset.card_range _

end Cert.Arith
-- ==== Proof.Bridge.lean ====
/-
  The two element functions agree on the token domain.

  The reference's result element Rc and the kernel's Gc are spelled with the same regulator words; what remains is
  (1) the two token counts agree when every token word is -1 or a vocabulary id: an id (token + 1) is nonzero exactly
  when the token is ≥ 0, and the reference's positions from 1024 on hold id 0; (2) on a valid row the regulator's index
  j lies below the count L ≤ min(1024, A), so neither clip moves it, the wrap and the clamp of the row lookup leave it
  alone, row j is below the target length (its mask is on), its id is token j + 1 in [0, 2545], which the table lookup's
  wrap and clamp leave alone too; (3) on an invalid row both are zero: the kernel's index word is -1, no token.
-/
import proofs.«412804_j35905926595499_2_alg».proof.Proof.Spec
import proofs.«412804_j35905926595499_2_alg».proof.Proof.Arith
import Mathlib.Data.Fintype.Card
import Mathlib.Data.Finset.Card

noncomputable section

namespace Cert.Bridge

open Idealize.ShloMosaic Idealize.ShloMosaic.ValueIdx Cert.Spec

/-! ## Words -/

theorem cmpi_slt_one (x y : BitVec 32) : IntOp.cmpi .slt x y = 1#1 ↔ x.toInt < y.toInt := by
  unfold IntOp.cmpi
  by_cases h : x.toInt < y.toInt <;> simp [BitVec.slt, BitVec.ofBool, h]

theorem cmpi_sge_one (x y : BitVec 32) : IntOp.cmpi .sge x y = 1#1 ↔ y.toInt ≤ x.toInt := by
  unfold IntOp.cmpi
  by_cases h : y.toInt ≤ x.toInt <;> simp [BitVec.sle, BitVec.ofBool, h]

theorem andi_one (x y : BitVec 1) : IntOp.andi x y = 1#1 ↔ x = 1#1 ∧ y = 1#1 := by
  unfold IntOp.andi
  revert x y; decide

theorem select_one' {α : Type} (c : BitVec 1) (a b : α) (h : c = 1#1) : Scalar.select c a b = a := by
  unfold Scalar.select; exact if_pos h

theorem select_ne' {α : Type} (c : BitVec 1) (a b : α) (h : ¬c = 1#1) : Scalar.select c a b = b := by
  unfold Scalar.select; exact if_neg h

theorem toNat_ofNat_lt (n : ℕ) (h : n < 4294967296) : (BitVec.ofNat 32 n).toNat = n := by
  simp [BitVec.toNat_ofNat]; omega

theorem toInt_ofNat_small (n : ℕ) (h : n < 2147483648) : (BitVec.ofNat 32 n).toInt = (n : Int) := by
  rw [BitVec.toInt_eq_toNat_cond, toNat_ofNat_lt n (by omega)]
  split <;> omega

/-- A word whose natural value is small is its own signed value. -/
theorem toInt_of_toNat_lt (x : BitVec 32) (h : x.toNat < 2147483648) : x.toInt = (x.toNat : Int) := by
  rw [BitVec.toInt_eq_toNat_cond]; split <;> omega

/-- A nonnegative word is left alone by the negative-index wrap. -/
theorem wrapNeg_of_nonneg (N x : BitVec 32) (h : 0 ≤ x.toInt) : wrapNeg N x = x := by
  unfold wrapNeg
  exact select_ne' _ _ _ (fun hc => by
    have := (cmpi_slt_one x 0#32).mp hc
    simp at this; omega)

/-- A word in [0, N) is left alone by the lookup's clamp. -/
theorem gcl_of_lt (N : ℕ) (x : BitVec 32) (h0 : 0 ≤ x.toInt) (h : x.toInt < N) : gcl N x = x.toInt.toNat := by
  unfold gcl; omega

/-- On the domain, token + 1 is not zero exactly when the token is not the pad. -/
theorem add_one_ne_zero_iff (x : BitVec 32) (h : -1 ≤ x.toInt) : IntOp.addi x 1#32 ≠ 0#32 ↔ 0 ≤ x.toInt := by
  have hc := BitVec.toInt_eq_toNat_cond x
  have hl := x.isLt
  rw [Ne, ← BitVec.toNat_inj]
  show ¬(x + 1#32).toNat = (0#32 : BitVec 32).toNat ↔ _
  rw [BitVec.toNat_add, show (1#32 : BitVec 32).toNat = 1 from rfl, show (0#32 : BitVec 32).toNat = 0 from rfl]
  split at hc <;> omega

/-- On the domain, token + 1 does not wrap. -/
theorem toInt_add_one (x : BitVec 32) (h1 : -1 ≤ x.toInt) (h2 : x.toInt ≤ 2544) :
    (IntOp.addi x 1#32).toInt = x.toInt + 1 := by
  have hc := BitVec.toInt_eq_toNat_cond x
  have hl := x.isLt
  have hs : (IntOp.addi x 1#32).toNat = (x.toNat + 1) % 2 ^ 32 := by
    show (x + 1#32).toNat = _
    rw [BitVec.toNat_add]; rfl
  have hc' := BitVec.toInt_eq_toNat_cond (IntOp.addi x 1#32)
  rw [hs] at hc'
  split at hc <;> split at hc' <;> omega

/-! ## The two token counts -/

/-- The reference's id at a position is nonzero exactly at a real token below 1024 and below the target length. -/
theorem idsR_ne_zero_iff (text : IVec S32x1024 32) (seq : IVec S32 32) (hpre : TextInRange text) (b : Fin 32)
    (q : Fin 4096) :
    idsR text seq b q ≠ 0#32 ↔ ∃ h : q.val < 1024,
      IntOp.andi (IntOp.cmpi .sge (text (ix2 b ⟨q.val, h⟩)) 0#32)
        (IntOp.cmpi .slt (BitVec.ofNat 32 q.val) (seq (ix1 b))) = 1#1 := by
  unfold idsR
  by_cases hm : IntOp.cmpi .slt (BitVec.ofNat 32 q.val) (seq (ix1 b)) = 1#1
  · rw [select_one' _ _ _ hm]
    by_cases h : q.val < 1024
    · rw [dif_pos h, add_one_ne_zero_iff _ (hpre b ⟨q.val, h⟩).1]
      constructor
      · intro h0
        exact ⟨h, (andi_one _ _).mpr ⟨(cmpi_sge_one _ _).mpr (by simpa using h0), hm⟩⟩
      · rintro ⟨_, hh⟩
        have := (cmpi_sge_one _ _).mp ((andi_one _ _).mp hh).1
        simpa using this
    · rw [dif_neg h]
      constructor
      · intro h0; exact absurd rfl h0
      · rintro ⟨h', -⟩; exact absurd h' h
  · rw [select_ne' _ _ _ hm]
    constructor
    · intro h0; exact absurd rfl h0
    · rintro ⟨_, hh⟩; exact absurd ((andi_one _ _).mp hh).2 hm

theorem LnatR_eq (text : IVec S32x1024 32) (seq : IVec S32 32) (hpre : TextInRange text) (b : Fin 32) :
    LnatR text seq b = Lnat text seq b := by
  unfold LnatR Lnat
  symm
  apply Finset.card_bij (fun (p : Fin 1024) _ => Fin.castLE (by decide : 1024 ≤ 4096) p)
  · intro p hp
    rw [Finset.mem_filter] at hp ⊢
    refine ⟨Finset.mem_univ _, ?_⟩
    rw [idsR_ne_zero_iff text seq hpre b]
    exact ⟨p.isLt, hp.2⟩
  · intro p _ q _ h
    exact Fin.castLE_injective _ h
  · intro q hq
    rw [Finset.mem_filter, idsR_ne_zero_iff text seq hpre b] at hq
    obtain ⟨h, hq2⟩ := hq.2
    exact ⟨⟨q.val, h⟩, Finset.mem_filter.mpr ⟨Finset.mem_univ _, hq2⟩, Fin.ext rfl⟩

/-! ## A valid row -/

/-- The table's row read through the lookup's clamp, at an index the clamp leaves alone. -/
theorem W_row (W : FVec Ideal S2546x512 .f32) (x : BitVec 32) (d : Fin 512) (v : ℕ) (hx : gcl 2546 x = v) :
    W (ix2 ⟨gcl 2546 x, gcl_lt 2546 (by decide) x⟩ d) = Wrow W v d := by
  subst hx
  unfold Wrow
  rw [dif_pos (gcl_lt 2546 (by decide) x)]

/-- The reference's masked row read through the lookup's clamp, at an index the clamp leaves alone. -/
theorem embR_row (text : IVec S32x1024 32) (seq : IVec S32 32) (W : FVec Ideal S2546x512 .f32) (b : Fin 32)
    (x : BitVec 32) (d : Fin 512) (k : ℕ) (hk : k < 4096) (hx : gcl 4096 x = k) :
    embR text seq W b ⟨gcl 4096 x, gcl_lt 4096 (by decide) x⟩ d = embR text seq W b ⟨k, hk⟩ d := by
  subst hx; rfl

/-- The reference's row k, for a k below 1024 and below the target length: the table's row token k + 1. -/
theorem embR_valid (text : IVec S32x1024 32) (seq : IVec S32 32) (W : FVec Ideal S2546x512 .f32)
    (hpre : TextInRange text) (b : Fin 32) (d : Fin 512) (k : ℕ) (hk : k < 1024)
    (hkA : (k : Int) < (seq (ix1 b)).toInt) :
    embR text seq W b ⟨k, by omega⟩ d = Wrow W (IntOp.addi (text (ix2 b ⟨k, hk⟩)) 1#32).toNat d := by
  have hm : IntOp.cmpi .slt (BitVec.ofNat 32 k) (seq (ix1 b)) = 1#1 := by
    rw [cmpi_slt_one, toInt_ofNat_small k (by omega)]; exact hkA
  have hid : idsR text seq b ⟨k, by omega⟩ = IntOp.addi (text (ix2 b ⟨k, hk⟩)) 1#32 := by
    unfold idsR
    rw [select_one' _ _ _ hm, dif_pos hk]
  unfold embR
  rw [select_one' _ _ _ hm]
  obtain ⟨h1, h2⟩ := hpre b ⟨k, hk⟩
  have hti := toInt_add_one _ h1 h2
  have h0 : 0 ≤ (IntOp.addi (text (ix2 b ⟨k, hk⟩)) 1#32).toInt := by omega
  apply W_row
  rw [hid, wrapNeg_of_nonneg _ _ h0, gcl_of_lt 2546 _ h0 (by omega)]
  have hc := BitVec.toInt_eq_toNat_cond (IntOp.addi (text (ix2 b ⟨k, hk⟩)) 1#32)
  split at hc <;> omega

/-! ## The two result elements -/

/-- The reference's element spelled with any count n equal to the kernel's count. -/
theorem Rc_core (text : IVec S32x1024 32) (seq : IVec S32 32) (W : FVec Ideal S2546x512 .f32)
    (hpre : TextInRange text) (b : Fin 32) (t : Fin 4096) (d : Fin 512) (n : ℕ) (hnL : n = Lnat text seq b) :
    Scalar.select (okw (BitVec.ofNat 32 n) (seq (ix1 b)) (BitVec.ofNat 32 t.val))
      (embR text seq W b
        ⟨gcl 4096 (wrapNeg 4096#32 (clip 0#32 4095#32
          (jraw (BitVec.ofNat 32 n) (seq (ix1 b)) (BitVec.ofNat 32 t.val)))), gcl_lt 4096 (by decide) _⟩ d)
      (0 : EReal) = Gc text seq W b t d := by
  subst hnL
  unfold Gc jfin
  by_cases hok : okw (BitVec.ofNat 32 (Lnat text seq b)) (seq (ix1 b)) (BitVec.ofNat 32 t.val) = 1#1
  · -- a valid row
    have hn : Lnat text seq b ≤ 1024 := by
      unfold Lnat
      exact (Finset.card_filter_le _ _).trans (by simp)
    obtain ⟨-, -, hA0⟩ := Arith.okw_facts _ _ _ hok
    have hnA : Lnat text seq b ≤ (seq (ix1 b)).toInt.toNat := by
      refine le_trans ?_ (Arith.count_slt_le (seq (ix1 b)) hA0)
      unfold Lnat
      apply Finset.card_le_card
      intro p hp
      rw [Finset.mem_filter] at hp ⊢
      exact ⟨hp.1, ((andi_one _ _).mp hp.2).2⟩
    have hLN : (BitVec.ofNat 32 (Lnat text seq b)).toNat = Lnat text seq b := toNat_ofNat_lt _ (by omega)
    have hLI : (BitVec.ofNat 32 (Lnat text seq b)).toInt = (Lnat text seq b : Int) := toInt_ofNat_small _ (by omega)
    have hAnn := Int.toNat_of_nonneg (le_of_lt hA0)
    have hL : (BitVec.ofNat 32 (Lnat text seq b)).toNat ≤ 1024 := by rw [hLN]; exact hn
    have hLA : (BitVec.ofNat 32 (Lnat text seq b)).toInt ≤ (seq (ix1 b)).toInt := by rw [hLI]; omega
    have ht : (BitVec.ofNat 32 t.val).toNat < 4096 := by
      rw [toNat_ofNat_lt _ (by have := t.isLt; omega)]; exact t.isLt
    have hj := Arith.jraw_lt _ _ _ hok hL hLA ht
    rw [hLN] at hj
    rw [select_one' _ _ _ hok, select_one' _ _ _ hok, Arith.clip1023_jraw _ _ _ hok hL hLA ht,
      Arith.clip4095_jraw _ _ _ hok hL hLA ht]
    generalize jraw (BitVec.ofNat 32 (Lnat text seq b)) (seq (ix1 b)) (BitVec.ofNat 32 t.val) = j at hj ⊢
    have hj1024 : j.toNat < 1024 := by omega
    have hjI : j.toInt = (j.toNat : Int) := toInt_of_toNat_lt j (by omega)
    rw [if_pos hj1024]
    have hg : gcl 4096 (wrapNeg 4096#32 j) = j.toNat := by
      rw [wrapNeg_of_nonneg _ _ (by omega), gcl_of_lt 4096 _ (by omega) (by omega), hjI, Int.toNat_natCast]
    rw [embR_row text seq W b _ d j.toNat (by omega) hg]
    rw [embR_valid text seq W hpre b d j.toNat hj1024 (by omega)]
    unfold textAt
    rw [dif_pos hj1024]
  · -- an invalid row: zero on both sides
    rw [select_ne' _ _ _ hok, select_ne' _ _ _ hok, if_neg (by decide)]

theorem Rc_eq_Gc (text : IVec S32x1024 32) (seq : IVec S32 32) (W : FVec Ideal S2546x512 .f32)
    (hpre : TextInRange text) (b : Fin 32) (t : Fin 4096) (d : Fin 512) : Rc text seq W b t d = Gc text seq W b t d :=
  Rc_core text seq W hpre b t d (LnatR text seq b) (LnatR_eq text seq hpre b)

end Cert.Bridge

end
-- ==== Proof.PreDecode.lean ====
import proofs.«412804_j35905926595499_2_alg».proof.Pre_finite_inputs
import proofs.«412804_j35905926595499_2_alg».proof.Proof.Gen.Pre_finite_inputs
import proofs.«412804_j35905926595499_2_alg».proof.Proof.Spec
import Idealize.ShloMosaic.Lib.ReduceAll
import Idealize.ShloMosaic.Lib.StableHlo.Predicate

/-
  The precondition read at one token. Its second half is the conjunction, over every token word x of the [32, 1024]
  input, of -1 ≤ x and x ≤ 2544 (signed compares against broadcast constants, joined entry by entry and folded by
  "and" over both axes). When the whole predicate is one, the fold is one, so the joined compare is one at every
  entry, and each signed compare that is one is the inequality of the words read as integers.
-/

noncomputable section

namespace Cert.PreDecode

open Idealize.ShloMosaic Idealize.ShloMosaic.ValueIdx

/-- The scalar shape has one index. -/
instance : Subsingleton Cert.Pre_finite_inputs.S_.Idx := ⟨fun a b => funext fun d => d.elim0⟩

/-- The word of all ones is the integer -1. -/
theorem toInt_allOnes : (4294967295#32 : BitVec 32).toInt = -1 := by decide

/-- The word 2544 is the integer 2544. -/
theorem toInt_2544 : (2544#32 : BitVec 32).toInt = 2544 := by decide

/-- Where the precondition holds, every token word is the pad -1 or an id no larger than 2544. -/
theorem textInRange_of_pre [hP : Cert.Pre_finite_inputs.Facts] (a0 : IVec Cert.Pre_finite_inputs.S32x1024 32)
    (a1 : IVec Cert.Pre_finite_inputs.S32 32) (a2 : FVec Ideal Cert.Pre_finite_inputs.S2546x512 .f32)
    (h : Cert.Pre_finite_inputs.fn (F := Ideal) a0 a1 a2 = fun _ => 1#1) : Cert.Spec.TextInRange a0 := by
  intro b n
  have e := congrFun h ValueIdx.ix0
  dsimp only [Cert.Pre_finite_inputs.fn] at e
  -- the predicate is the "and" of the table's finiteness and the tokens' range: keep the second
  have e2 := (IntOp.andi_eq_one.mp e).2
  -- the fold by "and" over all entries is one: the joined compare is one at entry (b, n)
  have e3 := Host.reduce_andi_all _ _ _ _ _ e2 (ix2 b n)
  obtain ⟨hge, hle⟩ := IntOp.andi_eq_one.mp e3
  have h1 := IntOp.cmpi_sge.mp hge
  have h2 := IntOp.cmpi_sle.mp hle
  refine ⟨?_, ?_⟩
  · rw [← toInt_allOnes]; exact h1
  · rw [← toInt_2544]; exact h2

end Cert.PreDecode

end
-- ==== Proof.lean ====
/-
  The certificate of the text-embedding upsampler: a Pallas kernel that embeds a sample's tokens by a one-hot product
  against the (zero-padded) table once per sample, keeps the embedded rows in a scratch across the sample's four
  sequence tiles, and picks each output row by a second one-hot product against the length regulator's token index —
  against a jnp reference that looks the ids up, masks them, and gathers the regulator's rows.

  Both programs, read at the extended reals, end at ONE function of the arguments (Proof/Spec.lean's G): output row t
  of sample b is table row (token j + 1) for the regulator's index j = j(L, A, t) when the row is valid, zero
  otherwise. The kernel's side is Proof/KValue.lean (its host index arithmetic read element by element, the two
  one-hot products as row selections, the scratch by induction over the grid, the blocks tiling the result). The
  reference's side is Proof/RefOps.lean (its run), Proof/RefValueA.lean, RefValueB.lean and RefValue.lean (its
  operations read element by element). Proof/Bridge.lean joins them on the domain of the token input — every token
  word is the pad -1 or a vocabulary id below 2545 — which the precondition states (Proof/PreDecode.lean reads it off
  the printed predicate): there the two token counts agree and the regulator's index of a valid row lies below the
  count (Proof/Arith.lean), so no clip, wrap or clamp moves it. No law of the extended reals beyond 0 · x = 0,
  1 · x = x and 0 + x = x is used, so the finiteness of the table is never opened.
-/
import proofs.«412804_j35905926595499_2_alg».proof.Defs
import proofs.«412804_j35905926595499_2_alg».proof.Proof.Gen.Kernel
import proofs.«412804_j35905926595499_2_alg».proof.Proof.Gen.Kernel.Skeleton
import proofs.«412804_j35905926595499_2_alg».proof.Proof.Gen.Kernel.Launch
import proofs.«412804_j35905926595499_2_alg».proof.Proof.Gen.Kernel.Points
import proofs.«412804_j35905926595499_2_alg».proof.Proof.Gen.Kernel.Frame
import proofs.«412804_j35905926595499_2_alg».proof.Proof.Gen.KernelIdeal
import proofs.«412804_j35905926595499_2_alg».proof.Proof.Gen.KernelIdeal.Skeleton
import proofs.«412804_j35905926595499_2_alg».proof.Proof.Gen.KernelIdeal.Launch
import proofs.«412804_j35905926595499_2_alg».proof.Proof.Gen.KernelIdeal.Points
import proofs.«412804_j35905926595499_2_alg».proof.Proof.Gen.KernelIdeal.Frame
import proofs.«412804_j35905926595499_2_alg».proof.Proof.Gen.KernelIdeal.Value
import proofs.«412804_j35905926595499_2_alg».proof.Proof.Gen.ReferenceIdeal
import proofs.«412804_j35905926595499_2_alg».proof.Proof.Gen.Pre_finite_inputs
import proofs.«412804_j35905926595499_2_alg».proof.Proof.KValue
import proofs.«412804_j35905926595499_2_alg».proof.Proof.RefValue
import proofs.«412804_j35905926595499_2_alg».proof.Proof.Bridge
import proofs.«412804_j35905926595499_2_alg».proof.Proof.PreDecode
import Idealize.ShloMosaic.Adequacy
import Idealize.ShloMosaic.Init

noncomputable section

namespace Cert.Proof

open Idealize.ShloMosaic Idealize.ShloMosaic.ValueIdx Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, read at the three arguments. -/
theorem frame_ri : Cert.frame_ReferenceIdeal := fun m ρ _ =>
  (θ_run Cert.ReferenceIdeal.defs _ _).mono
    (fun r h c => ⟨(h c Cert.ReferenceIdeal.main_arg0).trans (Cert.RefValue.arg0_kept _),
      (h c Cert.ReferenceIdeal.main_arg1).trans (Cert.RefValue.arg1_kept _),
      (h c Cert.ReferenceIdeal.main_arg2).trans (Cert.RefValue.arg2_kept _)⟩)
    (Cert.RefRun.run_main (F := Ideal) m ρ)

/-- Both idealized programs end at the result function of the arguments; on the token domain the reference's element
    is the kernel's. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KValue.run m ρ, ?_⟩
  refine (θ_run Cert.ReferenceIdeal.defs _ _).mono (fun r h c => ⟨?_,
      (h c Cert.ReferenceIdeal.main_arg0).trans (Cert.RefValue.arg0_kept _),
      (h c Cert.ReferenceIdeal.main_arg1).trans (Cert.RefValue.arg1_kept _),
      (h c Cert.ReferenceIdeal.main_arg2).trans (Cert.RefValue.arg2_kept _)⟩)
    (Cert.RefRun.run_main (F := Ideal) m' ρ')
  have hdom := Cert.PreDecode.textInRange_of_pre _ _ _ (hpre c)
  rw [h c Cert.ReferenceIdeal.main_v76]
  funext i
  obtain ⟨b, t, d, rfl⟩ : ∃ (b : Fin 32) (t : Fin 4096) (d : Fin 512), i = ix3 b t d := ⟨i 0, i 1, i 2, eq_ix3 i⟩
  rw [Cert.RefValue.ref_eq]
  have e0 := (hagree c).1
  have e1 := (hagree c).2.1
  have e2 := (hagree c).2.2
  show Cert.Spec.Rc (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) b t d
    = Cert.Spec.Gc (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) b t d
  rw [e0, e1, e2]
  exact Cert.Bridge.Rc_eq_Gc _ _ _ hdom b t d

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
